-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v55)) (v1 : (c : Dev Cert.KernelIdeal.nD) → Buf (Elt Ideal) ((c.tc : Thread Cert.KernelIdeal.nD Cert.KernelIdeal.τ).loc Cert.KernelIdeal.main_v50)) (v2 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_v50) = v1 c
          ∧ r.2.mem ((c.tc : Thread Cert.KernelIdeal.nD Cert.KernelIdeal.τ).loc Cert.KernelIdeal.main_v53) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_v98) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64 : Shape := ⟨1, ![64]⟩
abbrev S2x64x1024 : Shape := ⟨3, ![2, 64, 1024]⟩
abbrev S32000x512 : Shape := ⟨2, ![32000, 512]⟩
abbrev S4096x512 : Shape := ⟨2, ![4096, 512]⟩
abbrev S4096x1024 : Shape := ⟨2, ![4096, 1024]⟩
abbrev S4096 : Shape := ⟨1, ![4096]⟩
abbrev S32000x1024 : Shape := ⟨2, ![32000, 1024]⟩
abbrev S32000 : Shape := ⟨1, ![32000]⟩
abbrev S_ : Shape := ⟨0, ![]⟩

class Facts : Prop where
  bcast_S_S2x64x1024 : S_.BroadcastsInDim S2x64x1024 (![] : Fin 0 → Fin S2x64x1024.rank)
  reducesTo_S2x64x1024_S_d0_1_2 : S2x64x1024.ReducesTo [0, 1, 2] S_
  h_S_ : 0 < S_.numel
  bcast_S_S32000x512 : S_.BroadcastsInDim S32000x512 (![] : Fin 0 → Fin S32000x512.rank)
  reducesTo_S32000x512_S_d0_1 : S32000x512.ReducesTo [0, 1] S_
  bcast_S_S4096x512 : S_.BroadcastsInDim S4096x512 (![] : Fin 0 → Fin S4096x512.rank)
  reducesTo_S4096x512_S_d0_1 : S4096x512.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S32000x1024 : S_.BroadcastsInDim S32000x1024 (![] : Fin 0 → Fin S32000x1024.rank)
  reducesTo_S32000x1024_S_d0_1 : S32000x1024.ReducesTo [0, 1] S_
  bcast_S_S32000 : S_.BroadcastsInDim S32000 (![] : Fin 0 → Fin S32000.rank)
  reducesTo_S32000_S_d0 : S32000.ReducesTo [0] S_
  bcast_S_S64 : S_.BroadcastsInDim S64 (![] : Fin 0 → Fin S64.rank)
  reducesTo_S64_S_d0 : S64.ReducesTo [0] S_

variable [Facts]

def fn_part3 {F : FTy → Type} [FloatOps F] (main_arg0 : IVec S64 32) (main_arg12 : FVec F S32000x1024 .f32) (main_arg13 : FVec F S32000 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S32000x1024 .f32 := Host.absf main_arg12
  let main_cst_20 : FVec F S_ .f32 := constant S_ .f32 0x7F800000#32
  let main_v55 : FVec F S32000x1024 .f32 := broadcastInDim S32000x1024 ![] bcast_S_S32000x1024 main_cst_20
  let main_v56 : IVec S32000x1024 1 := cmpf .olt main_v54 main_v55
  let main_c_21 : IVec S_ 1 := constantI S_ 1 1#1
  let main_v57 : IVec S_ 1 := (fun x v => Host.reduce IntOp.andi x v reducesTo_S32000x1024_S_d0_1 h_S_) main_v56 main_c_21
  let main_v58 : IVec S_ 1 := andi main_v53 main_v57
  let main_v59 : FVec F S32000 .f32 := Host.absf main_arg13
  let main_cst_22 : FVec F S_ .f32 := constant S_ .f32 0x7F800000#32
  let main_v60 : FVec F S32000 .f32 := broadcastInDim S32000 ![] bcast_S_S32000 main_cst_22
  let main_v61 : IVec S32000 1 := cmpf .olt main_v59 main_v60
  let main_c_23 : IVec S_ 1 := constantI S_ 1 1#1
  let main_v62 : IVec S_ 1 := (fun x v => Host.reduce IntOp.andi x v reducesTo_S32000_S_d0 h_S_) main_v61 main_c_23
  let main_v63 : IVec S_ 1 := andi main_v58 main_v62
  let main_c_24 : IVec S_ 32 := constantI S_ 32 0#32
  let main_v64 : IVec S64 32 := broadcastInDim S64 ![] bcast_S_S64 main_c_24
  let main_v65 : IVec S64 1 := cmpi .sge main_arg0 main_v64
  let main_c_25 : IVec S_ 1 := constantI S_ 1 1#1
  let main_v66 : IVec S_ 1 := (fun x v => Host.reduce IntOp.andi x v reducesTo_S64_S_d0 h_S_) main_v65 main_c_25
  let main_v67 : IVec S_ 1 := andi main_v63 main_v66
  main_v67

def fn_part2 {F : FTy → Type} [FloatOps F] (main_arg0 : IVec S64 32) (main_arg8 : FVec F S4096x1024 .f32) (main_arg9 : FVec F S4096x1024 .f32) (main_arg10 : FVec F S4096 .f32) (main_arg11 : FVec F S4096 .f32) (main_arg12 : FVec F S32000x1024 .f32) (main_arg13 : FVec F S32000 .f32) (main_v33 : IVec S_ 1) : IVec S_ 1 :=
  let main_v34 : FVec F S4096x1024 .f32 := Host.absf main_arg8
  let main_cst_12 : FVec F S_ .f32 := constant S_ .f32 0x7F800000#32
  let main_v35 : FVec F S4096x1024 .f32 := broadcastInDim S4096x1024 ![] bcast_S_S4096x1024 main_cst_12
  let main_v36 : IVec S4096x1024 1 := cmpf .olt main_v34 main_v35
  let main_c_13 : IVec S_ 1 := constantI S_ 1 1#1
  let main_v37 : IVec S_ 1 := (fun x v => Host.reduce IntOp.andi x v reducesTo_S4096x1024_S_d0_1 h_S_) main_v36 main_c_13
  let main_v38 : IVec S_ 1 := andi main_v33 main_v37
  let main_v39 : FVec F S4096x1024 .f32 := Host.absf main_arg9
  let main_cst_14 : FVec F S_ .f32 := constant S_ .f32 0x7F800000#32
  let main_v40 : FVec F S4096x1024 .f32 := broadcastInDim S4096x1024 ![] bcast_S_S4096x1024 main_cst_14
  let main_v41 : IVec S4096x1024 1 := cmpf .olt main_v39 main_v40
  let main_c_15 : IVec S_ 1 := constantI S_ 1 1#1
  let main_v42 : IVec S_ 1 := (fun x v => Host.reduce IntOp.andi x v reducesTo_S4096x1024_S_d0_1 h_S_) main_v41 main_c_15
  let main_v43 : IVec S_ 1 := andi main_v38 main_v42
  let main_v44 : FVec F S4096 .f32 := Host.absf main_arg10
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  let main_v49 : FVec F S4096 .f32 := Host.absf main_arg11
  let main_cst_18 : FVec F S_ .f32 := constant S_ .f32 0x7F800000#32
  let main_v50 : FVec F S4096 .f32 := broadcastInDim S4096 ![] bcast_S_S4096 main_cst_18
  fn_part3 (F := F) main_arg0 main_arg12 main_arg13 main_v48 main_v49 main_v50

def fn_part1 {F : FTy → Type} [FloatOps F] (main_arg0 : IVec S64 32) (main_arg5 : FVec F S4096x1024 .f32) (main_arg6 : FVec F S4096 .f32) (main_arg7 : FVec F S4096 .f32) (main_arg8 : FVec F S4096x1024 .f32) (main_arg9 : FVec F S4096x1024 .f32) (main_arg10 : FVec F S4096 .f32) (main_arg11 : FVec F S4096 .f32) (main_arg12 : FVec F S32000x1024 .f32) (main_arg13 : FVec F S32000 .f32) (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  let main_v19 : FVec F S4096x1024 .f32 := Host.absf main_arg5
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096 .f32 := Host.absf main_arg6
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg7
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg0 main_arg8 main_arg9 main_arg10 main_arg11 main_arg12 main_arg13 main_v33

def fn {F : FTy → Type} [FloatOps F] (main_arg0 : IVec S64 32) (main_arg1 : FVec F S2x64x1024 .f32) (main_arg2 : FVec F S2x64x1024 .f32) (main_arg3 : FVec F S32000x512 .f32) (main_arg4 : FVec F S4096x512 .f32) (main_arg5 : FVec F S4096x1024 .f32) (main_arg6 : FVec F S4096 .f32) (main_arg7 : FVec F S4096 .f32) (main_arg8 : FVec F S4096x1024 .f32) (main_arg9 : FVec F S4096x1024 .f32) (main_arg10 : FVec F S4096 .f32) (main_arg11 : FVec F S4096 .f32) (main_arg12 : FVec F S32000x1024 .f32) (main_arg13 : FVec F S32000 .f32) : IVec S_ 1 :=
  let main_v0 : FVec F S2x64x1024 .f32 := Host.absf main_arg1
  let main_cst : FVec F S_ .f32 := constant S_ .f32 0x7F800000#32
  let main_v1 : FVec F S2x64x1024 .f32 := broadcastInDim S2x64x1024 ![] bcast_S_S2x64x1024 main_cst
  let main_v2 : IVec S2x64x1024 1 := cmpf .olt main_v0 main_v1
  let main_c : IVec S_ 1 := constantI S_ 1 1#1
  let main_v3 : IVec S_ 1 := (fun x v => Host.reduce IntOp.andi x v reducesTo_S2x64x1024_S_d0_1_2 h_S_) main_v2 main_c
  let main_v4 : FVec F S2x64x1024 .f32 := Host.absf main_arg2
  let main_cst_0 : FVec F S_ .f32 := constant S_ .f32 0x7F800000#32
  let main_v5 : FVec F S2x64x1024 .f32 := broadcastInDim S2x64x1024 ![] bcast_S_S2x64x1024 main_cst_0
  let main_v6 : IVec S2x64x1024 1 := cmpf .olt main_v4 main_v5
  let main_c_1 : IVec S_ 1 := constantI S_ 1 1#1
  let main_v7 : IVec S_ 1 := (fun x v => Host.reduce IntOp.andi x v reducesTo_S2x64x1024_S_d0_1_2 h_S_) main_v6 main_c_1
  let main_v8 : IVec S_ 1 := andi main_v3 main_v7
  let main_v9 : FVec F S32000x512 .f32 := Host.absf main_arg3
  let main_cst_2 : FVec F S_ .f32 := constant S_ .f32 0x7F800000#32
  let main_v10 : FVec F S32000x512 .f32 := broadcastInDim S32000x512 ![] bcast_S_S32000x512 main_cst_2
  let main_v11 : IVec S32000x512 1 := cmpf .olt main_v9 main_v10
  let main_c_3 : IVec S_ 1 := constantI S_ 1 1#1
  let main_v12 : IVec S_ 1 := (fun x v => Host.reduce IntOp.andi x v reducesTo_S32000x512_S_d0_1 h_S_) main_v11 main_c_3
  let main_v13 : IVec S_ 1 := andi main_v8 main_v12
  let main_v14 : FVec F S4096x512 .f32 := Host.absf main_arg4
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_arg0 main_arg5 main_arg6 main_arg7 main_arg8 main_arg9 main_arg10 main_arg11 main_arg12 main_arg13 main_v13 main_v16
-- ==== Kernel.lean ====
abbrev S64 : Shape := ⟨1, ![64]⟩
abbrev S2x64x1024 : Shape := ⟨3, ![2, 64, 1024]⟩
abbrev S32000x512 : Shape := ⟨2, ![32000, 512]⟩
abbrev S4096x512 : Shape := ⟨2, ![4096, 512]⟩
abbrev S4096x1024 : Shape := ⟨2, ![4096, 1024]⟩
abbrev S4096 : Shape := ⟨1, ![4096]⟩
abbrev S32000x1024 : Shape := ⟨2, ![32000, 1024]⟩
abbrev S32000 : Shape := ⟨1, ![32000]⟩
abbrev S_ : Shape := ⟨0, ![]⟩
abbrev S64x1 : Shape := ⟨2, ![64, 1]⟩
abbrev S64x512 : Shape := ⟨2, ![64, 512]⟩
abbrev S1x4096 : Shape := ⟨2, ![1, 4096]⟩
abbrev S1x64x1024 : Shape := ⟨3, ![1, 64, 1024]⟩
abbrev S64x1024 : Shape := ⟨2, ![64, 1024]⟩
abbrev S4x64x1024 : Shape := ⟨3, ![4, 64, 1024]⟩
abbrev S1024x512 : Shape := ⟨2, ![1024, 512]⟩
abbrev S1024x1024 : Shape := ⟨2, ![1024, 1024]⟩
abbrev S1x1024 : Shape := ⟨2, ![1, 1024]⟩
abbrev S1x32000 : Shape := ⟨2, ![1, 32000]⟩
abbrev S64x32000 : Shape := ⟨2, ![64, 32000]⟩
abbrev S3200x1024 : Shape := ⟨2, ![3200, 1024]⟩
abbrev S1x3200 : Shape := ⟨2, ![1, 3200]⟩
abbrev S64x3200 : Shape := ⟨2, ![64, 3200]⟩

abbrev nBuf : Space → Nat
  | .hbm => 79
  | .vmem => 27
  | .smem => 0
  | _ => 0

abbrev bufTy : (tb : Table) → Fin (tcTables nBuf tb) → BufTy
  | .hbm, ⟨0, _⟩ => ⟨S64, .i32⟩
  | .hbm, ⟨1, _⟩ => ⟨S2x64x1024, .f32⟩
  | .hbm, ⟨2, _⟩ => ⟨S2x64x1024, .f32⟩
  | .hbm, ⟨3, _⟩ => ⟨S32000x512, .f32⟩
  | .hbm, ⟨4, _⟩ => ⟨S4096x512, .f32⟩
  | .hbm, ⟨5, _⟩ => ⟨S4096x1024, .f32⟩
  | .hbm, ⟨6, _⟩ => ⟨S4096, .f32⟩
  | .hbm, ⟨7, _⟩ => ⟨S4096, .f32⟩
  | .hbm, ⟨8, _⟩ => ⟨S4096x1024, .f32⟩
  | .hbm, ⟨9, _⟩ => ⟨S4096x1024, .f32⟩
  | .hbm, ⟨10, _⟩ => ⟨S4096, .f32⟩
  | .hbm, ⟨11, _⟩ => ⟨S4096, .f32⟩
  | .hbm, ⟨12, _⟩ => ⟨S32000x1024, .f32⟩
  | .hbm, ⟨13, _⟩ => ⟨S32000, .f32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S_, .i32⟩
  | .hbm, ⟨20, _⟩ => ⟨S64, .i32⟩
  | .hbm, ⟨21, _⟩ => ⟨S64, .i32⟩
  | .hbm, ⟨22, _⟩ => ⟨S_, .i32⟩
  | .hbm, ⟨23, _⟩ => ⟨S64, .i32⟩
  | .hbm, ⟨24, _⟩ => ⟨S64, .i1⟩
  | .hbm, ⟨25, _⟩ => ⟨S_, .i32⟩
  | .hbm, ⟨26, _⟩ => ⟨S64, .i32⟩
  | .hbm, ⟨27, _⟩ => ⟨S64, .i32⟩
  | .hbm, ⟨28, _⟩ => ⟨S64, .i32⟩
  | .hbm, ⟨29, _⟩ => ⟨S64x1, .i32⟩
  | .hbm, ⟨30, _⟩ => ⟨S64x512, .f32⟩
  | .hbm, ⟨31, _⟩ => ⟨S4096, .f32⟩
  | .hbm, ⟨32, _⟩ => ⟨S1x4096, .f32⟩
  | .hbm, ⟨33, _⟩ => ⟨S4096, .f32⟩
  | .hbm, ⟨34, _⟩ => ⟨S1x4096, .f32⟩
  | .hbm, ⟨35, _⟩ => ⟨S1x64x1024, .f32⟩
  | .hbm, ⟨36, _⟩ => ⟨S64x1024, .f32⟩
  | .hbm, ⟨37, _⟩ => ⟨S4x64x1024, .f32⟩
  | .hbm, ⟨38, _⟩ => ⟨S1x64x1024, .f32⟩
  | .hbm, ⟨39, _⟩ => ⟨S64x1024, .f32⟩
  | .hbm, ⟨40, _⟩ => ⟨S1x64x1024, .f32⟩
  | .hbm, ⟨41, _⟩ => ⟨S64x1024, .f32⟩
  | .hbm, ⟨42, _⟩ => ⟨S1x64x1024, .f32⟩
  | .hbm, ⟨43, _⟩ => ⟨S64x1024, .f32⟩
  | .hbm, ⟨44, _⟩ => ⟨S1x64x1024, .f32⟩
  | .hbm, ⟨45, _⟩ => ⟨S64x1024, .f32⟩
  | .hbm, ⟨46, _⟩ => ⟨S1x64x1024, .f32⟩
  | .hbm, ⟨47, _⟩ => ⟨S64x1024, .f32⟩
  | .hbm, ⟨48, _⟩ => ⟨S64x1024, .f32⟩
  | .hbm, ⟨49, _⟩ => ⟨S64x1024, .f32⟩
  | .hbm, ⟨50, _⟩ => ⟨S64x1024, .f32⟩
  | .hbm, ⟨51, _⟩ => ⟨S64x1024, .f32⟩
  | .hbm, ⟨52, _⟩ => ⟨S64x1024, .f32⟩
  | .hbm, ⟨53, _⟩ => ⟨S1x64x1024, .f32⟩
  | .hbm, ⟨54, _⟩ => ⟨S64x1024, .f32⟩
  | .hbm, ⟨55, _⟩ => ⟨S4x64x1024, .f32⟩
  | .hbm, ⟨56, _⟩ => ⟨S1x64x1024, .f32⟩
  | .hbm, ⟨57, _⟩ => ⟨S64x1024, .f32⟩
  | .hbm, ⟨58, _⟩ => ⟨S1x64x1024, .f32⟩
  | .hbm, ⟨59, _⟩ => ⟨S64x1024, .f32⟩
  | .hbm, ⟨60, _⟩ => ⟨S1x64x1024, .f32⟩
  | .hbm, ⟨61, _⟩ => ⟨S64x1024, .f32⟩
  | .hbm, ⟨62, _⟩ => ⟨S1x64x1024, .f32⟩
  | .hbm, ⟨63, _⟩ => ⟨S64x1024, .f32⟩
  | .hbm, ⟨64, _⟩ => ⟨S1x64x1024, .f32⟩
  | .hbm, ⟨65, _⟩ => ⟨S64x1024, .f32⟩
  | .hbm, ⟨66, _⟩ => ⟨S64x1024, .f32⟩
  | .hbm, ⟨67, _⟩ => ⟨S64x1024, .f32⟩
  | .hbm, ⟨68, _⟩ => ⟨S64x1024, .f32⟩
  | .hbm, ⟨69, _⟩ => ⟨S64x1024, .f32⟩
  | .hbm, ⟨70, _⟩ => ⟨S64x1024, .f32⟩
  | .hbm, ⟨71, _⟩ => ⟨S1x64x1024, .f32⟩
  | .hbm, ⟨72, _⟩ => ⟨S1x64x1024, .f32⟩
  | .hbm, ⟨73, _⟩ => ⟨S2x64x1024, .f32⟩
  | .hbm, ⟨74, _⟩ => ⟨S1x64x1024, .f32⟩
  | .hbm, ⟨75, _⟩ => ⟨S1x64x1024, .f32⟩
  | .hbm, ⟨76, _⟩ => ⟨S2x64x1024, .f32⟩
  | .hbm, ⟨77, _⟩ => ⟨S1x32000, .f32⟩
  | .hbm, ⟨78, _⟩ => ⟨S64x32000, .f32⟩
  | .local _ .vmem, ⟨0, _⟩ => ⟨S64x512, .f32⟩
  | .local _ .vmem, ⟨1, _⟩ => ⟨S64x1024, .f32⟩
  | .local _ .vmem, ⟨2, _⟩ => ⟨S1024x512, .f32⟩
  | .local _ .vmem, ⟨3, _⟩ => ⟨S1024x512, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1x64x1024, .f32⟩
  | .local _ .vmem, ⟨9, _⟩ => ⟨S1x64x1024, .f32⟩
  | .local _ .vmem, ⟨10, _⟩ => ⟨S64x1024, .f32⟩
  | .local _ .vmem, ⟨11, _⟩ => ⟨S64x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1x1024, .f32⟩
  | .local _ .vmem, ⟨17, _⟩ => ⟨S1x1024, .f32⟩
  | .local _ .vmem, ⟨18, _⟩ => ⟨S1x64x1024, .f32⟩
  | .local _ .vmem, ⟨19, _⟩ => ⟨S1x64x1024, .f32⟩
  | .local _ .vmem, ⟨20, _⟩ => ⟨S64x1024, .f32⟩
  | .local _ .vmem, ⟨21, _⟩ => ⟨S3200x1024, .f32⟩
  | .local _ .vmem, ⟨22, _⟩ => ⟨S3200x1024, .f32⟩
  | .local _ .vmem, ⟨23, _⟩ => ⟨S1x3200, .f32⟩
  | .local _ .vmem, ⟨24, _⟩ => ⟨S1x3200, .f32⟩
  | .local _ .vmem, ⟨25, _⟩ => ⟨S64x3200, .f32⟩
  | .local _ .vmem, ⟨26, _⟩ => ⟨S64x3200, .f32⟩
  | _, _ => ⟨S64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_c_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v0 : Ref sig .tc := ⟨.hbm, 21, rfl⟩
abbrev main_c_1 : Ref sig .tc := ⟨.hbm, 22, rfl⟩
abbrev main_v1 : Ref sig .tc := ⟨.hbm, 23, rfl⟩
abbrev main_v2 : Ref sig .tc := ⟨.hbm, 24, rfl⟩
abbrev main_c_2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem3_1 : DmaSem sig := 26

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c2_i32 : BitVec 32 := 2#32
  let v17 : BitVec 1 := Scalar.cmpi .eq arg0 c2_i32
  let v18 : BitVec 32 := Scalar.extui v17
  let c0_i32 : BitVec 32 := 0#32
  let v19 : BitVec 1 := Scalar.cmpi .ne v18 c0_i32
  v19

def k0_cond2 (i : grid0.Coords) : BitVec 1 :=
  let arg0 : BitVec 32 := BitVec.ofNat 32 (i 0).val
  let c2_i32_10 : BitVec 32 := 2#32
  let v20 : BitVec 1 := Scalar.cmpi .ne arg0 c2_i32_10
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

def k1_cond1 (i : grid1.Coords) : BitVec 1 :=
  let arg0 : BitVec 32 := BitVec.ofNat 32 (i 0).val
  let c2_i32 : BitVec 32 := 2#32
  let v17 : BitVec 1 := Scalar.cmpi .eq arg0 c2_i32
  let v18 : BitVec 32 := Scalar.extui v17
  let c0_i32 : BitVec 32 := 0#32
  let v19 : BitVec 1 := Scalar.cmpi .ne v18 c0_i32
  v19

def k1_cond2 (i : grid1.Coords) : BitVec 1 :=
  let arg0 : BitVec 32 := BitVec.ofNat 32 (i 0).val
  let c2_i32_10 : BitVec 32 := 2#32
  let v20 : BitVec 1 := Scalar.cmpi .ne arg0 c2_i32_10
  let v21 : BitVec 32 := Scalar.extui v20
  let c0_i32_11 : BitVec 32 := 0#32
  let v22 : BitVec 1 := Scalar.cmpi .ne v21 c0_i32_11
  v22

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S64x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S64x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x64x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S64x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S3200x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x3200 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S64x3200 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S64 : S_.BroadcastsInDim S64 (![] : Fin 0 → Fin S64.rank)
  bcast_S64_S64x1_0 : S64.BroadcastsInDim S64x1 (![0] : Fin 1 → Fin S64x1.rank)
  shapeCasts_S4096_S1x4096 : S4096.ShapeCasts S1x4096
  slices_S2x64x1024_S1x64x1024_0_0_0 : S2x64x1024.Slices ![0, 0, 0] S1x64x1024
  shapeCasts_S1x64x1024_S64x1024 : S1x64x1024.ShapeCasts S64x1024
  inb_S64x512_S64x512_0_0 : ∀ a, (![0, 0] : Fin 2 → Nat) a + S64x512.size a ≤ S64x512.size a
  h_S64x512 : 0 < S64x512.numel
  shapeCasts_S64x512_S64x512 : S64x512.ShapeCasts S64x512
  bitsLt_bf16_f32 : FTy.bits .bf16 < FTy.bits .f32
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1024x512_S1024x512_0_0 : ∀ a, (![0, 0] : Fin 2 → Nat) a + S1024x512.size a ≤ S1024x512.size a
  h_S1024x512 : 0 < S1024x512.numel
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S64x1024 : S1x1024.Broadcasts S64x1024
  inb_S1x64x1024_S1x64x1024_0_0_0 : ∀ a, (![0, 0, 0] : Fin 3 → Nat) a + S1x64x1024.size a ≤ S1x64x1024.size a
  h_S1x64x1024 : 0 < S1x64x1024.numel
  shapeCasts_S64x1024_S1x64x1024 : S64x1024.ShapeCasts S1x64x1024
  slices_S4x64x1024_S1x64x1024_0_0_0 : S4x64x1024.Slices ![0, 0, 0] S1x64x1024
  slices_S4x64x1024_S1x64x1024_1_0_0 : S4x64x1024.Slices ![1, 0, 0] S1x64x1024
  slices_S4x64x1024_S1x64x1024_2_0_0 : S4x64x1024.Slices ![2, 0, 0] S1x64x1024
  slices_S4x64x1024_S1x64x1024_3_0_0 : S4x64x1024.Slices ![3, 0, 0] S1x64x1024
  slices_S2x64x1024_S1x64x1024_1_0_0 : S2x64x1024.Slices ![1, 0, 0] S1x64x1024
  bcast_S64x1024_S1x64x1024_1_2 : S64x1024.BroadcastsInDim S1x64x1024 (![1, 2] : Fin 2 → Fin S1x64x1024.rank)
  concatenates_S1x64x1024_S1x64x1024_S2x64x1024_d0 : Shape.Concatenates [S1x64x1024, S1x64x1024] S2x64x1024 0
  shapeCasts_S32000_S1x32000 : S32000.ShapeCasts S1x32000
  inb_S3200x1024_S3200x1024_0_0 : ∀ a, (![0, 0] : Fin 2 → Nat) a + S3200x1024.size a ≤ S3200x1024.size a
  h_S3200x1024 : 0 < S3200x1024.numel
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  broadcasts_S1x3200_S64x3200 : S1x3200.Broadcasts S64x3200
  inb_S64x3200_S64x3200_0_0 : ∀ a, (![0, 0] : Fin 2 → Nat) a + S64x3200.size a ≤ S64x3200.size a
  h_S64x3200 : 0 < S64x3200.numel
  gather_S32000x512_S64x1_S64x512_1_0_n_n_0_1_1512_wf : GatherDims.WF S32000x512 S64x1 S64x512 [1] [0] [] [0] [] 1 ![1, 512]
  dot_S64x512_S1024x512_S64x1024_1_1_0_0_n_n_wf : DotDims.WF S64x512 S1024x512 S64x1024 [1] [1] [0] [0] [] []
  dot_S64x1024_S1024x1024_S64x1024_1_1_0_0_n_n_wf : DotDims.WF S64x1024 S1024x1024 S64x1024 [1] [1] [0] [0] [] []
  dot_S64x1024_S3200x1024_S64x3200_1_1_0_0_n_n_wf : DotDims.WF S64x1024 S3200x1024 S64x3200 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x512.size a ≤ S64x512.size a
  hwx0_0 : ∀ i : grid0.Coords, EltTy.bits .f32 = 32 ∨ (Rect.block (s := S64x512) S64x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x1024.size a
  hwx0_1 : ∀ i : grid0.Coords, EltTy.bits .f32 = 32 ∨ (Rect.block (s := S64x1024) S64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x512.size a
  hwx0_2 : ∀ i : grid0.Coords, EltTy.bits .f32 = 32 ∨ (Rect.block (s := S4096x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x1024.size a
  hwx0_3 : ∀ i : grid0.Coords, EltTy.bits .f32 = 32 ∨ (Rect.block (s := S4096x1024) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x1024.size a ≤ S4x64x1024.size a
  hwx0_5 : ∀ i : grid0.Coords, EltTy.bits .f32 = 32 ∨ (Rect.block (s := S4x64x1024) S1x64x1024.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x1024.size a ≤ S64x1024.size a
  hwx1_0 : ∀ i : grid1.Coords, EltTy.bits .f32 = 32 ∨ (Rect.block (s := S64x1024) S64x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x1024.size a ≤ S64x1024.size a
  hwx1_1 : ∀ i : grid1.Coords, EltTy.bits .f32 = 32 ∨ (Rect.block (s := S64x1024) S64x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x1024.size a
  hwx1_2 : ∀ i : grid1.Coords, EltTy.bits .f32 = 32 ∨ (Rect.block (s := S4096x1024) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x1024.size a
  hwx1_3 : ∀ i : grid1.Coords, EltTy.bits .f32 = 32 ∨ (Rect.block (s := S4096x1024) S1024x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x4096.size a
  hwx1_4 : ∀ i : grid1.Coords, EltTy.bits .f32 = 32 ∨ (Rect.block (s := S1x4096) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x64x1024.size a ≤ S4x64x1024.size a
  hwx1_5 : ∀ i : grid1.Coords, EltTy.bits .f32 = 32 ∨ (Rect.block (s := S4x64x1024) S1x64x1024.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S64x1024.size a ≤ S64x1024.size a
  hwx2_0 : ∀ i : grid2.Coords, EltTy.bits .f32 = 32 ∨ (Rect.block (s := S64x1024) S64x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3200x1024.size a ≤ S32000x1024.size a
  hwx2_1 : ∀ i : grid2.Coords, EltTy.bits .f32 = 32 ∨ (Rect.block (s := S32000x1024) S3200x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x3200.size a ≤ S1x32000.size a
  hwx2_2 : ∀ i : grid2.Coords, EltTy.bits .f32 = 32 ∨ (Rect.block (s := S1x32000) S1x3200.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S64x3200.size a ≤ S64x32000.size a
  hwx2_3 : ∀ i : grid2.Coords, EltTy.bits .f32 = 32 ∨ (Rect.block (s := S64x32000) S64x3200.size (cc2_transform_3 i) (hinb2_3 i)).WholeWords (EltTy.packing .f32)

variable [Facts₀]

def gather_S32000x512_S64x1_S64x512_1_0_n_n_0_1_1512 : GatherDims S32000x512 S64x1 S64x512 where
  offsetDims := [1]
  collapsedSliceDims := [0]
  operandBatchingDims := []
  startIndicesBatchingDims := []
  startIndexMap := [0]
  indexVectorDim := 1
  sliceSizes := ![1, 512]
  wf := gather_S32000x512_S64x1_S64x512_1_0_n_n_0_1_1512_wf
def dot_S64x512_S1024x512_S64x1024_1_1_0_0_n_n : DotDims S64x512 S1024x512 S64x1024 where
  lhsContracting := [1]
  rhsContracting := [1]
  lhsNonContracting := [0]
  rhsNonContracting := [0]
  lhsBatch := []
  rhsBatch := []
  wf := dot_S64x512_S1024x512_S64x1024_1_1_0_0_n_n_wf
def dot_S64x1024_S1024x1024_S64x1024_1_1_0_0_n_n : DotDims S64x1024 S1024x1024 S64x1024 where
  lhsContracting := [1]
  rhsContracting := [1]
  lhsNonContracting := [0]
  rhsNonContracting := [0]
  lhsBatch := []
  rhsBatch := []
  wf := dot_S64x1024_S1024x1024_S64x1024_1_1_0_0_n_n_wf
def dot_S64x1024_S3200x1024_S64x3200_1_1_0_0_n_n : DotDims S64x1024 S3200x1024 S64x3200 where
  lhsContracting := [1]
  rhsContracting := [1]
  lhsNonContracting := [0]
  rhsNonContracting := [0]
  lhsBatch := []
  rhsBatch := []
  wf := dot_S64x1024_S3200x1024_S64x3200_1_1_0_0_n_n_wf

abbrev win0_0 : Pipeline.Window sig grid0 :=
  Pipeline.Window.ofSpec (Memref.whole main_v7) S64x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v13) S64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x64x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond1 i == 1#1) && !(k0_cond2 i == 1#1) | ⟨_ + 6, h⟩ => absurd h (Nat.not_lt.2 (Nat.le_add_left _ _))

abbrev win1_0 : Pipeline.Window sig grid1 :=
  Pipeline.Window.ofSpec (Memref.whole main_v29) S64x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v31) S64x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x64x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond1 i == 1#1) && !(k1_cond2 i == 1#1) | ⟨_ + 6, h⟩ => absurd h (Nat.not_lt.2 (Nat.le_add_left _ _))

abbrev win2_0 : Pipeline.Window sig grid2 :=
  Pipeline.Window.ofSpec (Memref.whole main_v47) S64x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg12) S3200x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x3200.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v55) S64x3200.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S64 : Shape := ⟨1, ![64]⟩
abbrev S2x64x1024 : Shape := ⟨3, ![2, 64, 1024]⟩
abbrev S32000x512 : Shape := ⟨2, ![32000, 512]⟩
abbrev S4096x512 : Shape := ⟨2, ![4096, 512]⟩
abbrev S4096x1024 : Shape := ⟨2, ![4096, 1024]⟩
abbrev S4096 : Shape := ⟨1, ![4096]⟩
abbrev S32000x1024 : Shape := ⟨2, ![32000, 1024]⟩
abbrev S32000 : Shape := ⟨1, ![32000]⟩
abbrev S_ : Shape := ⟨0, ![]⟩
abbrev S64x1 : Shape := ⟨2, ![64, 1]⟩
abbrev S64x512 : Shape := ⟨2, ![64, 512]⟩
abbrev S1x64x1024 : Shape := ⟨3, ![1, 64, 1024]⟩
abbrev S64x1024 : Shape := ⟨2, ![64, 1024]⟩
abbrev S512x4096 : Shape := ⟨2, ![512, 4096]⟩
abbrev S64x4096 : Shape := ⟨2, ![64, 4096]⟩
abbrev S1024x4096 : Shape := ⟨2, ![1024, 4096]⟩
abbrev S1x4096 : Shape := ⟨2, ![1, 4096]⟩
abbrev S1024x32000 : Shape := ⟨2, ![1024, 32000]⟩
abbrev S64x32000 : Shape := ⟨2, ![64, 32000]⟩
abbrev S1x32000 : Shape := ⟨2, ![1, 32000]⟩

abbrev nBuf : Space → Nat
  | .hbm => 132
  | .vmem => 0
  | .smem => 0
  | _ => 0

abbrev hbmTy0_0 (i : Nat) : BufTy := match i % 128 with
  | 0 => ⟨S64, .i32⟩
  | 1 => ⟨S2x64x1024, .f32⟩
  | 2 => ⟨S2x64x1024, .f32⟩
  | 3 => ⟨S32000x512, .f32⟩
  | 4 => ⟨S4096x512, .f32⟩
  | 5 => ⟨S4096x1024, .f32⟩
  | 6 => ⟨S4096, .f32⟩
  | 7 => ⟨S4096, .f32⟩
  | 8 => ⟨S4096x1024, .f32⟩
  | 9 => ⟨S4096x1024, .f32⟩
  | 10 => ⟨S4096, .f32⟩
  | 11 => ⟨S4096, .f32⟩
  | 12 => ⟨S32000x1024, .f32⟩
  | 13 => ⟨S32000, .f32⟩
  | 14 => ⟨S_, .i32⟩
  | 15 => ⟨S64, .i32⟩
  | 16 => ⟨S64, .i1⟩
  | 17 => ⟨S_, .i32⟩
  | 18 => ⟨S64, .i32⟩
  | 19 => ⟨S64, .i32⟩
  | 20 => ⟨S64, .i32⟩
  | 21 => ⟨S64x1, .i32⟩
  | 22 => ⟨S64x512, .f32⟩
  | 23 => ⟨S1x64x1024, .f32⟩
  | 24 => ⟨S64x1024, .f32⟩
  | 25 => ⟨S1x64x1024, .f32⟩
  | 26 => ⟨S64x1024, .f32⟩
  | 27 => ⟨S512x4096, .f32⟩
  | 28 => ⟨S64x4096, .f32⟩
  | 29 => ⟨S1024x4096, .f32⟩
  | 30 => ⟨S64x4096, .f32⟩
  | 31 => ⟨S64x4096, .f32⟩
  | 32 => ⟨S1x4096, .f32⟩
  | 33 => ⟨S64x4096, .f32⟩
  | 34 => ⟨S64x4096, .f32⟩
  | 35 => ⟨S1x4096, .f32⟩
  | 36 => ⟨S64x4096, .f32⟩
  | 37 => ⟨S64x4096, .f32⟩
  | 38 => ⟨S64x1024, .f32⟩
  | 39 => ⟨S64x1024, .f32⟩
  | 40 => ⟨S64x1024, .f32⟩
  | 41 => ⟨S64x1024, .f32⟩
  | 42 => ⟨S64x1024, .f32⟩
  | 43 => ⟨S64x1024, .f32⟩
  | 44 => ⟨S_, .f32⟩
  | 45 => ⟨S64x1024, .f32⟩
  | 46 => ⟨S64x1024, .f32⟩
  | 47 => ⟨S_, .f32⟩
  | 48 => ⟨S64x1024, .f32⟩
  | 49 => ⟨S64x1024, .f32⟩
  | 50 => ⟨S64x1024, .f32⟩
  | 51 => ⟨S64x1024, .f32⟩
  | 52 => ⟨S_, .f32⟩
  | 53 => ⟨S64x1024, .f32⟩
  | 54 => ⟨S64x1024, .f32⟩
  | 55 => ⟨S_, .f32⟩
  | 56 => ⟨S64x1024, .f32⟩
  | 57 => ⟨S64x1024, .f32⟩
  | 58 => ⟨S64x1024, .f32⟩
  | 59 => ⟨S64x1024, .f32⟩
  | 60 => ⟨S64x1024, .f32⟩
  | 61 => ⟨S_, .f32⟩
  | 62 => ⟨S64x1024, .f32⟩
  | 63 => ⟨S64x1024, .f32⟩
  | 64 => ⟨S_, .f32⟩
  | 65 => ⟨S64x1024, .f32⟩
  | 66 => ⟨S64x1024, .f32⟩
  | 67 => ⟨S64x1024, .f32⟩
  | 68 => ⟨S64x1024, .f32⟩
  | 69 => ⟨S64x1024, .f32⟩
  | 70 => ⟨S64x1024, .f32⟩
  | 71 => ⟨S64x1024, .f32⟩
  | 72 => ⟨S1x64x1024, .f32⟩
  | 73 => ⟨S64x1024, .f32⟩
  | 74 => ⟨S1x64x1024, .f32⟩
  | 75 => ⟨S64x1024, .f32⟩
  | 76 => ⟨S1024x4096, .f32⟩
  | 77 => ⟨S64x4096, .f32⟩
  | 78 => ⟨S1024x4096, .f32⟩
  | 79 => ⟨S64x4096, .f32⟩
  | 80 => ⟨S64x4096, .f32⟩
  | 81 => ⟨S1x4096, .f32⟩
  | 82 => ⟨S64x4096, .f32⟩
  | 83 => ⟨S64x4096, .f32⟩
  | 84 => ⟨S1x4096, .f32⟩
  | 85 => ⟨S64x4096, .f32⟩
  | 86 => ⟨S64x4096, .f32⟩
  | 87 => ⟨S64x1024, .f32⟩
  | 88 => ⟨S64x1024, .f32⟩
  | 89 => ⟨S64x1024, .f32⟩
  | 90 => ⟨S64x1024, .f32⟩
  | 91 => ⟨S64x1024, .f32⟩
  | 92 => ⟨S64x1024, .f32⟩
  | 93 => ⟨S_, .f32⟩
  | 94 => ⟨S64x1024, .f32⟩
  | 95 => ⟨S64x1024, .f32⟩
  | 96 => ⟨S_, .f32⟩
  | 97 => ⟨S64x1024, .f32⟩
  | 98 => ⟨S64x1024, .f32⟩
  | 99 => ⟨S64x1024, .f32⟩
  | 100 => ⟨S64x1024, .f32⟩
  | 101 => ⟨S_, .f32⟩
  | 102 => ⟨S64x1024, .f32⟩
  | 103 => ⟨S64x1024, .f32⟩
  | 104 => ⟨S_, .f32⟩
  | 105 => ⟨S64x1024, .f32⟩
  | 106 => ⟨S64x1024, .f32⟩
  | 107 => ⟨S64x1024, .f32⟩
  | 108 => ⟨S64x1024, .f32⟩
  | 109 => ⟨S64x1024, .f32⟩
  | 110 => ⟨S_, .f32⟩
  | 111 => ⟨S64x1024, .f32⟩
  | 112 => ⟨S64x1024, .f32⟩
  | 113 => ⟨S_, .f32⟩
  | 114 => ⟨S64x1024, .f32⟩
  | 115 => ⟨S64x1024, .f32⟩
  | 116 => ⟨S64x1024, .f32⟩
  | 117 => ⟨S64x1024, .f32⟩
  | 118 => ⟨S64x1024, .f32⟩
  | 119 => ⟨S64x1024, .f32⟩
  | 120 => ⟨S64x1024, .f32⟩
  | 121 => ⟨S1x64x1024, .f32⟩
  | 122 => ⟨S1x64x1024, .f32⟩
  | 123 => ⟨S2x64x1024, .f32⟩
  | 124 => ⟨S1x64x1024, .f32⟩
  | 125 => ⟨S1x64x1024, .f32⟩
  | 126 => ⟨S2x64x1024, .f32⟩
  | 127 => ⟨S1024x32000, .f32⟩
  | _ => ⟨S64, .i32⟩

abbrev hbmTy0_1 (i : Nat) : BufTy := match i % 128 with
  | 0 => ⟨S64x32000, .f32⟩
  | 1 => ⟨S1x32000, .f32⟩
  | 2 => ⟨S64x32000, .f32⟩
  | 3 => ⟨S64x32000, .f32⟩
  | _ => ⟨S64, .i32⟩

abbrev hbmTy (i : Nat) : BufTy := match i / 128 with
  | 0 => hbmTy0_0 i
  | 1 => hbmTy0_1 i
  | _ => ⟨S64, .i32⟩

abbrev bufTy : (tb : Table) → Fin (tcTables nBuf tb) → BufTy
  | .hbm, ⟨i, _⟩ => hbmTy i
  | _, _ => ⟨S64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst : Ref sig .tc := ⟨.hbm, 44, rfl⟩
abbrev main_v28 : Ref sig .tc := ⟨.hbm, 45, rfl⟩
abbrev main_v29 : Ref sig .tc := ⟨.hbm, 46, rfl⟩
abbrev main_cst_1 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_2 : Ref sig .tc := ⟨.hbm, 52, rfl⟩
abbrev main_v34 : Ref sig .tc := ⟨.hbm, 53, rfl⟩
abbrev main_v35 : Ref sig .tc := ⟨.hbm, 54, rfl⟩
abbrev main_cst_3 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_4 : Ref sig .tc := ⟨.hbm, 61, rfl⟩
abbrev main_v41 : Ref sig .tc := ⟨.hbm, 62, rfl⟩
abbrev main_v42 : Ref sig .tc := ⟨.hbm, 63, rfl⟩
abbrev main_cst_5 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_6 : Ref sig .tc := ⟨.hbm, 93, rfl⟩
abbrev main_v71 : Ref sig .tc := ⟨.hbm, 94, rfl⟩
abbrev main_v72 : Ref sig .tc := ⟨.hbm, 95, rfl⟩
abbrev main_cst_7 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_8 : Ref sig .tc := ⟨.hbm, 101, rfl⟩
abbrev main_v77 : Ref sig .tc := ⟨.hbm, 102, rfl⟩
abbrev main_v78 : Ref sig .tc := ⟨.hbm, 103, rfl⟩
abbrev main_cst_9 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_10 : Ref sig .tc := ⟨.hbm, 110, rfl⟩
abbrev main_v84 : Ref sig .tc := ⟨.hbm, 111, rfl⟩
abbrev main_v85 : Ref sig .tc := ⟨.hbm, 112, rfl⟩
abbrev main_cst_11 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  slices_S2x64x1024_S1x64x1024_0_0_0 : S2x64x1024.Slices ![0, 0, 0] S1x64x1024
  shapeCasts_S1x64x1024_S64x1024 : S1x64x1024.ShapeCasts S64x1024
  transposes_S4096x512_S512x4096_1_0 : S4096x512.Transposes [1, 0] S512x4096
  transposes_S4096x1024_S1024x4096_1_0 : S4096x1024.Transposes [1, 0] S1024x4096
  bcast_S4096_S1x4096_1 : S4096.BroadcastsInDim S1x4096 (![1] : Fin 1 → Fin S1x4096.rank)
  bcast_S1x4096_S64x4096_0_1 : S1x4096.BroadcastsInDim S64x4096 (![0, 1] : Fin 2 → Fin S64x4096.rank)
  slices_S64x4096_S64x1024_0_0 : S64x4096.Slices ![0, 0] S64x1024
  slices_S64x4096_S64x1024_0_1024 : S64x4096.Slices ![0, 1024] S64x1024
  slices_S64x4096_S64x1024_0_2048 : S64x4096.Slices ![0, 2048] S64x1024
  slices_S64x4096_S64x1024_0_3072 : S64x4096.Slices ![0, 3072] S64x1024
  bcast_S_S64x1024 : S_.BroadcastsInDim S64x1024 (![] : Fin 0 → Fin S64x1024.rank)
  slices_S2x64x1024_S1x64x1024_1_0_0 : S2x64x1024.Slices ![1, 0, 0] S1x64x1024
  bcast_S64x1024_S1x64x1024_1_2 : S64x1024.BroadcastsInDim S1x64x1024 (![1, 2] : Fin 2 → Fin S1x64x1024.rank)
  concatenates_S1x64x1024_S1x64x1024_S2x64x1024_d0 : Shape.Concatenates [S1x64x1024, S1x64x1024] S2x64x1024 0
  transposes_S32000x1024_S1024x32000_1_0 : S32000x1024.Transposes [1, 0] S1024x32000
  bcast_S32000_S1x32000_1 : S32000.BroadcastsInDim S1x32000 (![1] : Fin 1 → Fin S1x32000.rank)
  bcast_S1x32000_S64x32000_0_1 : S1x32000.BroadcastsInDim S64x32000 (![0, 1] : Fin 2 → Fin S64x32000.rank)
  gather_S32000x512_S64x1_S64x512_1_0_n_n_0_1_1512_wf : GatherDims.WF S32000x512 S64x1 S64x512 [1] [0] [] [0] [] 1 ![1, 512]
  dot_S64x512_S512x4096_S64x4096_1_0_0_1_n_n_wf : DotDims.WF S64x512 S512x4096 S64x4096 [1] [0] [0] [1] [] []
  dot_S64x1024_S1024x4096_S64x4096_1_0_0_1_n_n_wf : DotDims.WF S64x1024 S1024x4096 S64x4096 [1] [0] [0] [1] [] []
  dot_S64x1024_S1024x32000_S64x32000_1_0_0_1_n_n_wf : DotDims.WF S64x1024 S1024x32000 S64x32000 [1] [0] [0] [1] [] []

variable [Facts₀]

def gather_S32000x512_S64x1_S64x512_1_0_n_n_0_1_1512 : GatherDims S32000x512 S64x1 S64x512 where
  offsetDims := [1]
  collapsedSliceDims := [0]
  operandBatchingDims := []
  startIndicesBatchingDims := []
  startIndexMap := [0]
  indexVectorDim := 1
  sliceSizes := ![1, 512]
  wf := gather_S32000x512_S64x1_S64x512_1_0_n_n_0_1_1512_wf
def dot_S64x512_S512x4096_S64x4096_1_0_0_1_n_n : DotDims S64x512 S512x4096 S64x4096 where
  lhsContracting := [1]
  rhsContracting := [0]
  lhsNonContracting := [0]
  rhsNonContracting := [1]
  lhsBatch := []
  rhsBatch := []
  wf := dot_S64x512_S512x4096_S64x4096_1_0_0_1_n_n_wf
def dot_S64x1024_S1024x4096_S64x4096_1_0_0_1_n_n : DotDims S64x1024 S1024x4096 S64x4096 where
  lhsContracting := [1]
  rhsContracting := [0]
  lhsNonContracting := [0]
  rhsNonContracting := [1]
  lhsBatch := []
  rhsBatch := []
  wf := dot_S64x1024_S1024x4096_S64x4096_1_0_0_1_n_n_wf
def dot_S64x1024_S1024x32000_S64x32000_1_0_0_1_n_n : DotDims S64x1024 S1024x32000 S64x32000 where
  lhsContracting := [1]
  rhsContracting := [0]
  lhsNonContracting := [0]
  rhsNonContracting := [1]
  lhsBatch := []
  rhsBatch := []
  wf := dot_S64x1024_S1024x32000_S64x32000_1_0_0_1_n_n_wf

class Facts : Prop extends Facts₀ where

variable [Facts]
-- ==== Proof.KB_Gate0.lean ====
import proofs.«405273_j36395552866595_3_alg».proof.Proof.Gen.Kernel.Launch
import proofs.«405273_j36395552866595_3_alg».proof.Proof.Gen.Kernel.Skeleton
import proofs.«405273_j36395552866595_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-! Region 0: the first LSTM layer's gate kernel, one grid point per gate. Point `g` reads the embedded
    inputs `x`, the previous hidden state `h`, gate `g`'s slab of each weight matrix and of the summed bias, and
    writes `act_g (x · W_ihᵀ + h · W_hhᵀ + b)` into plane `g` of the stacked gates, where `act_g` is `tanh` at the
    cell-candidate gate (g = 2) and the logistic function at the other three. Stated at a parameter `V`: the
    buffer contents when the region is entered. -/
namespace Cert.Kernel.Gate0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not. -/
theorem before_of_0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_of_1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_of_2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_of_3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_of_4 {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## Exactly one of the two branches is taken at every point -/

/-- At every grid point either the gate is the cell candidate (the `tanh` branch) or it is not (the logistic
    branch), never both and never neither. -/
theorem branch (t : Fin cfg0.N) :
    (k0_cond1 (grid0.coords t) = 1#1 ∧ ¬ k0_cond2 (grid0.coords t) = 1#1) ∨ (¬ k0_cond1 (grid0.coords t) = 1#1 ∧ k0_cond2 (grid0.coords t) = 1#1) :=
  (by decide +kernel : ∀ t : Fin grid0.N, (k0_cond1 (grid0.coords t) = 1#1 ∧ ¬ k0_cond2 (grid0.coords t) = 1#1) ∨ (¬ k0_cond1 (grid0.coords t) = 1#1 ∧ k0_cond2 (grid0.coords t) = 1#1)) t

/-- So the output window is live at every point. -/
theorem live5 (t : Fin cfg0.N) : cfg0.idle 5 (cfg0.grid.coords t) = false :=
  (by decide +kernel : ∀ t : Fin grid0.N, idle0 5 (grid0.coords t) = false) t

/-! ## The body's accesses and what it leaves in the output's buffer -/

abbrev rX : Rect S64x512 := Rect.unit (s := S64x512) ![0, 0] S64x512.size inb_S64x512_S64x512_0_0
abbrev rH : Rect S64x1024 := Rect.unit (s := S64x1024) ![0, 0] S64x1024.size inb_S64x1024_S64x1024_0_0
abbrev rWx : Rect S1024x512 := Rect.unit (s := S1024x512) ![0, 0] S1024x512.size inb_S1024x512_S1024x512_0_0
abbrev rWh : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0
abbrev rO : Rect S1x64x1024 := Rect.unit (s := S1x64x1024) ![0, 0, 0] S1x64x1024.size inb_S1x64x1024_S1x64x1024_0_0_0

/-- The activated gate the body stores at coordinates `i`, from the five input blocks. -/
def gatePay (i : grid0.Coords) (x : Vec F S64x512 .f32) (h : Vec F S64x1024 .f32) (wx : Vec F S1024x512 .f32) (wh : Vec F S1024x1024 .f32) (b : Vec F S1x1024 .f32) : Vec F S1x64x1024 .f32 :=
  if k0_cond1 i = 1#1 then k0_pay2 (View.ld x rX) (View.ld h rH) (View.ld wx rWx) (View.ld wh rWh) (View.ld b rB)
  else k0_pay3 (View.ld x rX) (View.ld h rH) (View.ld wx rWx) (View.ld wh rWh) (View.ld b rB)

/-- The output window's staging buffer after the body: its one store, which covers the buffer. -/
def gateOut (i : grid0.Coords) (x : Vec F S64x512 .f32) (h : Vec F S64x1024 .f32) (wx : Vec F S1024x512 .f32) (wh : Vec F S1024x1024 .f32) (b : Vec F S1x1024 .f32) : Vec F S1x64x1024 .f32 :=
  View.canon [⟨rO, gatePay i x h wx wh b⟩]

theorem coverO (p : Vec F S1x64x1024 .f32) (y : S1x64x1024.Idx) :
    ∃ pc ∈ ([⟨rO, p⟩] : List (View.Piece (Elt F) S1x64x1024 .f32)), y ∈ pc.1.set :=
  View.cover_of_tiled [⟨rO, p⟩] S1x64x1024.size (by rfl) y

/-! ## The body's triple -/

set_option maxHeartbeats 4000000 in
/-- The kernel body on whole staging memrefs, the inputs' at contents `x h wx wh b` and the output's at anything, runs
    to the continuation holding the inputs' as they were and the output's at `gateOut` of them: in each of the two
    cases one branch's store runs and the other's is skipped. -/
theorem sound_kernel (c : Dev nD) (E : Set ℕ) (i : grid0.Coords)
    (hi : (k0_cond1 i = 1#1 ∧ ¬ k0_cond2 i = 1#1) ∨ (¬ k0_cond1 i = 1#1 ∧ k0_cond2 i = 1#1))
    (arg1 : Memref sig .tc .vmem S64x512 .f32) (harg1 : arg1.IsWhole) (arg2 : Memref sig .tc .vmem S64x1024 .f32) (harg2 : arg2.IsWhole)
    (arg3 : Memref sig .tc .vmem S1024x512 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x64x1024 .f32) (harg6 : arg6.IsWhole)
    (x : Vec F S64x512 .f32) (h : Vec F S64x1024 .f32) (wx : Vec F S1024x512 .f32) (wh : Vec F S1024x1024 .f32) (b : Vec F S1x1024 .f32) (K : PUnit → sProp 𝕄) :
    iprop(owns (c : Thread nD τ) arg1 fullShare x ∗ owns (c : Thread nD τ) arg2 fullShare h ∗ owns (c : Thread nD τ) arg3 fullShare wx
        ∗ owns (c : Thread nD τ) arg4 fullShare wh ∗ owns (c : Thread nD τ) arg5 fullShare b ∗ (∃ d, owns (c : Thread nD τ) arg6 fullShare d)
        ∗ (iprop(owns (c : Thread nD τ) arg1 fullShare x ∗ owns (c : Thread nD τ) arg2 fullShare h ∗ owns (c : Thread nD τ) arg3 fullShare wx
            ∗ owns (c : Thread nD τ) arg4 fullShare wh ∗ owns (c : Thread nD τ) arg5 fullShare b
            ∗ owns (c : Thread nD τ) arg6 fullShare (gateOut i x h wx wh b)) -∗ K ⟨⟩))
      ⊢ wp frame (wpE (defs₀ (F := F)) Variants.none c none) E (cc0__gate_kernel i arg1 harg1 arg2 harg2 arg3 harg3 arg4 harg4 arg5 harg5 arg6 harg6) K := by
  simp only [cc0__gate_kernel_eq_skeleton]; unfold cc0__gate_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  rcases hi with ⟨h1, h2⟩ | ⟨h1, h2⟩
  · sl_exec (disch := first | exact h1 | exact h2)
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists _; isplitr
    swap; · iexact H6
    ipureintro
    unfold gateOut gatePay
    rw [if_pos h1]
    exact View.read_writes_eq_canon _ _ _ (coverO _)
  · sl_exec (disch := first | exact h1 | exact h2)
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists _; isplitr
    swap; · iexact H6
    ipureintro
    unfold gateOut gatePay
    rw [if_neg h1]
    exact View.read_writes_eq_canon _ _ _ (coverO _)

/-! ## The pipeline's proof data -/

/-- The proof data of this pipeline on core `c`: the arrays as the region finds them; after the body at point `t` each
    input's buffer still at its block and the output's at the activated gate of the five input blocks; the invariant the
    scoped rest and the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => gateOut (grid0.coords t) (iblk V c 0 t) (iblk V c 1 t) (iblk V c 2 t) (iblk V c 3 t) (iblk V c 4 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t
    = gateOut (grid0.coords t) (iblk V c 0 t) (iblk V c 1 t) (iblk V c 2 t) (iblk V c 3 t) (iblk V c 4 t) := by dsimp only [dat]

theorem before_0 (c : Dev nD) (t : Fin cfg0.N) (d) : (dat V c).before 0 t d = iblk V c 0 t := before_of_0 V (dat V c) (A_eq V c 0) (after_0 V c) t d
theorem before_1 (c : Dev nD) (t : Fin cfg0.N) (d) : (dat V c).before 1 t d = iblk V c 1 t := before_of_1 V (dat V c) (A_eq V c 1) (after_1 V c) t d
theorem before_2 (c : Dev nD) (t : Fin cfg0.N) (d) : (dat V c).before 2 t d = iblk V c 2 t := before_of_2 V (dat V c) (A_eq V c 2) (after_2 V c) t d
theorem before_3 (c : Dev nD) (t : Fin cfg0.N) (d) : (dat V c).before 3 t d = iblk V c 3 t := before_of_3 V (dat V c) (A_eq V c 3) (after_3 V c) t d
theorem before_4 (c : Dev nD) (t : Fin cfg0.N) (d) : (dat V c).before 4 t d = iblk V c 4 t := before_of_4 V (dat V c) (A_eq V c 4) (after_4 V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- The body at any point: the inputs' memrefs hold their blocks, so `sound_kernel` applies in the point's case; the
    invariant and the core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) (branch t) _ _ _ _ _ _ _ _ _ _ _ _
    (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

set_option maxHeartbeats 2000000 in
/-- The library's body obligation, at every point: the output window is live and written back at every point, so what
    the body must leave in it is its `after`. -/
theorem body_obligation (c : Dev nD) : BodyObligation (dat (F := F) V c) (defs₀ (F := F)) Variants.none () Set.univ := fun t => by
  rw [bigSep_W0, bigSep_W0]
  have hl : cfg0.idle 5 (cfg0.grid.coords t) = false := live5 t
  rw [hl]
  exact sound_body V c t

end Cert.Kernel.Gate0

end
-- ==== Proof.KB_Gate1.lean ====
import proofs.«405273_j36395552866595_3_alg».proof.Proof.Gen.Kernel.Launch
import proofs.«405273_j36395552866595_3_alg».proof.Proof.Gen.Kernel.Skeleton
import proofs.«405273_j36395552866595_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-! Region 1: the second LSTM layer's gate kernel, one grid point per gate. Point `g` reads the first layer new hidden state as its
    inputs `x`, the previous hidden state `h`, gate `g`'s slab of each weight matrix and of the summed bias, and
    writes `act_g (x · W_ihᵀ + h · W_hhᵀ + b)` into plane `g` of the stacked gates, where `act_g` is `tanh` at the
    cell-candidate gate (g = 2) and the logistic function at the other three. Stated at a parameter `V`: the
    buffer contents when the region is entered. -/
namespace Cert.Kernel.Gate1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not. -/
theorem before_of_0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_of_1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_of_2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_of_3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_of_4 {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## Exactly one of the two branches is taken at every point -/

/-- At every grid point either the gate is the cell candidate (the `tanh` branch) or it is not (the logistic
    branch), never both and never neither. -/
theorem branch (t : Fin cfg1.N) :
    (k1_cond1 (grid1.coords t) = 1#1 ∧ ¬ k1_cond2 (grid1.coords t) = 1#1) ∨ (¬ k1_cond1 (grid1.coords t) = 1#1 ∧ k1_cond2 (grid1.coords t) = 1#1) :=
  (by decide +kernel : ∀ t : Fin grid1.N, (k1_cond1 (grid1.coords t) = 1#1 ∧ ¬ k1_cond2 (grid1.coords t) = 1#1) ∨ (¬ k1_cond1 (grid1.coords t) = 1#1 ∧ k1_cond2 (grid1.coords t) = 1#1)) t

/-- So the output window is live at every point. -/
theorem live5 (t : Fin cfg1.N) : cfg1.idle 5 (cfg1.grid.coords t) = false :=
  (by decide +kernel : ∀ t : Fin grid1.N, idle1 5 (grid1.coords t) = false) t

/-! ## The body's accesses and what it leaves in the output's buffer -/

abbrev rX : Rect S64x1024 := Rect.unit (s := S64x1024) ![0, 0] S64x1024.size inb_S64x1024_S64x1024_0_0
abbrev rH : Rect S64x1024 := Rect.unit (s := S64x1024) ![0, 0] S64x1024.size inb_S64x1024_S64x1024_0_0
abbrev rWx : Rect S1024x1024 := Rect.unit (s := S1024x1024) ![0, 0] S1024x1024.size inb_S1024x1024_S1024x1024_0_0
abbrev rWh : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0
abbrev rO : Rect S1x64x1024 := Rect.unit (s := S1x64x1024) ![0, 0, 0] S1x64x1024.size inb_S1x64x1024_S1x64x1024_0_0_0

/-- The activated gate the body stores at coordinates `i`, from the five input blocks. -/
def gatePay (i : grid1.Coords) (x : Vec F S64x1024 .f32) (h : Vec F S64x1024 .f32) (wx : Vec F S1024x1024 .f32) (wh : Vec F S1024x1024 .f32) (b : Vec F S1x1024 .f32) : Vec F S1x64x1024 .f32 :=
  if k1_cond1 i = 1#1 then k1_pay2 (View.ld x rX) (View.ld h rH) (View.ld wx rWx) (View.ld wh rWh) (View.ld b rB)
  else k1_pay3 (View.ld x rX) (View.ld h rH) (View.ld wx rWx) (View.ld wh rWh) (View.ld b rB)

/-- The output window's staging buffer after the body: its one store, which covers the buffer. -/
def gateOut (i : grid1.Coords) (x : Vec F S64x1024 .f32) (h : Vec F S64x1024 .f32) (wx : Vec F S1024x1024 .f32) (wh : Vec F S1024x1024 .f32) (b : Vec F S1x1024 .f32) : Vec F S1x64x1024 .f32 :=
  View.canon [⟨rO, gatePay i x h wx wh b⟩]

theorem coverO (p : Vec F S1x64x1024 .f32) (y : S1x64x1024.Idx) :
    ∃ pc ∈ ([⟨rO, p⟩] : List (View.Piece (Elt F) S1x64x1024 .f32)), y ∈ pc.1.set :=
  View.cover_of_tiled [⟨rO, p⟩] S1x64x1024.size (by rfl) y

/-! ## The body's triple -/

set_option maxHeartbeats 4000000 in
/-- The kernel body on whole staging memrefs, the inputs' at contents `x h wx wh b` and the output's at anything, runs
    to the continuation holding the inputs' as they were and the output's at `gateOut` of them: in each of the two
    cases one branch's store runs and the other's is skipped. -/
theorem sound_kernel (c : Dev nD) (E : Set ℕ) (i : grid1.Coords)
    (hi : (k1_cond1 i = 1#1 ∧ ¬ k1_cond2 i = 1#1) ∨ (¬ k1_cond1 i = 1#1 ∧ k1_cond2 i = 1#1))
    (arg1 : Memref sig .tc .vmem S64x1024 .f32) (harg1 : arg1.IsWhole) (arg2 : Memref sig .tc .vmem S64x1024 .f32) (harg2 : arg2.IsWhole)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x64x1024 .f32) (harg6 : arg6.IsWhole)
    (x : Vec F S64x1024 .f32) (h : Vec F S64x1024 .f32) (wx : Vec F S1024x1024 .f32) (wh : Vec F S1024x1024 .f32) (b : Vec F S1x1024 .f32) (K : PUnit → sProp 𝕄) :
    iprop(owns (c : Thread nD τ) arg1 fullShare x ∗ owns (c : Thread nD τ) arg2 fullShare h ∗ owns (c : Thread nD τ) arg3 fullShare wx
        ∗ owns (c : Thread nD τ) arg4 fullShare wh ∗ owns (c : Thread nD τ) arg5 fullShare b ∗ (∃ d, owns (c : Thread nD τ) arg6 fullShare d)
        ∗ (iprop(owns (c : Thread nD τ) arg1 fullShare x ∗ owns (c : Thread nD τ) arg2 fullShare h ∗ owns (c : Thread nD τ) arg3 fullShare wx
            ∗ owns (c : Thread nD τ) arg4 fullShare wh ∗ owns (c : Thread nD τ) arg5 fullShare b
            ∗ owns (c : Thread nD τ) arg6 fullShare (gateOut i x h wx wh b)) -∗ K ⟨⟩))
      ⊢ wp frame (wpE (defs₀ (F := F)) Variants.none c none) E (cc1__gate_kernel i arg1 harg1 arg2 harg2 arg3 harg3 arg4 harg4 arg5 harg5 arg6 harg6) K := by
  simp only [cc1__gate_kernel_eq_skeleton]; unfold cc1__gate_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  rcases hi with ⟨h1, h2⟩ | ⟨h1, h2⟩
  · sl_exec (disch := first | exact h1 | exact h2)
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists _; isplitr
    swap; · iexact H6
    ipureintro
    unfold gateOut gatePay
    rw [if_pos h1]
    exact View.read_writes_eq_canon _ _ _ (coverO _)
  · sl_exec (disch := first | exact h1 | exact h2)
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists _; isplitr
    swap; · iexact H6
    ipureintro
    unfold gateOut gatePay
    rw [if_neg h1]
    exact View.read_writes_eq_canon _ _ _ (coverO _)

/-! ## The pipeline's proof data -/

/-- The proof data of this pipeline on core `c`: the arrays as the region finds them; after the body at point `t` each
    input's buffer still at its block and the output's at the activated gate of the five input blocks; the invariant the
    scoped rest and the generator register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => gateOut (grid1.coords t) (iblk V c 0 t) (iblk V c 1 t) (iblk V c 2 t) (iblk V c 3 t) (iblk V c 4 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t
    = gateOut (grid1.coords t) (iblk V c 0 t) (iblk V c 1 t) (iblk V c 2 t) (iblk V c 3 t) (iblk V c 4 t) := by dsimp only [dat]

theorem before_0 (c : Dev nD) (t : Fin cfg1.N) (d) : (dat V c).before 0 t d = iblk V c 0 t := before_of_0 V (dat V c) (A_eq V c 0) (after_0 V c) t d
theorem before_1 (c : Dev nD) (t : Fin cfg1.N) (d) : (dat V c).before 1 t d = iblk V c 1 t := before_of_1 V (dat V c) (A_eq V c 1) (after_1 V c) t d
theorem before_2 (c : Dev nD) (t : Fin cfg1.N) (d) : (dat V c).before 2 t d = iblk V c 2 t := before_of_2 V (dat V c) (A_eq V c 2) (after_2 V c) t d
theorem before_3 (c : Dev nD) (t : Fin cfg1.N) (d) : (dat V c).before 3 t d = iblk V c 3 t := before_of_3 V (dat V c) (A_eq V c 3) (after_3 V c) t d
theorem before_4 (c : Dev nD) (t : Fin cfg1.N) (d) : (dat V c).before 4 t d = iblk V c 4 t := before_of_4 V (dat V c) (A_eq V c 4) (after_4 V c) t d

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at any point: the inputs' memrefs hold their blocks, so `sound_kernel` applies in the point's case; the
    invariant and the core's `owes` pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid1.coords t) (branch t) _ _ _ _ _ _ _ _ _ _ _ _
    (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

set_option maxHeartbeats 2000000 in
/-- The library's body obligation, at every point: the output window is live and written back at every point, so what
    the body must leave in it is its `after`. -/
theorem body_obligation (c : Dev nD) : BodyObligation (dat (F := F) V c) (defs₀ (F := F)) Variants.none () Set.univ := fun t => by
  rw [bigSep_W1, bigSep_W1]
  have hl : cfg1.idle 5 (cfg1.grid.coords t) = false := live5 t
  rw [hl]
  exact sound_body V c t

end Cert.Kernel.Gate1

end
-- ==== Proof.KB_Fc.lean ====
import proofs.«405273_j36395552866595_3_alg».proof.Proof.Gen.Kernel.Launch
import proofs.«405273_j36395552866595_3_alg».proof.Proof.Gen.Kernel.Skeleton
import proofs.«405273_j36395552866595_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-! Region 2: the output projection, tiled over the vocabulary. Point `j` reads the second layer's new hidden state
    `h` whole, rows `3200 j … 3200 j + 3199` of the projection matrix and the matching stretch of the bias, and writes
    `h · Wᵀ + b` into columns `3200 j … 3200 j + 3199` of the logits. Stated at a parameter `V`: the buffer contents
    when the region is entered. -/
namespace Cert.Kernel.Fc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds its block at every point, fetched there or not. -/
theorem before_of_0 {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_of_1 {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_of_2 {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output's buffer -/

abbrev rH : Rect S64x1024 := Rect.unit (s := S64x1024) ![0, 0] S64x1024.size inb_S64x1024_S64x1024_0_0
abbrev rW : Rect S3200x1024 := Rect.unit (s := S3200x1024) ![0, 0] S3200x1024.size inb_S3200x1024_S3200x1024_0_0
abbrev rB : Rect S1x3200 := Rect.unit (s := S1x3200) ![0, 0] S1x3200.size inb_S1x3200_S1x3200_0_0
abbrev rO : Rect S64x3200 := Rect.unit (s := S64x3200) ![0, 0] S64x3200.size inb_S64x3200_S64x3200_0_0

/-- The output window's staging buffer after the body: its one store, which covers the buffer. -/
def fcOut (h : Vec F S64x1024 .f32) (w : Vec F S3200x1024 .f32) (b : Vec F S1x3200 .f32) : Vec F S64x3200 .f32 :=
  View.canon [⟨rO, k2_pay1 (View.ld h rH) (View.ld w rW) (View.ld b rB)⟩]

theorem coverO (p : Vec F S64x3200 .f32) (y : S64x3200.Idx) :
    ∃ pc ∈ ([⟨rO, p⟩] : List (View.Piece (Elt F) S64x3200 .f32)), y ∈ pc.1.set :=
  View.cover_of_tiled [⟨rO, p⟩] S64x3200.size (by rfl) y

/-! ## The body's triple -/

set_option maxHeartbeats 4000000 in
/-- The kernel body on whole staging memrefs, the inputs' at contents `h w b` and the output's at anything, runs to the
    continuation holding the inputs' as they were and the output's at `fcOut` of them. -/
theorem sound_kernel (c : Dev nD) (E : Set ℕ) (i : grid2.Coords)
    (arg1 : Memref sig .tc .vmem S64x1024 .f32) (harg1 : arg1.IsWhole) (arg2 : Memref sig .tc .vmem S3200x1024 .f32) (harg2 : arg2.IsWhole)
    (arg3 : Memref sig .tc .vmem S1x3200 .f32) (harg3 : arg3.IsWhole) (arg4 : Memref sig .tc .vmem S64x3200 .f32) (harg4 : arg4.IsWhole)
    (h : Vec F S64x1024 .f32) (w : Vec F S3200x1024 .f32) (b : Vec F S1x3200 .f32) (K : PUnit → sProp 𝕄) :
    iprop(owns (c : Thread nD τ) arg1 fullShare h ∗ owns (c : Thread nD τ) arg2 fullShare w ∗ owns (c : Thread nD τ) arg3 fullShare b
        ∗ (∃ d, owns (c : Thread nD τ) arg4 fullShare d)
        ∗ (iprop(owns (c : Thread nD τ) arg1 fullShare h ∗ owns (c : Thread nD τ) arg2 fullShare w ∗ owns (c : Thread nD τ) arg3 fullShare b
            ∗ owns (c : Thread nD τ) arg4 fullShare (fcOut h w b)) -∗ K ⟨⟩))
      ⊢ wp frame (wpE (defs₀ (F := F)) Variants.none c none) E (cc2__fc_kernel i arg1 harg1 arg2 harg2 arg3 harg3 arg4 harg4) K := by
  simp only [cc2__fc_kernel_eq_skeleton]; unfold cc2__fc_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverO _)

/-! ## The pipeline's proof data -/

/-- The proof data of this pipeline on core `c`: the arrays as the region finds them; after the body at point `t` each
    input's buffer still at its block and the output's at the projected tile; the invariant the scoped rest and the
    generator register, untouched; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => fcOut (iblk V c 0 t) (iblk V c 1 t) (iblk V c 2 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = fcOut (iblk V c 0 t) (iblk V c 1 t) (iblk V c 2 t) := by dsimp only [dat]

theorem before_0 (c : Dev nD) (t : Fin cfg2.N) (d) : (dat V c).before 0 t d = iblk V c 0 t := before_of_0 V (dat V c) (A_eq V c 0) (after_0 V c) t d
theorem before_1 (c : Dev nD) (t : Fin cfg2.N) (d) : (dat V c).before 1 t d = iblk V c 1 t := before_of_1 V (dat V c) (A_eq V c 1) (after_1 V c) t d
theorem before_2 (c : Dev nD) (t : Fin cfg2.N) (d) : (dat V c).before 2 t d = iblk V c 2 t := before_of_2 V (dat V c) (A_eq V c 2) (after_2 V c) t d

/-! ## The body obligation, at a generic point -/

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

/-- The body at any point: the inputs' memrefs hold their blocks, so `sound_kernel` applies; the invariant and the core's
    `owes` pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid2.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W2, bigSep_W2]
  exact sound_body V c t

end Cert.Kernel.Fc

end
-- ==== Proof.KB_Run.lean ====
import proofs.«405273_j36395552866595_3_alg».proof.Proof.Gen.Kernel.Regions
import proofs.«405273_j36395552866595_3_alg».proof.Proof.KB_Gate0
import proofs.«405273_j36395552866595_3_alg».proof.Proof.KB_Gate1
import proofs.«405273_j36395552866595_3_alg».proof.Proof.KB_Fc

set_option maxRecDepth 16384

noncomputable section

/-! The program's run: three host stretches, the first layer's gate kernel, a host stretch, the second layer's gate
    kernel, a host stretch, the projection kernel. The buffer contents between the items are the launch contents
    carried through the host stretches, with each kernel region's output array replaced by what its pipeline leaves.
    Every weakly fair execution terminates with every unscoped buffer at the last of these contents. -/
namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What the regions leave, one after the other -/

/-- Region 0 is entered from the launch contents carried through the first three host stretches. -/
abbrev E3 (c : Dev nD) (b : Ref sig .tc) : Buf (Elt F) ((c : Thread nD τ).loc b) := V3 m c b

/-- The buffers at region 0's exit: its arrays at what the pipeline leaves, every other buffer as entered. -/
def o4 (c : Dev nD) : Valuation τ sig (Elt F) :=
  Pipeline.withArrays spec0 c (V3 m c) fun w => (Gate0.dat (E3 m) c).arrAt w cfg0.N

abbrev outs4 : Outs (F := F) := fun _ r c => o4 m c r

/-- Region 1's entry contents. -/
abbrev E5 (c : Dev nD) (b : Ref sig .tc) : Buf (Elt F) ((c : Thread nD τ).loc b) := V5 m (outs4 m) c b

def o6 (c : Dev nD) : Valuation τ sig (Elt F) :=
  Pipeline.withArrays spec1 c (V5 m (outs4 m) c) fun w => (Gate1.dat (E5 m) c).arrAt w cfg1.N

abbrev outs6 : Outs (F := F) := fun J r c => match J with | 4 => o4 m c r | _ => o6 m c r

/-- Region 2's entry contents. -/
abbrev E7 (c : Dev nD) (b : Ref sig .tc) : Buf (Elt F) ((c : Thread nD τ).loc b) := V7 m (outs6 m) c b

def o8 (c : Dev nD) : Valuation τ sig (Elt F) :=
  Pipeline.withArrays spec2 c (V7 m (outs6 m) c) fun w => (Fc.dat (E7 m) c).arrAt w cfg2.N

/-- What the three regions leave in their output arrays. -/
abbrev outs : Outs (F := F) := fun J r c => match J with | 4 => o4 m c r | 6 => o6 m c r | _ => o8 m c r

/-- The exit contents of the three regions, read at the TensorCore's references. -/
abbrev E4 (c : Dev nD) (b : Ref sig .tc) : Buf (Elt F) ((c : Thread nD τ).loc b) := V4 m (outs m) c b
abbrev E6 (c : Dev nD) (b : Ref sig .tc) : Buf (Elt F) ((c : Thread nD τ).loc b) := V6 m (outs m) c b
abbrev E8 (c : Dev nD) (b : Ref sig .tc) : Buf (Elt F) ((c : Thread nD τ).loc b) := V8 m (outs m) c b

theorem o4_arr (c : Dev nD) (w : Fin cfg0.W) : o4 m c (Proc.devRef .tc (Pipeline.arrRef spec0 w)) = (Gate0.dat (E3 m) c).arrAt w cfg0.N := by
  unfold o4; exact Pipeline.withArrays_arr spec0 launch0.win.arr_inj c _ _ w
theorem o6_arr (c : Dev nD) (w : Fin cfg1.W) : o6 m c (Proc.devRef .tc (Pipeline.arrRef spec1 w)) = (Gate1.dat (E5 m) c).arrAt w cfg1.N := by
  unfold o6; exact Pipeline.withArrays_arr spec1 launch1.win.arr_inj c _ _ w
theorem o8_arr (c : Dev nD) (w : Fin cfg2.W) : o8 m c (Proc.devRef .tc (Pipeline.arrRef spec2 w)) = (Fc.dat (E7 m) c).arrAt w cfg2.N := by
  unfold o8; exact Pipeline.withArrays_arr spec2 launch2.win.arr_inj c _ _ w

/-- At a region's exit each of its arrays holds what the pipeline leaves: an input's array what it held at entry, the
    output's array the write-backs folded. -/
theorem hF0 (c : Dev nD) : ∀ w : Fin cfg0.W, (Gate0.dat (E3 m) c).arrAt w cfg0.N = E4 m c (Pipeline.arrRef spec0 w)
  | ⟨0, _⟩ => (((Gate0.dat (E3 m) c).arrAt_in 0 rfl _).trans (Gate0.A_eq (E3 m) c 0)).trans (V4_of m (outs m) c (Pipeline.arrRef spec0 0) (by decide)).symm
  | ⟨1, _⟩ => (((Gate0.dat (E3 m) c).arrAt_in 1 rfl _).trans (Gate0.A_eq (E3 m) c 1)).trans (V4_of m (outs m) c (Pipeline.arrRef spec0 1) (by decide)).symm
  | ⟨2, _⟩ => (((Gate0.dat (E3 m) c).arrAt_in 2 rfl _).trans (Gate0.A_eq (E3 m) c 2)).trans (V4_of m (outs m) c (Pipeline.arrRef spec0 2) (by decide)).symm
  | ⟨3, _⟩ => (((Gate0.dat (E3 m) c).arrAt_in 3 rfl _).trans (Gate0.A_eq (E3 m) c 3)).trans (V4_of m (outs m) c (Pipeline.arrRef spec0 3) (by decide)).symm
  | ⟨4, _⟩ => (((Gate0.dat (E3 m) c).arrAt_in 4 rfl _).trans (Gate0.A_eq (E3 m) c 4)).trans (V4_of m (outs m) c (Pipeline.arrRef spec0 4) (by decide)).symm
  | ⟨5, _⟩ => by
    show _ = Function.update (V3 m c) (Proc.devRef .tc main_v14) (o4 m c main_v14) (Proc.devRef .tc main_v14)
    rw [Function.update_self]; exact (o4_arr m c 5).symm
theorem hF1 (c : Dev nD) : ∀ w : Fin cfg1.W, (Gate1.dat (E5 m) c).arrAt w cfg1.N = E6 m c (Pipeline.arrRef spec1 w)
  | ⟨0, _⟩ => (((Gate1.dat (E5 m) c).arrAt_in 0 rfl _).trans (Gate1.A_eq (E5 m) c 0)).trans (V6_of m (outs m) c (Pipeline.arrRef spec1 0) (by decide)).symm
  | ⟨1, _⟩ => (((Gate1.dat (E5 m) c).arrAt_in 1 rfl _).trans (Gate1.A_eq (E5 m) c 1)).trans (V6_of m (outs m) c (Pipeline.arrRef spec1 1) (by decide)).symm
  | ⟨2, _⟩ => (((Gate1.dat (E5 m) c).arrAt_in 2 rfl _).trans (Gate1.A_eq (E5 m) c 2)).trans (V6_of m (outs m) c (Pipeline.arrRef spec1 2) (by decide)).symm
  | ⟨3, _⟩ => (((Gate1.dat (E5 m) c).arrAt_in 3 rfl _).trans (Gate1.A_eq (E5 m) c 3)).trans (V6_of m (outs m) c (Pipeline.arrRef spec1 3) (by decide)).symm
  | ⟨4, _⟩ => (((Gate1.dat (E5 m) c).arrAt_in 4 rfl _).trans (Gate1.A_eq (E5 m) c 4)).trans (V6_of m (outs m) c (Pipeline.arrRef spec1 4) (by decide)).symm
  | ⟨5, _⟩ => by
    show _ = Function.update (V5 m (outs m) c) (Proc.devRef .tc main_v32) (o6 m c main_v32) (Proc.devRef .tc main_v32)
    rw [Function.update_self]; exact (o6_arr m c 5).symm
theorem hF2 (c : Dev nD) : ∀ w : Fin cfg2.W, (Fc.dat (E7 m) c).arrAt w cfg2.N = E8 m c (Pipeline.arrRef spec2 w)
  | ⟨0, _⟩ => (((Fc.dat (E7 m) c).arrAt_in 0 rfl _).trans (Fc.A_eq (E7 m) c 0)).trans (V8_of m (outs m) c (Pipeline.arrRef spec2 0) (by decide)).symm
  | ⟨1, _⟩ => (((Fc.dat (E7 m) c).arrAt_in 1 rfl _).trans (Fc.A_eq (E7 m) c 1)).trans (V8_of m (outs m) c (Pipeline.arrRef spec2 1) (by decide)).symm
  | ⟨2, _⟩ => (((Fc.dat (E7 m) c).arrAt_in 2 rfl _).trans (Fc.A_eq (E7 m) c 2)).trans (V8_of m (outs m) c (Pipeline.arrRef spec2 2) (by decide)).symm
  | ⟨3, _⟩ => by
    show _ = Function.update (V7 m (outs m) c) (Proc.devRef .tc main_v55) (o8 m c main_v55) (Proc.devRef .tc main_v55)
    rw [Function.update_self]; exact (o8_arr m c 3).symm

/-- and every buffer that is none of the region's arrays what it held at entry. -/
theorem hrest0 (c : Dev nD) : ∀ b, b ∉ Finset.univ.image (Pipeline.arrRef spec0) → E4 m c b = E3 m c b :=
  fun b hb => V4_of m (outs m) c b fun h => hb (Finset.mem_image.mpr ⟨5, Finset.mem_univ _, (List.mem_singleton.mp h).symm⟩)
theorem hrest1 (c : Dev nD) : ∀ b, b ∉ Finset.univ.image (Pipeline.arrRef spec1) → E6 m c b = E5 m c b :=
  fun b hb => V6_of m (outs m) c b fun h => hb (Finset.mem_image.mpr ⟨5, Finset.mem_univ _, (List.mem_singleton.mp h).symm⟩)
theorem hrest2 (c : Dev nD) : ∀ b, b ∉ Finset.univ.image (Pipeline.arrRef spec2) → E8 m c b = E7 m c b :=
  fun b hb => V8_of m (outs m) c b fun h => hb (Finset.mem_image.mpr ⟨3, Finset.mem_univ _, (List.mem_singleton.mp h).symm⟩)

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => Gate0.dat (E3 m) c
  | ⟨1, _⟩ => fun c => Gate1.dat (E5 m) c
  | ⟨2, _⟩ => fun c => Fc.dat (E7 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)

/-! ## The regions as segments -/

-- a library lemma stated over the pinned configuration unifies with the printed one only when unification may unfold
-- plain definitions in a metavariable's type
set_option backward.isDefEq.respectTransparency.types false in
/-- Region 0 over the thread state: entered from every unscoped buffer at its entry contents, left at its exit contents.
    Its arrays are split out of the unscoped buffers and put back at what the pipeline leaves; the generator register goes
    into the pipeline's invariant and comes out; nothing is owed; the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Gate0.body_obligation (E3 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at its entry contents, left at its exit contents.
    Its arrays are split out of the unscoped buffers and put back at what the pipeline leaves; the generator register goes
    into the pipeline's invariant and comes out; nothing is owed; the kernel has no semaphore of its own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Gate1.body_obligation (E5 m) c).loose
  hwaits := Pipeline.hwaits_of_owed_zero _ _ _ _ L lv 1 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at its entry contents, left at its exit contents.
    Its arrays are split out of the unscoped buffers and put back at what the pipeline leaves; the generator register goes
    into the pipeline's invariant and comes out; nothing is owed; the kernel has no semaphore of its own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Fc.body_obligation (E7 m) c).loose
  hwaits := Pipeline.hwaits_of_owed_zero _ _ _ _ L lv 2 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec2 c (E7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E7 m c) (E8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The run, given the regions' records: for any launch dues, ghost resources and rest states, GIVEN per region a segment
    record entered from the thread state before it and left at the one after it, every weakly fair execution of the
    program from memory `m` with zero counters terminates, and in every final memory every unscoped buffer of every
    core holds the last contents `V8`. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c)) :
    θ_run defs (onTc (τ := τ) (main (F := F))) ⟨m, fun _ => 0, ρ⟩ (fun r => ∀ c : Dev nD,
      ∀ b ∈ Pipeline.ucRefs τ sig, r.2.mem ((c : Thread nD τ).1, b) = V8 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V8 m outs c))
    (hch := fun c => ⟨.rfl, .rfl, .rfl, hpre0 c, hpost0 c, hpre1 c, hpost1 c, hpre2 c, (hpost2 c).trans (sep_mono .rfl (hE3 c))⟩)
    (hinit := ?_) (QY := fun c s => ∀ b ∈ Pipeline.ucRefs τ sig, s.mem ((c : Thread nD τ).1, b) = V8 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V8 m outs c) s') $$ [Hh HSI]
    · isplitl [Hh] <;> iassumption
    icases Hr with ⟨%h, HSI⟩
    imodintro
    isplitr
    · ipureintro
      exact h
    · iexact HSI

-- the launch theorem's implicit arguments are found by unifying its conclusion with this one, which takes unfolding plain
-- definitions in a metavariable's type
set_option backward.isDefEq.respectTransparency.types false in
/-- THE RUN: every weakly fair execution of the program from memory `m` with zero counters terminates, nothing faulting,
    and every final memory holds, in every unscoped buffer of every core, the contents after the last region. -/
theorem run (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V8 m (outs m) c b) :=
  run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, H⟩; iexact H)
    (reg0 m) (fun _ => .rfl) (fun _ => .rfl) (reg1 m) (fun _ => .rfl) (fun _ => .rfl) (reg2 m) (fun _ => .rfl) (fun _ => .rfl)

/-- THE FRAME: the program runs to the end, faults nowhere, and leaves every argument array as launched: no host
    stretch writes an argument and no region may change one, so the last contents at an argument are the launch's. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
    ⟨(h c _ (Finset.mem_filter.mpr ⟨StableHlo.devRef_mem_tcRefs main_arg0, by decide⟩)).trans (V8_main_arg0 m (outs m) c),
      (h c _ (Finset.mem_filter.mpr ⟨StableHlo.devRef_mem_tcRefs main_arg1, by decide⟩)).trans (V8_main_arg1 m (outs m) c),
      (h c _ (Finset.mem_filter.mpr ⟨StableHlo.devRef_mem_tcRefs main_arg2, by decide⟩)).trans (V8_main_arg2 m (outs m) c),
      (h c _ (Finset.mem_filter.mpr ⟨StableHlo.devRef_mem_tcRefs main_arg3, by decide⟩)).trans (V8_main_arg3 m (outs m) c),
      (h c _ (Finset.mem_filter.mpr ⟨StableHlo.devRef_mem_tcRefs main_arg4, by decide⟩)).trans (V8_main_arg4 m (outs m) c),
      (h c _ (Finset.mem_filter.mpr ⟨StableHlo.devRef_mem_tcRefs main_arg5, by decide⟩)).trans (V8_main_arg5 m (outs m) c),
      (h c _ (Finset.mem_filter.mpr ⟨StableHlo.devRef_mem_tcRefs main_arg6, by decide⟩)).trans (V8_main_arg6 m (outs m) c),
      (h c _ (Finset.mem_filter.mpr ⟨StableHlo.devRef_mem_tcRefs main_arg7, by decide⟩)).trans (V8_main_arg7 m (outs m) c),
      (h c _ (Finset.mem_filter.mpr ⟨StableHlo.devRef_mem_tcRefs main_arg8, by decide⟩)).trans (V8_main_arg8 m (outs m) c),
      (h c _ (Finset.mem_filter.mpr ⟨StableHlo.devRef_mem_tcRefs main_arg9, by decide⟩)).trans (V8_main_arg9 m (outs m) c),
      (h c _ (Finset.mem_filter.mpr ⟨StableHlo.devRef_mem_tcRefs main_arg10, by decide⟩)).trans (V8_main_arg10 m (outs m) c),
      (h c _ (Finset.mem_filter.mpr ⟨StableHlo.devRef_mem_tcRefs main_arg11, by decide⟩)).trans (V8_main_arg11 m (outs m) c),
      (h c _ (Finset.mem_filter.mpr ⟨StableHlo.devRef_mem_tcRefs main_arg12, by decide⟩)).trans (V8_main_arg12 m (outs m) c),
      (h c _ (Finset.mem_filter.mpr ⟨StableHlo.devRef_mem_tcRefs main_arg13, by decide⟩)).trans (V8_main_arg13 m (outs m) c)⟩) (run m ρ)

end Cert.Kernel.Run

end
-- ==== Proof.KI_Gate0.lean ====
import proofs.«405273_j36395552866595_3_alg».proof.Proof.Gen.KernelIdeal.Launch
import proofs.«405273_j36395552866595_3_alg».proof.Proof.Gen.KernelIdeal.Skeleton
import proofs.«405273_j36395552866595_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-! Region 0: the first LSTM layer's gate kernel, one grid point per gate. Point `g` reads the embedded
    inputs `x`, the previous hidden state `h`, gate `g`'s slab of each weight matrix and of the summed bias, and
    writes `act_g (x · W_ihᵀ + h · W_hhᵀ + b)` into plane `g` of the stacked gates, where `act_g` is `tanh` at the
    cell-candidate gate (g = 2) and the logistic function at the other three. Stated at a parameter `V`: the
    buffer contents when the region is entered. -/
namespace Cert.KernelIdeal.Gate0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not. -/
theorem before_of_0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_of_1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_of_2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_of_3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_of_4 {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## Exactly one of the two branches is taken at every point -/

/-- At every grid point either the gate is the cell candidate (the `tanh` branch) or it is not (the logistic
    branch), never both and never neither. -/
theorem branch (t : Fin cfg0.N) :
    (k0_cond1 (grid0.coords t) = 1#1 ∧ ¬ k0_cond2 (grid0.coords t) = 1#1) ∨ (¬ k0_cond1 (grid0.coords t) = 1#1 ∧ k0_cond2 (grid0.coords t) = 1#1) :=
  (by decide +kernel : ∀ t : Fin grid0.N, (k0_cond1 (grid0.coords t) = 1#1 ∧ ¬ k0_cond2 (grid0.coords t) = 1#1) ∨ (¬ k0_cond1 (grid0.coords t) = 1#1 ∧ k0_cond2 (grid0.coords t) = 1#1)) t

/-- So the output window is live at every point. -/
theorem live5 (t : Fin cfg0.N) : cfg0.idle 5 (cfg0.grid.coords t) = false :=
  (by decide +kernel : ∀ t : Fin grid0.N, idle0 5 (grid0.coords t) = false) t

/-! ## The body's accesses and what it leaves in the output's buffer -/

abbrev rX : Rect S64x512 := Rect.unit (s := S64x512) ![0, 0] S64x512.size inb_S64x512_S64x512_0_0
abbrev rH : Rect S64x1024 := Rect.unit (s := S64x1024) ![0, 0] S64x1024.size inb_S64x1024_S64x1024_0_0
abbrev rWx : Rect S1024x512 := Rect.unit (s := S1024x512) ![0, 0] S1024x512.size inb_S1024x512_S1024x512_0_0
abbrev rWh : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0
abbrev rO : Rect S1x64x1024 := Rect.unit (s := S1x64x1024) ![0, 0, 0] S1x64x1024.size inb_S1x64x1024_S1x64x1024_0_0_0

/-- The activated gate the body stores at coordinates `i`, from the five input blocks. -/
def gatePay (i : grid0.Coords) (x : Vec F S64x512 .f32) (h : Vec F S64x1024 .f32) (wx : Vec F S1024x512 .f32) (wh : Vec F S1024x1024 .f32) (b : Vec F S1x1024 .f32) : Vec F S1x64x1024 .f32 :=
  if k0_cond1 i = 1#1 then k0_pay2 (View.ld x rX) (View.ld h rH) (View.ld wx rWx) (View.ld wh rWh) (View.ld b rB)
  else k0_pay3 (View.ld x rX) (View.ld h rH) (View.ld wx rWx) (View.ld wh rWh) (View.ld b rB)

/-- The output window's staging buffer after the body: its one store, which covers the buffer. -/
def gateOut (i : grid0.Coords) (x : Vec F S64x512 .f32) (h : Vec F S64x1024 .f32) (wx : Vec F S1024x512 .f32) (wh : Vec F S1024x1024 .f32) (b : Vec F S1x1024 .f32) : Vec F S1x64x1024 .f32 :=
  View.canon [⟨rO, gatePay i x h wx wh b⟩]

theorem coverO (p : Vec F S1x64x1024 .f32) (y : S1x64x1024.Idx) :
    ∃ pc ∈ ([⟨rO, p⟩] : List (View.Piece (Elt F) S1x64x1024 .f32)), y ∈ pc.1.set :=
  View.cover_of_tiled [⟨rO, p⟩] S1x64x1024.size (by rfl) y

/-! ## The body's triple -/

set_option maxHeartbeats 4000000 in
/-- The kernel body on whole staging memrefs, the inputs' at contents `x h wx wh b` and the output's at anything, runs
    to the continuation holding the inputs' as they were and the output's at `gateOut` of them: in each of the two
    cases one branch's store runs and the other's is skipped. -/
theorem sound_kernel (c : Dev nD) (E : Set ℕ) (i : grid0.Coords)
    (hi : (k0_cond1 i = 1#1 ∧ ¬ k0_cond2 i = 1#1) ∨ (¬ k0_cond1 i = 1#1 ∧ k0_cond2 i = 1#1))
    (arg1 : Memref sig .tc .vmem S64x512 .f32) (harg1 : arg1.IsWhole) (arg2 : Memref sig .tc .vmem S64x1024 .f32) (harg2 : arg2.IsWhole)
    (arg3 : Memref sig .tc .vmem S1024x512 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x64x1024 .f32) (harg6 : arg6.IsWhole)
    (x : Vec F S64x512 .f32) (h : Vec F S64x1024 .f32) (wx : Vec F S1024x512 .f32) (wh : Vec F S1024x1024 .f32) (b : Vec F S1x1024 .f32) (K : PUnit → sProp 𝕄) :
    iprop(owns (c : Thread nD τ) arg1 fullShare x ∗ owns (c : Thread nD τ) arg2 fullShare h ∗ owns (c : Thread nD τ) arg3 fullShare wx
        ∗ owns (c : Thread nD τ) arg4 fullShare wh ∗ owns (c : Thread nD τ) arg5 fullShare b ∗ (∃ d, owns (c : Thread nD τ) arg6 fullShare d)
        ∗ (iprop(owns (c : Thread nD τ) arg1 fullShare x ∗ owns (c : Thread nD τ) arg2 fullShare h ∗ owns (c : Thread nD τ) arg3 fullShare wx
            ∗ owns (c : Thread nD τ) arg4 fullShare wh ∗ owns (c : Thread nD τ) arg5 fullShare b
            ∗ owns (c : Thread nD τ) arg6 fullShare (gateOut i x h wx wh b)) -∗ K ⟨⟩))
      ⊢ wp frame (wpE (defs₀ (F := F)) Variants.none c none) E (cc0__gate_kernel i arg1 harg1 arg2 harg2 arg3 harg3 arg4 harg4 arg5 harg5 arg6 harg6) K := by
  simp only [cc0__gate_kernel_eq_skeleton]; unfold cc0__gate_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  rcases hi with ⟨h1, h2⟩ | ⟨h1, h2⟩
  · sl_exec (disch := first | exact h1 | exact h2)
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists _; isplitr
    swap; · iexact H6
    ipureintro
    unfold gateOut gatePay
    rw [if_pos h1]
    exact View.read_writes_eq_canon _ _ _ (coverO _)
  · sl_exec (disch := first | exact h1 | exact h2)
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists _; isplitr
    swap; · iexact H6
    ipureintro
    unfold gateOut gatePay
    rw [if_neg h1]
    exact View.read_writes_eq_canon _ _ _ (coverO _)

/-! ## The pipeline's proof data -/

/-- The proof data of this pipeline on core `c`: the arrays as the region finds them; after the body at point `t` each
    input's buffer still at its block and the output's at the activated gate of the five input blocks; the invariant the
    scoped rest and the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => gateOut (grid0.coords t) (iblk V c 0 t) (iblk V c 1 t) (iblk V c 2 t) (iblk V c 3 t) (iblk V c 4 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t
    = gateOut (grid0.coords t) (iblk V c 0 t) (iblk V c 1 t) (iblk V c 2 t) (iblk V c 3 t) (iblk V c 4 t) := by dsimp only [dat]

theorem before_0 (c : Dev nD) (t : Fin cfg0.N) (d) : (dat V c).before 0 t d = iblk V c 0 t := before_of_0 V (dat V c) (A_eq V c 0) (after_0 V c) t d
theorem before_1 (c : Dev nD) (t : Fin cfg0.N) (d) : (dat V c).before 1 t d = iblk V c 1 t := before_of_1 V (dat V c) (A_eq V c 1) (after_1 V c) t d
theorem before_2 (c : Dev nD) (t : Fin cfg0.N) (d) : (dat V c).before 2 t d = iblk V c 2 t := before_of_2 V (dat V c) (A_eq V c 2) (after_2 V c) t d
theorem before_3 (c : Dev nD) (t : Fin cfg0.N) (d) : (dat V c).before 3 t d = iblk V c 3 t := before_of_3 V (dat V c) (A_eq V c 3) (after_3 V c) t d
theorem before_4 (c : Dev nD) (t : Fin cfg0.N) (d) : (dat V c).before 4 t d = iblk V c 4 t := before_of_4 V (dat V c) (A_eq V c 4) (after_4 V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- The body at any point: the inputs' memrefs hold their blocks, so `sound_kernel` applies in the point's case; the
    invariant and the core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) (branch t) _ _ _ _ _ _ _ _ _ _ _ _
    (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

set_option maxHeartbeats 2000000 in
/-- The library's body obligation, at every point: the output window is live and written back at every point, so what
    the body must leave in it is its `after`. -/
theorem body_obligation (c : Dev nD) : BodyObligation (dat (F := F) V c) (defs₀ (F := F)) Variants.none () Set.univ := fun t => by
  rw [bigSep_W0, bigSep_W0]
  have hl : cfg0.idle 5 (cfg0.grid.coords t) = false := live5 t
  rw [hl]
  exact sound_body V c t

end Cert.KernelIdeal.Gate0

end
-- ==== Proof.KI_Gate1.lean ====
import proofs.«405273_j36395552866595_3_alg».proof.Proof.Gen.KernelIdeal.Launch
import proofs.«405273_j36395552866595_3_alg».proof.Proof.Gen.KernelIdeal.Skeleton
import proofs.«405273_j36395552866595_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-! Region 1: the second LSTM layer's gate kernel, one grid point per gate. Point `g` reads the first layer new hidden state as its
    inputs `x`, the previous hidden state `h`, gate `g`'s slab of each weight matrix and of the summed bias, and
    writes `act_g (x · W_ihᵀ + h · W_hhᵀ + b)` into plane `g` of the stacked gates, where `act_g` is `tanh` at the
    cell-candidate gate (g = 2) and the logistic function at the other three. Stated at a parameter `V`: the
    buffer contents when the region is entered. -/
namespace Cert.KernelIdeal.Gate1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not. -/
theorem before_of_0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_of_1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_of_2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_of_3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_of_4 {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## Exactly one of the two branches is taken at every point -/

/-- At every grid point either the gate is the cell candidate (the `tanh` branch) or it is not (the logistic
    branch), never both and never neither. -/
theorem branch (t : Fin cfg1.N) :
    (k1_cond1 (grid1.coords t) = 1#1 ∧ ¬ k1_cond2 (grid1.coords t) = 1#1) ∨ (¬ k1_cond1 (grid1.coords t) = 1#1 ∧ k1_cond2 (grid1.coords t) = 1#1) :=
  (by decide +kernel : ∀ t : Fin grid1.N, (k1_cond1 (grid1.coords t) = 1#1 ∧ ¬ k1_cond2 (grid1.coords t) = 1#1) ∨ (¬ k1_cond1 (grid1.coords t) = 1#1 ∧ k1_cond2 (grid1.coords t) = 1#1)) t

/-- So the output window is live at every point. -/
theorem live5 (t : Fin cfg1.N) : cfg1.idle 5 (cfg1.grid.coords t) = false :=
  (by decide +kernel : ∀ t : Fin grid1.N, idle1 5 (grid1.coords t) = false) t

/-! ## The body's accesses and what it leaves in the output's buffer -/

abbrev rX : Rect S64x1024 := Rect.unit (s := S64x1024) ![0, 0] S64x1024.size inb_S64x1024_S64x1024_0_0
abbrev rH : Rect S64x1024 := Rect.unit (s := S64x1024) ![0, 0] S64x1024.size inb_S64x1024_S64x1024_0_0
abbrev rWx : Rect S1024x1024 := Rect.unit (s := S1024x1024) ![0, 0] S1024x1024.size inb_S1024x1024_S1024x1024_0_0
abbrev rWh : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0
abbrev rO : Rect S1x64x1024 := Rect.unit (s := S1x64x1024) ![0, 0, 0] S1x64x1024.size inb_S1x64x1024_S1x64x1024_0_0_0

/-- The activated gate the body stores at coordinates `i`, from the five input blocks. -/
def gatePay (i : grid1.Coords) (x : Vec F S64x1024 .f32) (h : Vec F S64x1024 .f32) (wx : Vec F S1024x1024 .f32) (wh : Vec F S1024x1024 .f32) (b : Vec F S1x1024 .f32) : Vec F S1x64x1024 .f32 :=
  if k1_cond1 i = 1#1 then k1_pay2 (View.ld x rX) (View.ld h rH) (View.ld wx rWx) (View.ld wh rWh) (View.ld b rB)
  else k1_pay3 (View.ld x rX) (View.ld h rH) (View.ld wx rWx) (View.ld wh rWh) (View.ld b rB)

/-- The output window's staging buffer after the body: its one store, which covers the buffer. -/
def gateOut (i : grid1.Coords) (x : Vec F S64x1024 .f32) (h : Vec F S64x1024 .f32) (wx : Vec F S1024x1024 .f32) (wh : Vec F S1024x1024 .f32) (b : Vec F S1x1024 .f32) : Vec F S1x64x1024 .f32 :=
  View.canon [⟨rO, gatePay i x h wx wh b⟩]

theorem coverO (p : Vec F S1x64x1024 .f32) (y : S1x64x1024.Idx) :
    ∃ pc ∈ ([⟨rO, p⟩] : List (View.Piece (Elt F) S1x64x1024 .f32)), y ∈ pc.1.set :=
  View.cover_of_tiled [⟨rO, p⟩] S1x64x1024.size (by rfl) y

/-! ## The body's triple -/

set_option maxHeartbeats 4000000 in
/-- The kernel body on whole staging memrefs, the inputs' at contents `x h wx wh b` and the output's at anything, runs
    to the continuation holding the inputs' as they were and the output's at `gateOut` of them: in each of the two
    cases one branch's store runs and the other's is skipped. -/
theorem sound_kernel (c : Dev nD) (E : Set ℕ) (i : grid1.Coords)
    (hi : (k1_cond1 i = 1#1 ∧ ¬ k1_cond2 i = 1#1) ∨ (¬ k1_cond1 i = 1#1 ∧ k1_cond2 i = 1#1))
    (arg1 : Memref sig .tc .vmem S64x1024 .f32) (harg1 : arg1.IsWhole) (arg2 : Memref sig .tc .vmem S64x1024 .f32) (harg2 : arg2.IsWhole)
    (arg3 : Memref sig .tc .vmem S1024x1024 .f32) (harg3 : arg3.IsWhole) (arg4 : Memref sig .tc .vmem S1024x1024 .f32) (harg4 : arg4.IsWhole)
    (arg5 : Memref sig .tc .vmem S1x1024 .f32) (harg5 : arg5.IsWhole) (arg6 : Memref sig .tc .vmem S1x64x1024 .f32) (harg6 : arg6.IsWhole)
    (x : Vec F S64x1024 .f32) (h : Vec F S64x1024 .f32) (wx : Vec F S1024x1024 .f32) (wh : Vec F S1024x1024 .f32) (b : Vec F S1x1024 .f32) (K : PUnit → sProp 𝕄) :
    iprop(owns (c : Thread nD τ) arg1 fullShare x ∗ owns (c : Thread nD τ) arg2 fullShare h ∗ owns (c : Thread nD τ) arg3 fullShare wx
        ∗ owns (c : Thread nD τ) arg4 fullShare wh ∗ owns (c : Thread nD τ) arg5 fullShare b ∗ (∃ d, owns (c : Thread nD τ) arg6 fullShare d)
        ∗ (iprop(owns (c : Thread nD τ) arg1 fullShare x ∗ owns (c : Thread nD τ) arg2 fullShare h ∗ owns (c : Thread nD τ) arg3 fullShare wx
            ∗ owns (c : Thread nD τ) arg4 fullShare wh ∗ owns (c : Thread nD τ) arg5 fullShare b
            ∗ owns (c : Thread nD τ) arg6 fullShare (gateOut i x h wx wh b)) -∗ K ⟨⟩))
      ⊢ wp frame (wpE (defs₀ (F := F)) Variants.none c none) E (cc1__gate_kernel i arg1 harg1 arg2 harg2 arg3 harg3 arg4 harg4 arg5 harg5 arg6 harg6) K := by
  simp only [cc1__gate_kernel_eq_skeleton]; unfold cc1__gate_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  rcases hi with ⟨h1, h2⟩ | ⟨h1, h2⟩
  · sl_exec (disch := first | exact h1 | exact h2)
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists _; isplitr
    swap; · iexact H6
    ipureintro
    unfold gateOut gatePay
    rw [if_pos h1]
    exact View.read_writes_eq_canon _ _ _ (coverO _)
  · sl_exec (disch := first | exact h1 | exact h2)
    sl_step
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists _; isplitr
    swap; · iexact H6
    ipureintro
    unfold gateOut gatePay
    rw [if_neg h1]
    exact View.read_writes_eq_canon _ _ _ (coverO _)

/-! ## The pipeline's proof data -/

/-- The proof data of this pipeline on core `c`: the arrays as the region finds them; after the body at point `t` each
    input's buffer still at its block and the output's at the activated gate of the five input blocks; the invariant the
    scoped rest and the generator register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => gateOut (grid1.coords t) (iblk V c 0 t) (iblk V c 1 t) (iblk V c 2 t) (iblk V c 3 t) (iblk V c 4 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t
    = gateOut (grid1.coords t) (iblk V c 0 t) (iblk V c 1 t) (iblk V c 2 t) (iblk V c 3 t) (iblk V c 4 t) := by dsimp only [dat]

theorem before_0 (c : Dev nD) (t : Fin cfg1.N) (d) : (dat V c).before 0 t d = iblk V c 0 t := before_of_0 V (dat V c) (A_eq V c 0) (after_0 V c) t d
theorem before_1 (c : Dev nD) (t : Fin cfg1.N) (d) : (dat V c).before 1 t d = iblk V c 1 t := before_of_1 V (dat V c) (A_eq V c 1) (after_1 V c) t d
theorem before_2 (c : Dev nD) (t : Fin cfg1.N) (d) : (dat V c).before 2 t d = iblk V c 2 t := before_of_2 V (dat V c) (A_eq V c 2) (after_2 V c) t d
theorem before_3 (c : Dev nD) (t : Fin cfg1.N) (d) : (dat V c).before 3 t d = iblk V c 3 t := before_of_3 V (dat V c) (A_eq V c 3) (after_3 V c) t d
theorem before_4 (c : Dev nD) (t : Fin cfg1.N) (d) : (dat V c).before 4 t d = iblk V c 4 t := before_of_4 V (dat V c) (A_eq V c 4) (after_4 V c) t d

/-! ## The body obligation, at a generic point -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at any point: the inputs' memrefs hold their blocks, so `sound_kernel` applies in the point's case; the
    invariant and the core's `owes` pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid1.coords t) (branch t) _ _ _ _ _ _ _ _ _ _ _ _
    (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

set_option maxHeartbeats 2000000 in
/-- The library's body obligation, at every point: the output window is live and written back at every point, so what
    the body must leave in it is its `after`. -/
theorem body_obligation (c : Dev nD) : BodyObligation (dat (F := F) V c) (defs₀ (F := F)) Variants.none () Set.univ := fun t => by
  rw [bigSep_W1, bigSep_W1]
  have hl : cfg1.idle 5 (cfg1.grid.coords t) = false := live5 t
  rw [hl]
  exact sound_body V c t

end Cert.KernelIdeal.Gate1

end
-- ==== Proof.KI_Fc.lean ====
import proofs.«405273_j36395552866595_3_alg».proof.Proof.Gen.KernelIdeal.Launch
import proofs.«405273_j36395552866595_3_alg».proof.Proof.Gen.KernelIdeal.Skeleton
import proofs.«405273_j36395552866595_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-! Region 2: the output projection, tiled over the vocabulary. Point `j` reads the second layer's new hidden state
    `h` whole, rows `3200 j … 3200 j + 3199` of the projection matrix and the matching stretch of the bias, and writes
    `h · Wᵀ + b` into columns `3200 j … 3200 j + 3199` of the logits. Stated at a parameter `V`: the buffer contents
    when the region is entered. -/
namespace Cert.KernelIdeal.Fc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input window's current staging buffer holds its block at every point, fetched there or not. -/
theorem before_of_0 {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_of_1 {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_of_2 {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output's buffer -/

abbrev rH : Rect S64x1024 := Rect.unit (s := S64x1024) ![0, 0] S64x1024.size inb_S64x1024_S64x1024_0_0
abbrev rW : Rect S3200x1024 := Rect.unit (s := S3200x1024) ![0, 0] S3200x1024.size inb_S3200x1024_S3200x1024_0_0
abbrev rB : Rect S1x3200 := Rect.unit (s := S1x3200) ![0, 0] S1x3200.size inb_S1x3200_S1x3200_0_0
abbrev rO : Rect S64x3200 := Rect.unit (s := S64x3200) ![0, 0] S64x3200.size inb_S64x3200_S64x3200_0_0

/-- The output window's staging buffer after the body: its one store, which covers the buffer. -/
def fcOut (h : Vec F S64x1024 .f32) (w : Vec F S3200x1024 .f32) (b : Vec F S1x3200 .f32) : Vec F S64x3200 .f32 :=
  View.canon [⟨rO, k2_pay1 (View.ld h rH) (View.ld w rW) (View.ld b rB)⟩]

theorem coverO (p : Vec F S64x3200 .f32) (y : S64x3200.Idx) :
    ∃ pc ∈ ([⟨rO, p⟩] : List (View.Piece (Elt F) S64x3200 .f32)), y ∈ pc.1.set :=
  View.cover_of_tiled [⟨rO, p⟩] S64x3200.size (by rfl) y

/-! ## The body's triple -/

set_option maxHeartbeats 4000000 in
/-- The kernel body on whole staging memrefs, the inputs' at contents `h w b` and the output's at anything, runs to the
    continuation holding the inputs' as they were and the output's at `fcOut` of them. -/
theorem sound_kernel (c : Dev nD) (E : Set ℕ) (i : grid2.Coords)
    (arg1 : Memref sig .tc .vmem S64x1024 .f32) (harg1 : arg1.IsWhole) (arg2 : Memref sig .tc .vmem S3200x1024 .f32) (harg2 : arg2.IsWhole)
    (arg3 : Memref sig .tc .vmem S1x3200 .f32) (harg3 : arg3.IsWhole) (arg4 : Memref sig .tc .vmem S64x3200 .f32) (harg4 : arg4.IsWhole)
    (h : Vec F S64x1024 .f32) (w : Vec F S3200x1024 .f32) (b : Vec F S1x3200 .f32) (K : PUnit → sProp 𝕄) :
    iprop(owns (c : Thread nD τ) arg1 fullShare h ∗ owns (c : Thread nD τ) arg2 fullShare w ∗ owns (c : Thread nD τ) arg3 fullShare b
        ∗ (∃ d, owns (c : Thread nD τ) arg4 fullShare d)
        ∗ (iprop(owns (c : Thread nD τ) arg1 fullShare h ∗ owns (c : Thread nD τ) arg2 fullShare w ∗ owns (c : Thread nD τ) arg3 fullShare b
            ∗ owns (c : Thread nD τ) arg4 fullShare (fcOut h w b)) -∗ K ⟨⟩))
      ⊢ wp frame (wpE (defs₀ (F := F)) Variants.none c none) E (cc2__fc_kernel i arg1 harg1 arg2 harg2 arg3 harg3 arg4 harg4) K := by
  simp only [cc2__fc_kernel_eq_skeleton]; unfold cc2__fc_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (coverO _)

/-! ## The pipeline's proof data -/

/-- The proof data of this pipeline on core `c`: the arrays as the region finds them; after the body at point `t` each
    input's buffer still at its block and the output's at the projected tile; the invariant the scoped rest and the
    generator register, untouched; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => fcOut (iblk V c 0 t) (iblk V c 1 t) (iblk V c 2 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = fcOut (iblk V c 0 t) (iblk V c 1 t) (iblk V c 2 t) := by dsimp only [dat]

theorem before_0 (c : Dev nD) (t : Fin cfg2.N) (d) : (dat V c).before 0 t d = iblk V c 0 t := before_of_0 V (dat V c) (A_eq V c 0) (after_0 V c) t d
theorem before_1 (c : Dev nD) (t : Fin cfg2.N) (d) : (dat V c).before 1 t d = iblk V c 1 t := before_of_1 V (dat V c) (A_eq V c 1) (after_1 V c) t d
theorem before_2 (c : Dev nD) (t : Fin cfg2.N) (d) : (dat V c).before 2 t d = iblk V c 2 t := before_of_2 V (dat V c) (A_eq V c 2) (after_2 V c) t d

/-! ## The body obligation, at a generic point -/

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t))

/-- The body at any point: the inputs' memrefs hold their blocks, so `sound_kernel` applies; the invariant and the core's
    `owes` pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid2.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W2, bigSep_W2]
  exact sound_body V c t

end Cert.KernelIdeal.Fc

end
-- ==== Proof.KI_Run.lean ====
import proofs.«405273_j36395552866595_3_alg».proof.Proof.Gen.KernelIdeal.Regions
import proofs.«405273_j36395552866595_3_alg».proof.Proof.KI_Gate0
import proofs.«405273_j36395552866595_3_alg».proof.Proof.KI_Gate1
import proofs.«405273_j36395552866595_3_alg».proof.Proof.KI_Fc

set_option maxRecDepth 16384

noncomputable section

/-! The program's run: three host stretches, the first layer's gate kernel, a host stretch, the second layer's gate
    kernel, a host stretch, the projection kernel. The buffer contents between the items are the launch contents
    carried through the host stretches, with each kernel region's output array replaced by what its pipeline leaves.
    Every weakly fair execution terminates with every unscoped buffer at the last of these contents. -/
namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What the regions leave, one after the other -/

/-- Region 0 is entered from the launch contents carried through the first three host stretches. -/
abbrev E3 (c : Dev nD) (b : Ref sig .tc) : Buf (Elt F) ((c : Thread nD τ).loc b) := V3 m c b

/-- The buffers at region 0's exit: its arrays at what the pipeline leaves, every other buffer as entered. -/
def o4 (c : Dev nD) : Valuation τ sig (Elt F) :=
  Pipeline.withArrays spec0 c (V3 m c) fun w => (Gate0.dat (E3 m) c).arrAt w cfg0.N

abbrev outs4 : Outs (F := F) := fun _ r c => o4 m c r

/-- Region 1's entry contents. -/
abbrev E5 (c : Dev nD) (b : Ref sig .tc) : Buf (Elt F) ((c : Thread nD τ).loc b) := V5 m (outs4 m) c b

def o6 (c : Dev nD) : Valuation τ sig (Elt F) :=
  Pipeline.withArrays spec1 c (V5 m (outs4 m) c) fun w => (Gate1.dat (E5 m) c).arrAt w cfg1.N

abbrev outs6 : Outs (F := F) := fun J r c => match J with | 4 => o4 m c r | _ => o6 m c r

/-- Region 2's entry contents. -/
abbrev E7 (c : Dev nD) (b : Ref sig .tc) : Buf (Elt F) ((c : Thread nD τ).loc b) := V7 m (outs6 m) c b

def o8 (c : Dev nD) : Valuation τ sig (Elt F) :=
  Pipeline.withArrays spec2 c (V7 m (outs6 m) c) fun w => (Fc.dat (E7 m) c).arrAt w cfg2.N

/-- What the three regions leave in their output arrays. -/
abbrev outs : Outs (F := F) := fun J r c => match J with | 4 => o4 m c r | 6 => o6 m c r | _ => o8 m c r

/-- The exit contents of the three regions, read at the TensorCore's references. -/
abbrev E4 (c : Dev nD) (b : Ref sig .tc) : Buf (Elt F) ((c : Thread nD τ).loc b) := V4 m (outs m) c b
abbrev E6 (c : Dev nD) (b : Ref sig .tc) : Buf (Elt F) ((c : Thread nD τ).loc b) := V6 m (outs m) c b
abbrev E8 (c : Dev nD) (b : Ref sig .tc) : Buf (Elt F) ((c : Thread nD τ).loc b) := V8 m (outs m) c b

theorem o4_arr (c : Dev nD) (w : Fin cfg0.W) : o4 m c (Proc.devRef .tc (Pipeline.arrRef spec0 w)) = (Gate0.dat (E3 m) c).arrAt w cfg0.N := by
  unfold o4; exact Pipeline.withArrays_arr spec0 launch0.win.arr_inj c _ _ w
theorem o6_arr (c : Dev nD) (w : Fin cfg1.W) : o6 m c (Proc.devRef .tc (Pipeline.arrRef spec1 w)) = (Gate1.dat (E5 m) c).arrAt w cfg1.N := by
  unfold o6; exact Pipeline.withArrays_arr spec1 launch1.win.arr_inj c _ _ w
theorem o8_arr (c : Dev nD) (w : Fin cfg2.W) : o8 m c (Proc.devRef .tc (Pipeline.arrRef spec2 w)) = (Fc.dat (E7 m) c).arrAt w cfg2.N := by
  unfold o8; exact Pipeline.withArrays_arr spec2 launch2.win.arr_inj c _ _ w

/-- At a region's exit each of its arrays holds what the pipeline leaves: an input's array what it held at entry, the
    output's array the write-backs folded. -/
theorem hF0 (c : Dev nD) : ∀ w : Fin cfg0.W, (Gate0.dat (E3 m) c).arrAt w cfg0.N = E4 m c (Pipeline.arrRef spec0 w)
  | ⟨0, _⟩ => (((Gate0.dat (E3 m) c).arrAt_in 0 rfl _).trans (Gate0.A_eq (E3 m) c 0)).trans (V4_of m (outs m) c (Pipeline.arrRef spec0 0) (by decide)).symm
  | ⟨1, _⟩ => (((Gate0.dat (E3 m) c).arrAt_in 1 rfl _).trans (Gate0.A_eq (E3 m) c 1)).trans (V4_of m (outs m) c (Pipeline.arrRef spec0 1) (by decide)).symm
  | ⟨2, _⟩ => (((Gate0.dat (E3 m) c).arrAt_in 2 rfl _).trans (Gate0.A_eq (E3 m) c 2)).trans (V4_of m (outs m) c (Pipeline.arrRef spec0 2) (by decide)).symm
  | ⟨3, _⟩ => (((Gate0.dat (E3 m) c).arrAt_in 3 rfl _).trans (Gate0.A_eq (E3 m) c 3)).trans (V4_of m (outs m) c (Pipeline.arrRef spec0 3) (by decide)).symm
  | ⟨4, _⟩ => (((Gate0.dat (E3 m) c).arrAt_in 4 rfl _).trans (Gate0.A_eq (E3 m) c 4)).trans (V4_of m (outs m) c (Pipeline.arrRef spec0 4) (by decide)).symm
  | ⟨5, _⟩ => by
    show _ = Function.update (V3 m c) (Proc.devRef .tc main_v14) (o4 m c main_v14) (Proc.devRef .tc main_v14)
    rw [Function.update_self]; exact (o4_arr m c 5).symm
theorem hF1 (c : Dev nD) : ∀ w : Fin cfg1.W, (Gate1.dat (E5 m) c).arrAt w cfg1.N = E6 m c (Pipeline.arrRef spec1 w)
  | ⟨0, _⟩ => (((Gate1.dat (E5 m) c).arrAt_in 0 rfl _).trans (Gate1.A_eq (E5 m) c 0)).trans (V6_of m (outs m) c (Pipeline.arrRef spec1 0) (by decide)).symm
  | ⟨1, _⟩ => (((Gate1.dat (E5 m) c).arrAt_in 1 rfl _).trans (Gate1.A_eq (E5 m) c 1)).trans (V6_of m (outs m) c (Pipeline.arrRef spec1 1) (by decide)).symm
  | ⟨2, _⟩ => (((Gate1.dat (E5 m) c).arrAt_in 2 rfl _).trans (Gate1.A_eq (E5 m) c 2)).trans (V6_of m (outs m) c (Pipeline.arrRef spec1 2) (by decide)).symm
  | ⟨3, _⟩ => (((Gate1.dat (E5 m) c).arrAt_in 3 rfl _).trans (Gate1.A_eq (E5 m) c 3)).trans (V6_of m (outs m) c (Pipeline.arrRef spec1 3) (by decide)).symm
  | ⟨4, _⟩ => (((Gate1.dat (E5 m) c).arrAt_in 4 rfl _).trans (Gate1.A_eq (E5 m) c 4)).trans (V6_of m (outs m) c (Pipeline.arrRef spec1 4) (by decide)).symm
  | ⟨5, _⟩ => by
    show _ = Function.update (V5 m (outs m) c) (Proc.devRef .tc main_v32) (o6 m c main_v32) (Proc.devRef .tc main_v32)
    rw [Function.update_self]; exact (o6_arr m c 5).symm
theorem hF2 (c : Dev nD) : ∀ w : Fin cfg2.W, (Fc.dat (E7 m) c).arrAt w cfg2.N = E8 m c (Pipeline.arrRef spec2 w)
  | ⟨0, _⟩ => (((Fc.dat (E7 m) c).arrAt_in 0 rfl _).trans (Fc.A_eq (E7 m) c 0)).trans (V8_of m (outs m) c (Pipeline.arrRef spec2 0) (by decide)).symm
  | ⟨1, _⟩ => (((Fc.dat (E7 m) c).arrAt_in 1 rfl _).trans (Fc.A_eq (E7 m) c 1)).trans (V8_of m (outs m) c (Pipeline.arrRef spec2 1) (by decide)).symm
  | ⟨2, _⟩ => (((Fc.dat (E7 m) c).arrAt_in 2 rfl _).trans (Fc.A_eq (E7 m) c 2)).trans (V8_of m (outs m) c (Pipeline.arrRef spec2 2) (by decide)).symm
  | ⟨3, _⟩ => by
    show _ = Function.update (V7 m (outs m) c) (Proc.devRef .tc main_v55) (o8 m c main_v55) (Proc.devRef .tc main_v55)
    rw [Function.update_self]; exact (o8_arr m c 3).symm

/-- and every buffer that is none of the region's arrays what it held at entry. -/
theorem hrest0 (c : Dev nD) : ∀ b, b ∉ Finset.univ.image (Pipeline.arrRef spec0) → E4 m c b = E3 m c b :=
  fun b hb => V4_of m (outs m) c b fun h => hb (Finset.mem_image.mpr ⟨5, Finset.mem_univ _, (List.mem_singleton.mp h).symm⟩)
theorem hrest1 (c : Dev nD) : ∀ b, b ∉ Finset.univ.image (Pipeline.arrRef spec1) → E6 m c b = E5 m c b :=
  fun b hb => V6_of m (outs m) c b fun h => hb (Finset.mem_image.mpr ⟨5, Finset.mem_univ _, (List.mem_singleton.mp h).symm⟩)
theorem hrest2 (c : Dev nD) : ∀ b, b ∉ Finset.univ.image (Pipeline.arrRef spec2) → E8 m c b = E7 m c b :=
  fun b hb => V8_of m (outs m) c b fun h => hb (Finset.mem_image.mpr ⟨3, Finset.mem_univ _, (List.mem_singleton.mp h).symm⟩)

/-! ## The proof data family and the thread state -/

/-- Every pipeline's proof data, each at its region's entry contents. -/
def pdats : (p : Fin 3) → (c : Dev nD) → Dat τ (Elt F) Unit ℕ (UR sig nD τ) ℕ (cfgs p) c
  | ⟨0, _⟩ => fun c => Gate0.dat (E3 m) c
  | ⟨1, _⟩ => fun c => Gate1.dat (E5 m) c
  | ⟨2, _⟩ => fun c => Fc.dat (E7 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)

/-! ## The regions as segments -/

-- a library lemma stated over the pinned configuration unifies with the printed one only when unification may unfold
-- plain definitions in a metavariable's type
set_option backward.isDefEq.respectTransparency.types false in
/-- Region 0 over the thread state: entered from every unscoped buffer at its entry contents, left at its exit contents.
    Its arrays are split out of the unscoped buffers and put back at what the pipeline leaves; the generator register goes
    into the pipeline's invariant and comes out; nothing is owed; the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Gate0.body_obligation (E3 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at its entry contents, left at its exit contents.
    Its arrays are split out of the unscoped buffers and put back at what the pipeline leaves; the generator register goes
    into the pipeline's invariant and comes out; nothing is owed; the kernel has no semaphore of its own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Gate1.body_obligation (E5 m) c).loose
  hwaits := Pipeline.hwaits_of_owed_zero _ _ _ _ L lv 1 fun _ _ => rfl
  pre c := iprop(StableHlo.held (c : Thread nD τ) (Pipeline.ucRefs τ sig) (V5 m (outs m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at its entry contents, left at its exit contents.
    Its arrays are split out of the unscoped buffers and put back at what the pipeline leaves; the generator register goes
    into the pipeline's invariant and comes out; nothing is owed; the kernel has no semaphore of its own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Fc.body_obligation (E7 m) c).loose
  hwaits := Pipeline.hwaits_of_owed_zero _ _ _ _ L lv 2 fun _ _ => rfl
  pre c := iprop(StableHlo.held (c : Thread nD τ) (Pipeline.ucRefs τ sig) (V7 m (outs m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec2 c (E7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E7 m c) (E8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The run, given the regions' records: for any launch dues, ghost resources and rest states, GIVEN per region a segment
    record entered from the thread state before it and left at the one after it, every weakly fair execution of the
    program from memory `m` with zero counters terminates, and in every final memory every unscoped buffer of every
    core holds the last contents `V8`. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c)) :
    θ_run defs (onTc (τ := τ) (main (F := F))) ⟨m, fun _ => 0, ρ⟩ (fun r => ∀ c : Dev nD,
      ∀ b ∈ Pipeline.ucRefs τ sig, r.2.mem ((c : Thread nD τ).1, b) = V8 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V8 m outs c))
    (hch := fun c => ⟨.rfl, .rfl, .rfl, hpre0 c, hpost0 c, hpre1 c, hpost1 c, hpre2 c, (hpost2 c).trans (sep_mono .rfl (hE3 c))⟩)
    (hinit := ?_) (QY := fun c s => ∀ b ∈ Pipeline.ucRefs τ sig, s.mem ((c : Thread nD τ).1, b) = V8 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V8 m outs c) s') $$ [Hh HSI]
    · isplitl [Hh] <;> iassumption
    icases Hr with ⟨%h, HSI⟩
    imodintro
    isplitr
    · ipureintro
      exact h
    · iexact HSI

-- the launch theorem's implicit arguments are found by unifying its conclusion with this one, which takes unfolding plain
-- definitions in a metavariable's type
set_option backward.isDefEq.respectTransparency.types false in
/-- THE RUN: every weakly fair execution of the program from memory `m` with zero counters terminates, nothing faulting,
    and every final memory holds, in every unscoped buffer of every core, the contents after the last region. -/
theorem run (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V8 m (outs m) c b) :=
  run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, H⟩; iexact H)
    (reg0 m) (fun _ => .rfl) (fun _ => .rfl) (reg1 m) (fun _ => .rfl) (fun _ => .rfl) (reg2 m) (fun _ => .rfl) (fun _ => .rfl)

/-- THE FRAME: the program runs to the end, faults nowhere, and leaves every argument array as launched: no host
    stretch writes an argument and no region may change one, so the last contents at an argument are the launch's. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
    ⟨(h c _ (Finset.mem_filter.mpr ⟨StableHlo.devRef_mem_tcRefs main_arg0, by decide⟩)).trans (V8_main_arg0 m (outs m) c),
      (h c _ (Finset.mem_filter.mpr ⟨StableHlo.devRef_mem_tcRefs main_arg1, by decide⟩)).trans (V8_main_arg1 m (outs m) c),
      (h c _ (Finset.mem_filter.mpr ⟨StableHlo.devRef_mem_tcRefs main_arg2, by decide⟩)).trans (V8_main_arg2 m (outs m) c),
      (h c _ (Finset.mem_filter.mpr ⟨StableHlo.devRef_mem_tcRefs main_arg3, by decide⟩)).trans (V8_main_arg3 m (outs m) c),
      (h c _ (Finset.mem_filter.mpr ⟨StableHlo.devRef_mem_tcRefs main_arg4, by decide⟩)).trans (V8_main_arg4 m (outs m) c),
      (h c _ (Finset.mem_filter.mpr ⟨StableHlo.devRef_mem_tcRefs main_arg5, by decide⟩)).trans (V8_main_arg5 m (outs m) c),
      (h c _ (Finset.mem_filter.mpr ⟨StableHlo.devRef_mem_tcRefs main_arg6, by decide⟩)).trans (V8_main_arg6 m (outs m) c),
      (h c _ (Finset.mem_filter.mpr ⟨StableHlo.devRef_mem_tcRefs main_arg7, by decide⟩)).trans (V8_main_arg7 m (outs m) c),
      (h c _ (Finset.mem_filter.mpr ⟨StableHlo.devRef_mem_tcRefs main_arg8, by decide⟩)).trans (V8_main_arg8 m (outs m) c),
      (h c _ (Finset.mem_filter.mpr ⟨StableHlo.devRef_mem_tcRefs main_arg9, by decide⟩)).trans (V8_main_arg9 m (outs m) c),
      (h c _ (Finset.mem_filter.mpr ⟨StableHlo.devRef_mem_tcRefs main_arg10, by decide⟩)).trans (V8_main_arg10 m (outs m) c),
      (h c _ (Finset.mem_filter.mpr ⟨StableHlo.devRef_mem_tcRefs main_arg11, by decide⟩)).trans (V8_main_arg11 m (outs m) c),
      (h c _ (Finset.mem_filter.mpr ⟨StableHlo.devRef_mem_tcRefs main_arg12, by decide⟩)).trans (V8_main_arg12 m (outs m) c),
      (h c _ (Finset.mem_filter.mpr ⟨StableHlo.devRef_mem_tcRefs main_arg13, by decide⟩)).trans (V8_main_arg13 m (outs m) c)⟩) (run m ρ)

end Cert.KernelIdeal.Run

end
-- ==== Proof.Spec.lean ====
import Idealize.ShloMosaic.PureOps.Ideal
import Idealize.ShloMosaic.Lib.ValueIdx

/-! # One decoding step of a two-layer LSTM with an output projection, over the extended reals

The token ids pick rows of the embedding table; each layer computes four gates from its input and its previous hidden
state, `act_g (x · W_ihᵀ + h · W_hhᵀ + (b_ih + b_hh))` with `act` the hyperbolic tangent at the cell candidate and the
logistic function at the input, forget and output gates; the new cell state is `f · c + i · g`, the new hidden state
`o · tanh` of it; the second layer's new hidden state is projected onto the vocabulary. Everything here is a pure
function of arrays over literal shapes, an index at a time. -/

noncomputable section

namespace Cert.Spec

open Idealize.ShloMosaic Idealize.ShloMosaic.ValueIdx

/-- Arrays of extended reals of rank one, two and three. -/
abbrev A1 (n : Nat) : Type := (⟨1, ![n]⟩ : Shape).Idx → EReal
abbrev A2 (a b : Nat) : Type := (⟨2, ![a, b]⟩ : Shape).Idx → EReal
abbrev A3 (a b c : Nat) : Type := (⟨3, ![a, b, c]⟩ : Shape).Idx → EReal
/-- The token ids. -/
abbrev Ids : Type := (⟨1, ![64]⟩ : Shape).Idx → BitVec 32

/-- Row `1024 g + n` of a matrix of four stacked blocks of 1024 rows: gate `g`'s row `n`. -/
def row (g : Fin 4) (n : Fin 1024) : Fin 4096 := ⟨1024 * g.val + n.val, by omega⟩

/-- Gate `g`'s activation: the hyperbolic tangent for the cell candidate (`g = 2`), the logistic function for the
    input, forget and output gates. -/
def act (g : Fin 4) (z : EReal) : EReal := if g.val = 2 then Ideal.tanh z else Ideal.logistic z

/-- The two bias vectors summed, as a row. -/
def bias (bi bh : A1 4096) : A2 1 4096 := fun j => bi (ix1 (j 1)) + bh (ix1 (j 1))

/-- A vector as a one-row matrix. -/
def rowB (b : A1 32000) : A2 1 32000 := fun j => b (ix1 (j 1))

/-- The embedding rows the token ids pick: id `v ≥ 0` picks row `min v 31999`. -/
def embed (E : A2 32000 512) (idx : Ids) : A2 64 512 :=
  fun j => E (ix2 ⟨min (idx (ix1 (j 0))).toInt.toNat 31999, by omega⟩ (j 1))

/-- One entry of the first layer's activated gates: gate `g`, batch row `r`, hidden unit `n`. -/
def gate0At (x : A2 64 512) (h : A2 64 1024) (wx : A2 4096 512) (wh : A2 4096 1024) (b : A2 1 4096)
    (g : Fin 4) (r : Fin 64) (n : Fin 1024) : EReal :=
  act g (((∑ k : Fin 512, x (ix2 r k) * wx (ix2 (row g n) k)) + (∑ k : Fin 1024, h (ix2 r k) * wh (ix2 (row g n) k)))
    + b (ix2 0 (row g n)))

/-- The first layer's four activated gates, stacked. -/
def gates0 (x : A2 64 512) (h : A2 64 1024) (wx : A2 4096 512) (wh : A2 4096 1024) (b : A2 1 4096) : A3 4 64 1024 :=
  fun j => gate0At x h wx wh b (j 0) (j 1) (j 2)

/-- One entry of the second layer's activated gates. -/
def gate1At (x : A2 64 1024) (h : A2 64 1024) (wx : A2 4096 1024) (wh : A2 4096 1024) (b : A2 1 4096)
    (g : Fin 4) (r : Fin 64) (n : Fin 1024) : EReal :=
  act g (((∑ k : Fin 1024, x (ix2 r k) * wx (ix2 (row g n) k)) + (∑ k : Fin 1024, h (ix2 r k) * wh (ix2 (row g n) k)))
    + b (ix2 0 (row g n)))

/-- The second layer's four activated gates, stacked. -/
def gates1 (x : A2 64 1024) (h : A2 64 1024) (wx : A2 4096 1024) (wh : A2 4096 1024) (b : A2 1 4096) : A3 4 64 1024 :=
  fun j => gate1At x h wx wh b (j 0) (j 1) (j 2)

/-- The new cell state: forget gate times the old state plus input gate times candidate. -/
def cellC (G : A3 4 64 1024) (c : A2 64 1024) : A2 64 1024 :=
  fun j => G (ix3 1 (j 0) (j 1)) * c j + G (ix3 0 (j 0) (j 1)) * G (ix3 2 (j 0) (j 1))

/-- The new hidden state: output gate times the hyperbolic tangent of the new cell state. -/
def cellH (G : A3 4 64 1024) (c : A2 64 1024) : A2 64 1024 :=
  fun j => G (ix3 3 (j 0) (j 1)) * Ideal.tanh (cellC G c j)

/-- Layer `l` of a two-layer state. -/
def layer (l : Fin 2) (a : A3 2 64 1024) : A2 64 1024 := fun j => a (ix3 l (j 0) (j 1))

/-- Two layers' states stacked. -/
def stack (a b : A2 64 1024) : A3 2 64 1024 :=
  fun j => if (j 0).val = 0 then a (ix2 (j 1) (j 2)) else b (ix2 (j 1) (j 2))

/-- The projection onto the vocabulary: `h · Wᵀ + b`. -/
def logits (h : A2 64 1024) (w : A2 32000 1024) (b : A2 1 32000) : A2 64 32000 :=
  fun j => (∑ k : Fin 1024, h (ix2 (j 0) k) * w (ix2 (j 1) k)) + b (ix2 0 (j 1))

/-! ## The whole step, as functions of the fourteen arguments -/

def G0 (idx : Ids) (hS : A3 2 64 1024) (E : A2 32000 512) (wi0 : A2 4096 512) (wh0 : A2 4096 1024) (bi0 bh0 : A1 4096) : A3 4 64 1024 :=
  gates0 (embed E idx) (layer 0 hS) wi0 wh0 (bias bi0 bh0)

def c0 (idx : Ids) (hS cS : A3 2 64 1024) (E : A2 32000 512) (wi0 : A2 4096 512) (wh0 : A2 4096 1024) (bi0 bh0 : A1 4096) : A2 64 1024 :=
  cellC (G0 idx hS E wi0 wh0 bi0 bh0) (layer 0 cS)

def h0 (idx : Ids) (hS cS : A3 2 64 1024) (E : A2 32000 512) (wi0 : A2 4096 512) (wh0 : A2 4096 1024) (bi0 bh0 : A1 4096) : A2 64 1024 :=
  cellH (G0 idx hS E wi0 wh0 bi0 bh0) (layer 0 cS)

def G1 (idx : Ids) (hS cS : A3 2 64 1024) (E : A2 32000 512) (wi0 : A2 4096 512) (wh0 : A2 4096 1024) (bi0 bh0 : A1 4096)
    (wi1 wh1 : A2 4096 1024) (bi1 bh1 : A1 4096) : A3 4 64 1024 :=
  gates1 (h0 idx hS cS E wi0 wh0 bi0 bh0) (layer 1 hS) wi1 wh1 (bias bi1 bh1)

def c1 (idx : Ids) (hS cS : A3 2 64 1024) (E : A2 32000 512) (wi0 : A2 4096 512) (wh0 : A2 4096 1024) (bi0 bh0 : A1 4096)
    (wi1 wh1 : A2 4096 1024) (bi1 bh1 : A1 4096) : A2 64 1024 :=
  cellC (G1 idx hS cS E wi0 wh0 bi0 bh0 wi1 wh1 bi1 bh1) (layer 1 cS)

def h1 (idx : Ids) (hS cS : A3 2 64 1024) (E : A2 32000 512) (wi0 : A2 4096 512) (wh0 : A2 4096 1024) (bi0 bh0 : A1 4096)
    (wi1 wh1 : A2 4096 1024) (bi1 bh1 : A1 4096) : A2 64 1024 :=
  cellH (G1 idx hS cS E wi0 wh0 bi0 bh0 wi1 wh1 bi1 bh1) (layer 1 cS)

/-- The three results. -/
def outLogits (idx : Ids) (hS cS : A3 2 64 1024) (E : A2 32000 512) (wi0 : A2 4096 512) (wh0 : A2 4096 1024) (bi0 bh0 : A1 4096)
    (wi1 wh1 : A2 4096 1024) (bi1 bh1 : A1 4096) (fw : A2 32000 1024) (fb : A1 32000) : A2 64 32000 :=
  logits (h1 idx hS cS E wi0 wh0 bi0 bh0 wi1 wh1 bi1 bh1) fw (rowB fb)

def outH (idx : Ids) (hS cS : A3 2 64 1024) (E : A2 32000 512) (wi0 : A2 4096 512) (wh0 : A2 4096 1024) (bi0 bh0 : A1 4096)
    (wi1 wh1 : A2 4096 1024) (bi1 bh1 : A1 4096) : A3 2 64 1024 :=
  stack (h0 idx hS cS E wi0 wh0 bi0 bh0) (h1 idx hS cS E wi0 wh0 bi0 bh0 wi1 wh1 bi1 bh1)

def outC (idx : Ids) (hS cS : A3 2 64 1024) (E : A2 32000 512) (wi0 : A2 4096 512) (wh0 : A2 4096 1024) (bi0 bh0 : A1 4096)
    (wi1 wh1 : A2 4096 1024) (bi1 bh1 : A1 4096) : A3 2 64 1024 :=
  stack (c0 idx hS cS E wi0 wh0 bi0 bh0) (c1 idx hS cS E wi0 wh0 bi0 bh0 wi1 wh1 bi1 bh1)

end Cert.Spec

end
-- ==== Proof.GatherRows.lean ====
import proofs.«405273_j36395552866595_3_alg».proof.ReferenceIdeal
import proofs.«405273_j36395552866595_3_alg».proof.KernelIdeal
import proofs.«405273_j36395552866595_3_alg».proof.Proof.Spec
import Idealize.ShloMosaic.Lib.ValueIdx

/-! # Rows of a table picked by a column of start indices

A gather whose start indices are an `[R, 1]` column, whose start index names the table's row axis (collapsed), and whose
one offset axis runs along a whole row of `C` entries, reads at `(r, k)` the table's entry `k` of the row named by start
index `r`, that index read as a signed integer and clamped into `[0, N - 1]`. Both programs look the embedding rows up
this way; for non-negative token ids both start-index columns name the same rows as the specification's `embed`. -/

noncomputable section

namespace Cert.GatherRows

open Idealize.ShloMosaic Idealize.ShloMosaic.ValueIdx

section Rows
variable {α : Type}

/-- The dimension numbers of a row lookup: operand `[N, C]`, start indices `[R, 1]`, result `[R, C]`; the result's
    axis 1 is the offset axis, the operand's axis 0 is collapsed and named by the start index, the index vector lies on
    the start indices' axis 1, and a slice is one whole row. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row lookup read at `(r, k)`: entry `k` of the row whose number is start index `r`, read signed and clamped into
    `[0, N - 1]`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowDims N C R wf) x idx (ix2 r k)
      = x (ix2 ⟨min (idx (ix2 r 0)).toInt.toNat (N - 1), by omega⟩ k) := by
  unfold Host.gather
  congr 1
  funext a
  refine Fin.ext ?_
  match a with
  | ⟨0, _⟩ =>
    -- the row axis: no batching, no offset (it is collapsed); the start is the clamped start index
    show (rowDims N C R wf).start (ix2 r k) idx 0 + (rowDims N C R wf).batchCoord (ix2 r k) 0
      + (rowDims N C R wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 r k) ⟨List.idxOf (0 : Fin 2) (rowDims N C R wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    -- the column axis: the start index does not name it, no batching; the offset is the result's column
    show (rowDims N C R wf).start (ix2 r k) idx 1 + (rowDims N C R wf).batchCoord (ix2 r k) 1
      + (rowDims N C R wf).offCoord (ix2 r k) 1 = _
    rw [GatherDims.batchCoord_eq_zero _ _ _ List.not_mem_nil]
    have hs : (rowDims N C R wf).start (ix2 r k) idx 1 = 0 := by
      unfold GatherDims.start
      rw [dif_neg (fun h => absurd (List.mem_singleton.mp h) (show (1 : Fin 2) ≠ 0 by decide))]
    rw [hs]
    simp only [Nat.add_zero, Nat.zero_add]
    rfl

end Rows

/-! ## The start-index words

A token id `x ≥ 0` (as a signed 32-bit integer) is not below zero, so the wrap-around `select (x < 0) (x + 32000) x` keeps
it; clipping it into `[0, 31999]` first gives `min x 31999`, again not below zero, and clamping that into `[0, 31999]` is
clamping `x`. -/

section Words

/-- A vector of 64 entries laid out as a `[64, 1]` column reads at row `r` the vector's entry `r`. -/
theorem column64_apply {α : Type} (h : (⟨1, ![64]⟩ : Shape).BroadcastsInDim ⟨2, ![64, 1]⟩ ![0])
    (v : (⟨1, ![64]⟩ : Shape).Idx → α) (r : Fin 64) :
    broadcastInDim ⟨2, ![64, 1]⟩ ![0] h v (ix2 r 0) = v (ix1 r) := by
  show v _ = v _
  congr 1
  funext a
  match a with
  | ⟨0, _⟩ => rfl

/-- A word that is not negative is not signed-below zero. -/
theorem slt_zero_eq_false (x : BitVec 32) (hx : 0 ≤ x.toInt) : x.slt 0#32 = false := by
  unfold BitVec.slt
  rw [BitVec.toInt_zero]
  exact decide_eq_false (by omega)

/-- The wrap-around of a non-negative index is the index. -/
theorem wrap_nonneg (x : BitVec 32) (hx : 0 ≤ x.toInt) :
    Scalar.select (IntOp.cmpi .slt x 0#32) (IntOp.addi x 32000#32) x = x := by
  unfold IntOp.cmpi Scalar.select
  simp only [slt_zero_eq_false x hx]
  rfl

/-- The clip of a non-negative word into `[0, 31999]`: the word itself up to `31999`, `31999` beyond. -/
theorem clip_nonneg (x : BitVec 32) (hx : 0 ≤ x.toInt) :
    IntOp.minsi 31999#32 (IntOp.maxsi 0#32 x) = if 31999 < x.toInt then 31999#32 else x := by
  unfold IntOp.minsi IntOp.maxsi
  rw [slt_zero_eq_false x hx]
  simp only [Bool.false_eq_true, if_false]
  unfold BitVec.slt
  have h : (31999#32 : BitVec 32).toInt = 31999 := by decide
  rw [h]
  simp only [decide_eq_true_eq]

/-- The clip of a non-negative word is not negative, and clamping it into `[0, 31999]` is clamping the word. -/
theorem clip_toInt (x : BitVec 32) (hx : 0 ≤ x.toInt) :
    0 ≤ (IntOp.minsi 31999#32 (IntOp.maxsi 0#32 x)).toInt
      ∧ min (IntOp.minsi 31999#32 (IntOp.maxsi 0#32 x)).toInt.toNat 31999 = min x.toInt.toNat 31999 := by
  rw [clip_nonneg x hx]
  have h : (31999#32 : BitVec 32).toInt = 31999 := by decide
  split
  · rw [h]; constructor <;> omega
  · constructor <;> omega

end Words

end Cert.GatherRows

/-! ## The two programs' lookups -/

namespace Cert.ReferenceIdeal

open Idealize.ShloMosaic Idealize.ShloMosaic.ValueIdx Cert.ReferenceIdeal.Facts₀

/-- The reference's lookup: the ids wrapped around (a no-op on non-negative ids), laid out as a column, gather the
    specification's embedding rows. -/
theorem embed_eq [Cert.ReferenceIdeal.Facts] (E : FVec Ideal S32000x512 .f32) (idx : IVec S64 32)
    (hidx : ∀ i, 0 ≤ (idx i).toInt) :
    Host.gather gather_S32000x512_S64x1_S64x512_1_0_n_n_0_1_1512 E
        (broadcastInDim S64x1 ![0] bcast_S64_S64x1_0
          (select (cmpi .slt idx (broadcastInDim S64 ![] bcast_S_S64 (constantI S_ 32 0#32)))
            (addi idx (broadcastInDim S64 ![] bcast_S_S64 (constantI S_ 32 32000#32))) idx))
      = Cert.Spec.embed E idx := by
  funext j
  obtain ⟨r, k, rfl⟩ : ∃ r k, j = ix2 r k := ⟨j 0, j 1, eq_ix2 j⟩
  refine (Cert.GatherRows.gather_rows_apply (by decide) gather_S32000x512_S64x1_S64x512_1_0_n_n_0_1_1512_wf E _ r k).trans ?_
  refine congrArg E (funext fun a => ?_)
  match a with
  | ⟨0, _⟩ =>
    refine Fin.ext ?_
    exact congrArg (fun x : BitVec 32 => min x.toInt.toNat 31999)
      ((Cert.GatherRows.column64_apply bcast_S64_S64x1_0 _ r).trans
        (Cert.GatherRows.wrap_nonneg (idx (ix1 r)) (hidx _)))
  | ⟨1, _⟩ => rfl

end Cert.ReferenceIdeal

namespace Cert.KernelIdeal

open Idealize.ShloMosaic Idealize.ShloMosaic.ValueIdx Cert.KernelIdeal.Facts₀

/-- The kernel program's lookup: the ids clipped into `[0, 31999]`, wrapped around (a no-op: the clip is not negative),
    laid out as a column, gather the specification's embedding rows, since clamping the clip is clamping the id. -/
theorem embed_eq [Cert.KernelIdeal.Facts] (E : FVec Ideal S32000x512 .f32) (idx : IVec S64 32)
    (hidx : ∀ i, 0 ≤ (idx i).toInt) :
    Host.gather gather_S32000x512_S64x1_S64x512_1_0_n_n_0_1_1512 E
        (broadcastInDim S64x1 ![0] bcast_S64_S64x1_0
          (select
            (cmpi .slt
              (minsi (broadcastInDim S64 ![] bcast_S_S64 (constantI S_ 32 31999#32))
                (maxsi (broadcastInDim S64 ![] bcast_S_S64 (constantI S_ 32 0#32)) idx))
              (broadcastInDim S64 ![] bcast_S_S64 (constantI S_ 32 0#32)))
            (addi
              (minsi (broadcastInDim S64 ![] bcast_S_S64 (constantI S_ 32 31999#32))
                (maxsi (broadcastInDim S64 ![] bcast_S_S64 (constantI S_ 32 0#32)) idx))
              (broadcastInDim S64 ![] bcast_S_S64 (constantI S_ 32 32000#32)))
            (minsi (broadcastInDim S64 ![] bcast_S_S64 (constantI S_ 32 31999#32))
              (maxsi (broadcastInDim S64 ![] bcast_S_S64 (constantI S_ 32 0#32)) idx))))
      = Cert.Spec.embed E idx := by
  funext j
  obtain ⟨r, k, rfl⟩ : ∃ r k, j = ix2 r k := ⟨j 0, j 1, eq_ix2 j⟩
  refine (Cert.GatherRows.gather_rows_apply (by decide) gather_S32000x512_S64x1_S64x512_1_0_n_n_0_1_1512_wf E _ r k).trans ?_
  refine congrArg E (funext fun a => ?_)
  match a with
  | ⟨0, _⟩ =>
    refine Fin.ext ?_
    refine (congrArg (fun x : BitVec 32 => min x.toInt.toNat 31999)
      ((Cert.GatherRows.column64_apply bcast_S64_S64x1_0 _ r).trans
        (Cert.GatherRows.wrap_nonneg (IntOp.minsi 31999#32 (IntOp.maxsi 0#32 (idx (ix1 r))))
          (Cert.GatherRows.clip_toInt _ (hidx _)).1))).trans ?_
    exact (Cert.GatherRows.clip_toInt _ (hidx _)).2
  | ⟨1, _⟩ => rfl

end Cert.KernelIdeal

end
-- ==== Proof.KI_Host.lean ====
import proofs.«405273_j36395552866595_3_alg».proof.Proof.Gen.KernelIdeal.Launch
import proofs.«405273_j36395552866595_3_alg».proof.Proof.Spec
import proofs.«405273_j36395552866595_3_alg».proof.Proof.GatherRows
import Idealize.ShloMosaic.Lib.StableHlo.Run
import Idealize.ShloMosaic.Lib.Pipeline.Value
import Idealize.ShloMosaic.Lib.ValueLayout
import Idealize.ShloMosaic.Lib.ValueIdx

noncomputable section

/-! What the program's host stretches leave in the buffers the kernel regions and the results read, as the
    specification's functions of what they found. -/
namespace Cert.KernelIdeal.HostVal

open Cert.KernelIdeal Cert.KernelIdeal.Gen
open Idealize.ShloMosaic Idealize.ShloMosaic.TcCoe Idealize.SL.Sem
open Idealize.ShloMosaic.ValueIdx

/-! ## Layout operations of the stretches, read at coordinates -/

section Reads
variable {α : Type}

/-- A vector reshaped to a one-row matrix reads, at row-and-column `j`, the vector at `j`'s column. -/
theorem row_read {n : Nat} (x : (⟨1, ![n]⟩ : Shape).Idx → α) (h : (⟨1, ![n]⟩ : Shape).ShapeCasts ⟨2, ![1, n]⟩) :
    shapeCast ⟨2, ![1, n]⟩ x h = fun j => x (ix1 (j 1)) := by
  funext j
  obtain ⟨u, i, rfl⟩ : ∃ u i, j = ix2 u i := ⟨j 0, j 1, eq_ix2 j⟩
  exact shapeCast_a_1a_apply x h u i

/-- Plane `l` of a stack of `64 × 1024` matrices: the slice `[o : o + 1]` along the leading axis, its unit axis dropped. -/
theorem plane_read {n : Nat} (o : Nat) (X : (⟨3, ![n, 64, 1024]⟩ : Shape).Idx → α)
    (h : (⟨3, ![n, 64, 1024]⟩ : Shape).Slices ![o, 0, 0] S1x64x1024) (l : Fin n) (hl : l.val = o) :
    shapeCast S64x1024 (extractStridedSlice S1x64x1024 ![o, 0, 0] X h) shapeCasts_S1x64x1024_S64x1024
      = fun j => X (ix3 l (j 0) (j 1)) := by
  funext j
  obtain ⟨a, b, rfl⟩ : ∃ a b, j = ix2 a b := ⟨j 0, j 1, eq_ix2 j⟩
  refine (shapeCast_1ab_ab_apply _ shapeCasts_S1x64x1024_S64x1024 a b).trans ?_
  exact extractStridedSlice_apply ![o, 0, 0] X h (ix3 (0 : Fin 1) a b) (ix3 l a b) (fun c => match c with
    | ⟨0, _⟩ => by show l.val = o + 0; omega
    | ⟨1, _⟩ => by show a.val = 0 + a.val; omega
    | ⟨2, _⟩ => by show b.val = 0 + b.val; omega)

/-- A `64 × 1024` matrix given a leading unit axis reads, at `(u, r, k)`, the matrix at `(r, k)`. -/
theorem lift_read (x : S64x1024.Idx → α) (u : Fin 1) (r : Fin 64) (k : Fin 1024) :
    broadcastInDim S1x64x1024 ![1, 2] bcast_S64x1024_S1x64x1024_1_2 x (ix3 u r k) = x (ix2 r k) :=
  broadcastInDim_apply _ bcast_S64x1024_S1x64x1024_1_2 x (ix3 u r k) (ix2 r k) (fun c => match c with
    | ⟨0, _⟩ => by show r.val = if (64 : Nat) = 1 then 0 else r.val; rw [if_neg (by decide)]
    | ⟨1, _⟩ => by show k.val = if (1024 : Nat) = 1 then 0 else k.val; rw [if_neg (by decide)])

/-- Two matrices, each given a leading unit axis, joined along it: plane `0` is the first, plane `1` the second. -/
theorem stack_read (a b : S64x1024.Idx → EReal) :
    concatenate S2x64x1024 0
        [⟨S1x64x1024, broadcastInDim S1x64x1024 ![1, 2] bcast_S64x1024_S1x64x1024_1_2 a⟩,
         ⟨S1x64x1024, broadcastInDim S1x64x1024 ![1, 2] bcast_S64x1024_S1x64x1024_1_2 b⟩]
        concatenates_S1x64x1024_S1x64x1024_S2x64x1024_d0
      = Cert.Spec.stack a b := by
  funext j
  obtain ⟨l, r, k, rfl⟩ : ∃ l r k, j = ix3 l r k := ⟨j 0, j 1, j 2, eq_ix3 j⟩
  by_cases hl : l.val = 0
  · refine (concatenate_pair_apply_left (0 : Fin S2x64x1024.rank) _ _ concatenates_S1x64x1024_S1x64x1024_S2x64x1024_d0
      (ix3 l r k) rfl (ix3 (0 : Fin 1) r k) (fun c => match c with
        | ⟨0, _⟩ => by show (0 : Nat) = l.val; omega
        | ⟨1, _⟩ => rfl
        | ⟨2, _⟩ => rfl)).trans ?_
    rw [lift_read]
    show a (ix2 r k) = if l.val = 0 then a (ix2 r k) else b (ix2 r k)
    rw [if_pos hl]
  · refine (concatenate_pair_apply_right (0 : Fin S2x64x1024.rank) _ _ concatenates_S1x64x1024_S1x64x1024_S2x64x1024_d0
      (ix3 l r k) rfl rfl (ix3 (0 : Fin 1) r k) (fun c => match c with
        | ⟨0, _⟩ => fun hc => absurd rfl hc
        | ⟨1, _⟩ => fun _ => rfl
        | ⟨2, _⟩ => fun _ => rfl) (by show (0 : Nat) + 1 = l.val; omega)).trans ?_
    rw [lift_read]
    show b (ix2 r k) = if l.val = 0 then a (ix2 r k) else b (ix2 r k)
    rw [if_neg hl]

end Reads

/-! ## The stretches' values as the specification's functions -/

/-- Two bias vectors added and reshaped to a row. -/
theorem bias_val (bi bh : S4096.Idx → EReal) :
    shapeCast S1x4096 (addf (F := Ideal) (φ := .f32) bi bh) shapeCasts_S4096_S1x4096 = Cert.Spec.bias bi bh := by
  rw [row_read]; rfl

/-- A layer of a two-layer state. -/
theorem layer_val (o : Nat) (X : S2x64x1024.Idx → EReal) (h : S2x64x1024.Slices ![o, 0, 0] S1x64x1024) (l : Fin 2) (hl : l.val = o) :
    shapeCast S64x1024 (extractStridedSlice S1x64x1024 ![o, 0, 0] X h) shapeCasts_S1x64x1024_S64x1024
      = Cert.Spec.layer l X := plane_read o X h l hl

/-- The new cell state from the four planes of the activated gates and the old cell state. -/
theorem cellC_val (G : S4x64x1024.Idx → EReal) (c : S64x1024.Idx → EReal) :
    addf (F := Ideal) (φ := .f32)
      (mulf (shapeCast S64x1024 (extractStridedSlice S1x64x1024 ![1, 0, 0] G slices_S4x64x1024_S1x64x1024_1_0_0) shapeCasts_S1x64x1024_S64x1024) c)
      (mulf (shapeCast S64x1024 (extractStridedSlice S1x64x1024 ![0, 0, 0] G slices_S4x64x1024_S1x64x1024_0_0_0) shapeCasts_S1x64x1024_S64x1024)
            (shapeCast S64x1024 (extractStridedSlice S1x64x1024 ![2, 0, 0] G slices_S4x64x1024_S1x64x1024_2_0_0) shapeCasts_S1x64x1024_S64x1024))
      = Cert.Spec.cellC G c := by
  rw [plane_read 1 G _ 1 rfl, plane_read 0 G _ 0 rfl, plane_read 2 G _ 2 rfl]
  rfl

/-- The new hidden state: the output gate's plane times the hyperbolic tangent of the new cell state. -/
theorem cellH_val (G : S4x64x1024.Idx → EReal) (c : S64x1024.Idx → EReal) :
    mulf (F := Ideal) (φ := .f32)
      (shapeCast S64x1024 (extractStridedSlice S1x64x1024 ![3, 0, 0] G slices_S4x64x1024_S1x64x1024_3_0_0) shapeCasts_S1x64x1024_S64x1024)
      (Host.tanh (F := Ideal) (φ := .f32) (Cert.Spec.cellC G c))
      = Cert.Spec.cellH G c := by
  rw [plane_read 3 G _ 3 rfl]
  rfl

/-- A vector as a one-row matrix. -/
theorem rowB_val (b : S32000.Idx → EReal) :
    shapeCast S1x32000 b shapeCasts_S32000_S1x32000 = Cert.Spec.rowB b := by
  rw [row_read]; rfl

variable (W : Valuation τ sig (Elt Ideal))

theorem s0_b0 : StableHlo.after hostOps0_2 W main_v9 = Cert.Spec.bias (W main_arg6) (W main_arg7) := by
  show StableHlo.after hostOps0_2 W (Proc.devRef .tc main_v9) = _
  after_results
  exact bias_val _ _

theorem s0_b1 : StableHlo.after hostOps0_2 W main_v11 = Cert.Spec.bias (W main_arg10) (W main_arg11) := by
  show StableHlo.after hostOps0_2 W (Proc.devRef .tc main_v11) = _
  after_results
  exact bias_val _ _

theorem s0_h : StableHlo.after hostOps0_2 W main_v13 = Cert.Spec.layer 0 (W main_arg1) := by
  show StableHlo.after hostOps0_2 W (Proc.devRef .tc main_v13) = _
  after_results
  exact layer_val 0 _ _ 0 rfl

theorem s1_c0 : StableHlo.after hostOps1 W main_v27 = Cert.Spec.cellC (W main_v14) (Cert.Spec.layer 0 (W main_arg2)) := by
  show StableHlo.after hostOps1 W (Proc.devRef .tc main_v27) = _
  after_results
  rw [← layer_val 0 (W main_arg2) slices_S2x64x1024_S1x64x1024_0_0_0 0 rfl]
  exact cellC_val _ _

theorem s1_h0 : StableHlo.after hostOps1 W main_v29 = Cert.Spec.cellH (W main_v14) (Cert.Spec.layer 0 (W main_arg2)) := by
  show StableHlo.after hostOps1 W (Proc.devRef .tc main_v29) = _
  after_results_simp
  rw [← layer_val 0 (W main_arg2) slices_S2x64x1024_S1x64x1024_0_0_0 0 rfl, ← cellH_val, ← cellC_val]
  rfl

theorem s1_hin : StableHlo.after hostOps1 W main_v31 = Cert.Spec.layer 1 (W main_arg1) := by
  show StableHlo.after hostOps1 W (Proc.devRef .tc main_v31) = _
  after_results
  exact layer_val 1 _ _ 1 rfl

theorem s2_c1 : StableHlo.after hostOps2 W main_v45 = Cert.Spec.cellC (W main_v32) (Cert.Spec.layer 1 (W main_arg2)) := by
  show StableHlo.after hostOps2 W (Proc.devRef .tc main_v45) = _
  after_results
  rw [← layer_val 1 (W main_arg2) slices_S2x64x1024_S1x64x1024_1_0_0 1 rfl]
  exact cellC_val _ _

theorem s2_h1 : StableHlo.after hostOps2 W main_v47 = Cert.Spec.cellH (W main_v32) (Cert.Spec.layer 1 (W main_arg2)) := by
  show StableHlo.after hostOps2 W (Proc.devRef .tc main_v47) = _
  after_results_simp
  rw [← layer_val 1 (W main_arg2) slices_S2x64x1024_S1x64x1024_1_0_0 1 rfl, ← cellH_val, ← cellC_val]
  rfl

theorem s2_hN : StableHlo.after hostOps2 W main_v50 = Cert.Spec.stack (W main_v29) (Cert.Spec.cellH (W main_v32) (Cert.Spec.layer 1 (W main_arg2))) := by
  show StableHlo.after hostOps2 W (Proc.devRef .tc main_v50) = _
  after_results_simp
  -- the two joined operands are read one at a time
  refine Eq.trans (congrArg₂ (fun a b => concatenate S2x64x1024 0 [⟨S1x64x1024, a⟩, ⟨S1x64x1024, b⟩] concatenates_S1x64x1024_S1x64x1024_S2x64x1024_d0)
    (?_ : _ = broadcastInDim S1x64x1024 ![1, 2] bcast_S64x1024_S1x64x1024_1_2 (W main_v29))
    (?_ : _ = broadcastInDim S1x64x1024 ![1, 2] bcast_S64x1024_S1x64x1024_1_2 (Cert.Spec.cellH (W main_v32) (Cert.Spec.layer 1 (W main_arg2)))))
    (stack_read _ _)
  · after_results_simp
  · after_results_simp
    rw [← layer_val 1 (W main_arg2) slices_S2x64x1024_S1x64x1024_1_0_0 1 rfl, ← cellH_val, ← cellC_val]
    rfl

theorem s2_cN : StableHlo.after hostOps2 W main_v53 = Cert.Spec.stack (W main_v27) (Cert.Spec.cellC (W main_v32) (Cert.Spec.layer 1 (W main_arg2))) := by
  show StableHlo.after hostOps2 W (Proc.devRef .tc main_v53) = _
  after_results_simp
  -- the two joined operands are read one at a time
  refine Eq.trans (congrArg₂ (fun a b => concatenate S2x64x1024 0 [⟨S1x64x1024, a⟩, ⟨S1x64x1024, b⟩] concatenates_S1x64x1024_S1x64x1024_S2x64x1024_d0)
    (?_ : _ = broadcastInDim S1x64x1024 ![1, 2] bcast_S64x1024_S1x64x1024_1_2 (W main_v27))
    (?_ : _ = broadcastInDim S1x64x1024 ![1, 2] bcast_S64x1024_S1x64x1024_1_2 (Cert.Spec.cellC (W main_v32) (Cert.Spec.layer 1 (W main_arg2)))))
    (stack_read _ _)
  · after_results_simp
  · after_results_simp
    rw [← layer_val 1 (W main_arg2) slices_S2x64x1024_S1x64x1024_1_0_0 1 rfl, ← cellC_val]
    rfl

theorem s2_fb : StableHlo.after hostOps2 W main_v54 = Cert.Spec.rowB (W main_arg13) := by
  show StableHlo.after hostOps2 W (Proc.devRef .tc main_v54) = _
  after_results
  exact rowB_val _

/-- The embedded inputs: the token ids clipped, resolved and gathered, which for non-negative ids are the specification's rows. -/
theorem s0_x (hidx : ∀ i, 0 ≤ (W main_arg0 i).toInt) :
    StableHlo.after hostOps0_2 (StableHlo.after hostOps0_1 (StableHlo.after hostOps0 W)) main_v7 = Cert.Spec.embed (W main_arg3) (W main_arg0) := by
  show StableHlo.after hostOps0_2 (StableHlo.after hostOps0_1 (StableHlo.after hostOps0 W)) (Proc.devRef .tc main_v7) = _
  after_results_simp
  -- the clip's typed buffers hold their values unchanged
  simp only [StableHlo.TRef.ofBuf, StableHlo.TRef.toBuf, cast_eq, id_eq]
  exact Cert.KernelIdeal.embed_eq (W main_arg3) (W main_arg0) hidx

end Cert.KernelIdeal.HostVal

end
-- ==== Proof.KI_Val.lean ====
import proofs.«405273_j36395552866595_3_alg».proof.Proof.KI_Run
import proofs.«405273_j36395552866595_3_alg».proof.Proof.KI_Host
import proofs.«405273_j36395552866595_3_alg».proof.Proof.Spec

set_option maxRecDepth 16384

noncomputable section

/-! The program's three results, read off the contents after the last region: stage by stage, the buffers the regions
    and the results read hold the specification's functions of the fourteen arguments. The embedded inputs feed the first
    layer's gates; their combination with the old cell state gives the first layer's new states; those feed the second
    layer's gates; the second layer's new hidden state feeds the projection. -/
namespace Cert.KernelIdeal.Val

open Cert.KernelIdeal Cert.KernelIdeal.Gen Cert.KernelIdeal.Run
open Idealize.ShloMosaic Idealize.ShloMosaic.TcCoe Idealize.SL.Sem

variable (m : (ℓ : Loc nD τ sig) → Buf (Elt Ideal) ℓ)

/-- The step's three results at the arguments core `c` was launched with. -/
abbrev lg (c : Dev nD) : Cert.Spec.A2 64 32000 := Cert.Spec.outLogits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
abbrev hN (c : Dev nD) : Cert.Spec.A3 2 64 1024 := Cert.Spec.outH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
abbrev cN (c : Dev nD) : Cert.Spec.A3 2 64 1024 := Cert.Spec.outC (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

/-! ## An argument's buffer is never written -/

theorem at3 (c : Dev nD) (a : Ref sig .tc) (h1 : a ∉ hostOps0_W) (h2 : a ∉ hostOps0_1_W) (h3 : a ∉ hostOps0_2_W) :
    V3 m c a = m ((c : Thread nD τ).loc a) :=
  (V3_of m c a h3).trans ((V2_of m c a h2).trans ((V1_of m c a h1).trans rfl))

theorem at2 (c : Dev nD) (a : Ref sig .tc) (h1 : a ∉ hostOps0_W) (h2 : a ∉ hostOps0_1_W) :
    V2 m c a = m ((c : Thread nD τ).loc a) :=
  (V2_of m c a h2).trans ((V1_of m c a h1).trans rfl)

theorem at4 (c : Dev nD) (a : Ref sig .tc) (h1 : a ∉ hostOps0_W) (h2 : a ∉ hostOps0_1_W) (h3 : a ∉ hostOps0_2_W)
    (h4 : a ∉ ([main_v14] : List (Ref sig .tc))) : V4 m (outs m) c a = m ((c : Thread nD τ).loc a) :=
  (V4_of m (outs m) c a h4).trans (at3 m c a h1 h2 h3)

theorem at5 (c : Dev nD) (a : Ref sig .tc) (h1 : a ∉ hostOps0_W) (h2 : a ∉ hostOps0_1_W) (h3 : a ∉ hostOps0_2_W)
    (h4 : a ∉ ([main_v14] : List (Ref sig .tc))) (h5 : a ∉ hostOps1_W) : V5 m (outs m) c a = m ((c : Thread nD τ).loc a) :=
  (V5_of m (outs m) c a h5).trans (at4 m c a h1 h2 h3 h4)

theorem at6 (c : Dev nD) (a : Ref sig .tc) (h1 : a ∉ hostOps0_W) (h2 : a ∉ hostOps0_1_W) (h3 : a ∉ hostOps0_2_W)
    (h4 : a ∉ ([main_v14] : List (Ref sig .tc))) (h5 : a ∉ hostOps1_W) (h6 : a ∉ ([main_v32] : List (Ref sig .tc))) :
    V6 m (outs m) c a = m ((c : Thread nD τ).loc a) :=
  (V6_of m (outs m) c a h6).trans (at5 m c a h1 h2 h3 h4 h5)

theorem at7 (c : Dev nD) (a : Ref sig .tc) (h1 : a ∉ hostOps0_W) (h2 : a ∉ hostOps0_1_W) (h3 : a ∉ hostOps0_2_W)
    (h4 : a ∉ ([main_v14] : List (Ref sig .tc))) (h5 : a ∉ hostOps1_W) (h6 : a ∉ ([main_v32] : List (Ref sig .tc)))
    (h7 : a ∉ hostOps2_W) : V7 m (outs m) c a = m ((c : Thread nD τ).loc a) :=
  (V7_of m (outs m) c a h7).trans (at6 m c a h1 h2 h3 h4 h5 h6)

section Stages

variable (hidx : ∀ (c : Dev nD) (i : S64.Idx), 0 ≤ (m ((c.tc : Thread nD τ).loc main_arg0) i).toInt)
variable (hG0 : ∀ (V : (c : Dev nD) → (b : Ref sig .tc) → Buf (Elt Ideal) ((c : Thread nD τ).loc b)) (c : Dev nD),
    (Gate0.dat (F := Ideal) V c).arrAt 5 cfg0.N = Cert.Spec.gates0 (V c main_v7) (V c main_v13) (V c main_arg4) (V c main_arg5) (V c main_v9))
variable (hG1 : ∀ (V : (c : Dev nD) → (b : Ref sig .tc) → Buf (Elt Ideal) ((c : Thread nD τ).loc b)) (c : Dev nD),
    (Gate1.dat (F := Ideal) V c).arrAt 5 cfg1.N = Cert.Spec.gates1 (V c main_v29) (V c main_v31) (V c main_arg8) (V c main_arg9) (V c main_v11))
variable (hFc : ∀ (V : (c : Dev nD) → (b : Ref sig .tc) → Buf (Elt Ideal) ((c : Thread nD τ).loc b)) (c : Dev nD),
    (Fc.dat (F := Ideal) V c).arrAt 3 cfg2.N = Cert.Spec.logits (V c main_v47) (V c main_arg12) (V c main_v54))

/-! ## The first layer -/

include hidx in
/-- The embedded inputs. -/
theorem x_eq (c : Dev nD) : V3 m c main_v7 = Cert.Spec.embed (m ((c.tc : Thread nD τ).loc main_arg3)) (m ((c.tc : Thread nD τ).loc main_arg0)) :=
  HostVal.s0_x (V0 m c) (hidx c)

theorem b0_eq (c : Dev nD) : V3 m c main_v9 = Cert.Spec.bias (m ((c.tc : Thread nD τ).loc main_arg6)) (m ((c.tc : Thread nD τ).loc main_arg7)) := by
  rw [show V3 m c main_v9 = StableHlo.after hostOps0_2 (V2 m c) main_v9 from rfl, HostVal.s0_b0, at2 m c main_arg6 (by decide) (by decide), at2 m c main_arg7 (by decide) (by decide)]

theorem b1_eq (c : Dev nD) : V3 m c main_v11 = Cert.Spec.bias (m ((c.tc : Thread nD τ).loc main_arg10)) (m ((c.tc : Thread nD τ).loc main_arg11)) := by
  rw [show V3 m c main_v11 = StableHlo.after hostOps0_2 (V2 m c) main_v11 from rfl, HostVal.s0_b1, at2 m c main_arg10 (by decide) (by decide), at2 m c main_arg11 (by decide) (by decide)]

theorem hin0_eq (c : Dev nD) : V3 m c main_v13 = Cert.Spec.layer 0 (m ((c.tc : Thread nD τ).loc main_arg1)) := by
  rw [show V3 m c main_v13 = StableHlo.after hostOps0_2 (V2 m c) main_v13 from rfl, HostVal.s0_h, at2 m c main_arg1 (by decide) (by decide)]

include hidx hG0 in
/-- The first layer's activated gates. -/
theorem G0_eq (c : Dev nD) : V4 m (outs m) c main_v14
    = Cert.Spec.G0 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [show V4 m (outs m) c main_v14 = E4 m c (Pipeline.arrRef spec0 5) from rfl, ← hF0 m c 5, hG0 (E3 m) c]
  unfold Cert.Spec.G0
  rw [show E3 m c main_v7 = V3 m c main_v7 from rfl, x_eq m hidx c, show E3 m c main_v13 = V3 m c main_v13 from rfl, hin0_eq m c,
    show E3 m c main_v9 = V3 m c main_v9 from rfl, b0_eq m c,
    show E3 m c main_arg4 = V3 m c main_arg4 from rfl, at3 m c main_arg4 (by decide) (by decide) (by decide),
    show E3 m c main_arg5 = V3 m c main_arg5 from rfl, at3 m c main_arg5 (by decide) (by decide) (by decide)]

include hidx hG0 in
/-- The first layer's new cell state. -/
theorem c0_eq (c : Dev nD) : V5 m (outs m) c main_v27 = Cert.Spec.c0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [show V5 m (outs m) c main_v27 = StableHlo.after hostOps1 (V4 m (outs m) c) main_v27 from rfl, HostVal.s1_c0,
    G0_eq m hidx hG0 c, at4 m c main_arg2 (by decide) (by decide) (by decide) (by decide)]
  rfl

include hidx hG0 in
/-- The first layer's new hidden state. -/
theorem h0_eq (c : Dev nD) : V5 m (outs m) c main_v29 = Cert.Spec.h0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [show V5 m (outs m) c main_v29 = StableHlo.after hostOps1 (V4 m (outs m) c) main_v29 from rfl, HostVal.s1_h0,
    G0_eq m hidx hG0 c, at4 m c main_arg2 (by decide) (by decide) (by decide) (by decide)]
  rfl

/-! ## The second layer -/

theorem hin1_eq (c : Dev nD) : V5 m (outs m) c main_v31 = Cert.Spec.layer 1 (m ((c.tc : Thread nD τ).loc main_arg1)) := by
  rw [show V5 m (outs m) c main_v31 = StableHlo.after hostOps1 (V4 m (outs m) c) main_v31 from rfl, HostVal.s1_hin,
    at4 m c main_arg1 (by decide) (by decide) (by decide) (by decide)]

theorem b1_at5 (c : Dev nD) : V5 m (outs m) c main_v11 = Cert.Spec.bias (m ((c.tc : Thread nD τ).loc main_arg10)) (m ((c.tc : Thread nD τ).loc main_arg11)) :=
  (V5_of m (outs m) c main_v11 (by decide)).trans ((V4_of m (outs m) c main_v11 (by decide)).trans (b1_eq m c))

include hidx hG0 hG1 in
/-- The second layer's activated gates. -/
theorem G1_eq (c : Dev nD) : V6 m (outs m) c main_v32 = Cert.Spec.G1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [show V6 m (outs m) c main_v32 = E6 m c (Pipeline.arrRef spec1 5) from rfl, ← hF1 m c 5, hG1 (E5 m) c]
  unfold Cert.Spec.G1
  rw [show E5 m c main_v29 = V5 m (outs m) c main_v29 from rfl, h0_eq m hidx hG0 c,
    show E5 m c main_v31 = V5 m (outs m) c main_v31 from rfl, hin1_eq m c,
    show E5 m c main_v11 = V5 m (outs m) c main_v11 from rfl, b1_at5 m c,
    show E5 m c main_arg8 = V5 m (outs m) c main_arg8 from rfl, at5 m c main_arg8 (by decide) (by decide) (by decide) (by decide) (by decide),
    show E5 m c main_arg9 = V5 m (outs m) c main_arg9 from rfl, at5 m c main_arg9 (by decide) (by decide) (by decide) (by decide) (by decide)]

include hidx hG0 hG1 in
theorem c1_eq (c : Dev nD) : V7 m (outs m) c main_v45 = Cert.Spec.c1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [show V7 m (outs m) c main_v45 = StableHlo.after hostOps2 (V6 m (outs m) c) main_v45 from rfl, HostVal.s2_c1,
    G1_eq m hidx hG0 hG1 c, at6 m c main_arg2 (by decide) (by decide) (by decide) (by decide) (by decide) (by decide)]
  rfl

include hidx hG0 hG1 in
theorem h1_eq (c : Dev nD) : V7 m (outs m) c main_v47 = Cert.Spec.h1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [show V7 m (outs m) c main_v47 = StableHlo.after hostOps2 (V6 m (outs m) c) main_v47 from rfl, HostVal.s2_h1,
    G1_eq m hidx hG0 hG1 c, at6 m c main_arg2 (by decide) (by decide) (by decide) (by decide) (by decide) (by decide)]
  rfl

/-! ## The results -/

include hidx hG0 hG1 in
/-- The two layers' new hidden states, stacked. -/
theorem hN_eq (c : Dev nD) : V7 m (outs m) c main_v50 = hN m c := by
  rw [show V7 m (outs m) c main_v50 = StableHlo.after hostOps2 (V6 m (outs m) c) main_v50 from rfl, HostVal.s2_hN,
    G1_eq m hidx hG0 hG1 c, at6 m c main_arg2 (by decide) (by decide) (by decide) (by decide) (by decide) (by decide),
    (V6_of m (outs m) c main_v29 (by decide)).trans (h0_eq m hidx hG0 c)]
  rfl

include hidx hG0 hG1 in
/-- The two layers' new cell states, stacked. -/
theorem cN_eq (c : Dev nD) : V7 m (outs m) c main_v53 = cN m c := by
  rw [show V7 m (outs m) c main_v53 = StableHlo.after hostOps2 (V6 m (outs m) c) main_v53 from rfl, HostVal.s2_cN,
    G1_eq m hidx hG0 hG1 c, at6 m c main_arg2 (by decide) (by decide) (by decide) (by decide) (by decide) (by decide),
    (V6_of m (outs m) c main_v27 (by decide)).trans (c0_eq m hidx hG0 c)]
  rfl

theorem fb_eq (c : Dev nD) : V7 m (outs m) c main_v54 = Cert.Spec.rowB (m ((c.tc : Thread nD τ).loc main_arg13)) := by
  rw [show V7 m (outs m) c main_v54 = StableHlo.after hostOps2 (V6 m (outs m) c) main_v54 from rfl, HostVal.s2_fb,
    at6 m c main_arg13 (by decide) (by decide) (by decide) (by decide) (by decide) (by decide)]

include hidx hG0 hG1 hFc in
/-- The logits. -/
theorem lg_eq (c : Dev nD) : V8 m (outs m) c main_v55 = lg m c := by
  rw [show V8 m (outs m) c main_v55 = E8 m c (Pipeline.arrRef spec2 3) from rfl, ← hF2 m c 3, hFc (E7 m) c]
  unfold lg Cert.Spec.outLogits
  rw [show E7 m c main_v47 = V7 m (outs m) c main_v47 from rfl, h1_eq m hidx hG0 hG1 c,
    show E7 m c main_v54 = V7 m (outs m) c main_v54 from rfl, fb_eq m c,
    show E7 m c main_arg12 = V7 m (outs m) c main_arg12 from rfl, at7 m c main_arg12 (by decide) (by decide) (by decide) (by decide) (by decide) (by decide) (by decide)]

include hidx hG0 hG1 hFc in
/-- THE KERNEL PROGRAM'S RUN WITH ITS RESULTS: every weakly fair execution terminates, nothing faulting; the three results
    are the specification's at the launch arguments, and the arguments end unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v55) = lg m c
      ∧ r.2.mem ((c.tc : Thread nD τ).loc main_v50) = hN m c
      ∧ r.2.mem ((c.tc : Thread nD τ).loc main_v53) = cN m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
    ⟨(h c _ (Finset.mem_filter.mpr ⟨StableHlo.devRef_mem_tcRefs main_v55, by decide⟩)).trans (lg_eq m hidx hG0 hG1 hFc c),
      (h c _ (Finset.mem_filter.mpr ⟨StableHlo.devRef_mem_tcRefs main_v50, by decide⟩)).trans ((V8_of m (outs m) c main_v50 (by decide)).trans (hN_eq m hidx hG0 hG1 c)),
      (h c _ (Finset.mem_filter.mpr ⟨StableHlo.devRef_mem_tcRefs main_v53, by decide⟩)).trans ((V8_of m (outs m) c main_v53 (by decide)).trans (cN_eq m hidx hG0 hG1 c)),
      (h c _ (Finset.mem_filter.mpr ⟨StableHlo.devRef_mem_tcRefs main_arg0, by decide⟩)).trans (V8_main_arg0 m (outs m) c),
      (h c _ (Finset.mem_filter.mpr ⟨StableHlo.devRef_mem_tcRefs main_arg1, by decide⟩)).trans (V8_main_arg1 m (outs m) c),
      (h c _ (Finset.mem_filter.mpr ⟨StableHlo.devRef_mem_tcRefs main_arg2, by decide⟩)).trans (V8_main_arg2 m (outs m) c),
      (h c _ (Finset.mem_filter.mpr ⟨StableHlo.devRef_mem_tcRefs main_arg3, by decide⟩)).trans (V8_main_arg3 m (outs m) c),
      (h c _ (Finset.mem_filter.mpr ⟨StableHlo.devRef_mem_tcRefs main_arg4, by decide⟩)).trans (V8_main_arg4 m (outs m) c),
      (h c _ (Finset.mem_filter.mpr ⟨StableHlo.devRef_mem_tcRefs main_arg5, by decide⟩)).trans (V8_main_arg5 m (outs m) c),
      (h c _ (Finset.mem_filter.mpr ⟨StableHlo.devRef_mem_tcRefs main_arg6, by decide⟩)).trans (V8_main_arg6 m (outs m) c),
      (h c _ (Finset.mem_filter.mpr ⟨StableHlo.devRef_mem_tcRefs main_arg7, by decide⟩)).trans (V8_main_arg7 m (outs m) c),
      (h c _ (Finset.mem_filter.mpr ⟨StableHlo.devRef_mem_tcRefs main_arg8, by decide⟩)).trans (V8_main_arg8 m (outs m) c),
      (h c _ (Finset.mem_filter.mpr ⟨StableHlo.devRef_mem_tcRefs main_arg9, by decide⟩)).trans (V8_main_arg9 m (outs m) c),
      (h c _ (Finset.mem_filter.mpr ⟨StableHlo.devRef_mem_tcRefs main_arg10, by decide⟩)).trans (V8_main_arg10 m (outs m) c),
      (h c _ (Finset.mem_filter.mpr ⟨StableHlo.devRef_mem_tcRefs main_arg11, by decide⟩)).trans (V8_main_arg11 m (outs m) c),
      (h c _ (Finset.mem_filter.mpr ⟨StableHlo.devRef_mem_tcRefs main_arg12, by decide⟩)).trans (V8_main_arg12 m (outs m) c),
      (h c _ (Finset.mem_filter.mpr ⟨StableHlo.devRef_mem_tcRefs main_arg13, by decide⟩)).trans (V8_main_arg13 m (outs m) c)⟩) (Run.run m ρ)

end Stages

end Cert.KernelIdeal.Val

end
-- ==== Proof.KI_ValGate0.lean ====
import proofs.«405273_j36395552866595_3_alg».proof.Proof.KI_Gate0
import proofs.«405273_j36395552866595_3_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

/-! Region 0: the first LSTM layer's stacked gates as one function of the arrays the region finds.

    Grid point `g` holds the layer's input `x` and the previous hidden state `h` whole, rows `1024 g … 1024 g + 1023` of
    each weight matrix and columns `1024 g … 1024 g + 1023` of the summed bias, and writes plane `g` of the output. Over
    the extended reals the two products into a zero accumulator are plain sums over the contracted axis, the narrowing
    of their operands is the identity, and the activation acts entry by entry; so entry `(g, r, n)` of the output is
    `act_g ((∑ₖ x[r,k] · W_ih[1024 g + n, k] + ∑ₖ h[r,k] · W_hh[1024 g + n, k]) + b[0, 1024 g + n])`, the specification's
    `gate0At`. First the body's stored value is read at an index of its block, then each block is read as the part of
    its array the index maps name, and last the four planes written back are seen to fill the output array. -/
namespace Cert.KernelIdeal.Gate0

open Idealize.ShloMosaic Idealize.ShloMosaic.TcCoe Idealize.SL.Sem Idealize.ShloMosaic.ValueIdx
open Idealize.ShloMosaic.Pipeline (Dat)
open Cert.KernelIdeal Cert.KernelIdeal.Gen

/-- Zero offsets on two axes, and on three, as constant functions. -/
theorem offs2_zero : (![0, 0] : Fin 2 → Nat) = fun _ => 0 := funext fun a => by fin_cases a <;> rfl
theorem offs3_zero : (![0, 0, 0] : Fin 3 → Nat) = fun _ => 0 := funext fun a => by fin_cases a <;> rfl

/-! ## The two contractions

Both products contract axis 1 of the left operand with axis 1 of the right one: `x · Wᵀ`. At output index `(r, n)` and
contraction position `k` the left operand is read at `(r, k)` and the right one at `(n, k)`. -/

/-- The input product's left operand index: row from the output's row, -/
theorem dotX_lhs_0 (i : S64x1024.Idx) (q : dot_S64x512_S1024x512_S64x1024_1_1_0_0_n_n.contr.Idx) :
    (dot_S64x512_S1024x512_S64x1024_1_1_0_0_n_n.lhsIdx i q 0).val = (i 0).val := by
  unfold DotDims.lhsIdx
  rw [dif_neg (show ¬(0 : Fin S64x512.rank) ∈ dot_S64x512_S1024x512_S64x1024_1_1_0_0_n_n.lhsBatch by decide), dif_pos (show (0 : Fin S64x512.rank) ∈ dot_S64x512_S1024x512_S64x1024_1_1_0_0_n_n.lhsNonContracting by decide)]
  rfl
/-- column from the contraction position; -/
theorem dotX_lhs_1 (i : S64x1024.Idx) (q : dot_S64x512_S1024x512_S64x1024_1_1_0_0_n_n.contr.Idx) :
    (dot_S64x512_S1024x512_S64x1024_1_1_0_0_n_n.lhsIdx i q 1).val = (q ⟨0, by decide⟩).val :=
  dot_S64x512_S1024x512_S64x1024_1_1_0_0_n_n.lhsIdx_val_of_single rfl i q
/-- its right operand index: row from the output's column, -/
theorem dotX_rhs_0 (i : S64x1024.Idx) (q : dot_S64x512_S1024x512_S64x1024_1_1_0_0_n_n.contr.Idx) :
    (dot_S64x512_S1024x512_S64x1024_1_1_0_0_n_n.rhsIdx i q 0).val = (i 1).val := by
  unfold DotDims.rhsIdx
  rw [dif_neg (show ¬(0 : Fin S1024x512.rank) ∈ dot_S64x512_S1024x512_S64x1024_1_1_0_0_n_n.rhsBatch by decide), dif_pos (show (0 : Fin S1024x512.rank) ∈ dot_S64x512_S1024x512_S64x1024_1_1_0_0_n_n.rhsNonContracting by decide)]
  rfl
/-- column from the contraction position. -/
theorem dotX_rhs_1 (i : S64x1024.Idx) (q : dot_S64x512_S1024x512_S64x1024_1_1_0_0_n_n.contr.Idx) :
    (dot_S64x512_S1024x512_S64x1024_1_1_0_0_n_n.rhsIdx i q 1).val = (q ⟨0, by decide⟩).val :=
  dot_S64x512_S1024x512_S64x1024_1_1_0_0_n_n.rhsIdx_val_of_single rfl i q

/-- The input product into the zero accumulator, at `(r, n)`: `∑ₖ x[r,k] · w[n,k]`. -/
theorem matmulX_apply (x : FVec Ideal S64x512 .bf16) (w : FVec Ideal S1024x512 .bf16) (r : Fin 64) (n : Fin 1024) :
    matmul dot_S64x512_S1024x512_S64x1024_1_1_0_0_n_n none x w (constant (F := Ideal) S64x1024 .f32 0x00000000#32) (ix2 r n)
      = ∑ k : Fin 512, x (ix2 r k) * w (ix2 n k) := by
  simp only [matmul]
  rw [Ideal.matmul_constant_zero_apply, ← Equiv.sum_comp (contrEquiv1 dot_S64x512_S1024x512_S64x1024_1_1_0_0_n_n 512 rfl rfl).symm]
  refine Finset.sum_congr rfl fun k _ => ?_
  have hk := contrEquiv1_symm_val dot_S64x512_S1024x512_S64x1024_1_1_0_0_n_n 512 rfl rfl k
  have el : dot_S64x512_S1024x512_S64x1024_1_1_0_0_n_n.lhsIdx (ix2 r n) ((contrEquiv1 dot_S64x512_S1024x512_S64x1024_1_1_0_0_n_n 512 rfl rfl).symm k) = ix2 r k := funext fun a => Fin.ext (by
    match a with
    | ⟨0, _⟩ => exact dotX_lhs_0 _ _
    | ⟨1, _⟩ => exact (dotX_lhs_1 _ _).trans hk)
  have er : dot_S64x512_S1024x512_S64x1024_1_1_0_0_n_n.rhsIdx (ix2 r n) ((contrEquiv1 dot_S64x512_S1024x512_S64x1024_1_1_0_0_n_n 512 rfl rfl).symm k) = ix2 n k := funext fun a => Fin.ext (by
    match a with
    | ⟨0, _⟩ => exact dotX_rhs_0 _ _
    | ⟨1, _⟩ => exact (dotX_rhs_1 _ _).trans hk)
  rw [el, er]

/-- The recurrent product's left operand index: row from the output's row, -/
theorem dotH_lhs_0 (i : S64x1024.Idx) (q : dot_S64x1024_S1024x1024_S64x1024_1_1_0_0_n_n.contr.Idx) :
    (dot_S64x1024_S1024x1024_S64x1024_1_1_0_0_n_n.lhsIdx i q 0).val = (i 0).val := by
  unfold DotDims.lhsIdx
  rw [dif_neg (show ¬(0 : Fin S64x1024.rank) ∈ dot_S64x1024_S1024x1024_S64x1024_1_1_0_0_n_n.lhsBatch by decide), dif_pos (show (0 : Fin S64x1024.rank) ∈ dot_S64x1024_S1024x1024_S64x1024_1_1_0_0_n_n.lhsNonContracting by decide)]
  rfl
/-- column from the contraction position; -/
theorem dotH_lhs_1 (i : S64x1024.Idx) (q : dot_S64x1024_S1024x1024_S64x1024_1_1_0_0_n_n.contr.Idx) :
    (dot_S64x1024_S1024x1024_S64x1024_1_1_0_0_n_n.lhsIdx i q 1).val = (q ⟨0, by decide⟩).val :=
  dot_S64x1024_S1024x1024_S64x1024_1_1_0_0_n_n.lhsIdx_val_of_single rfl i q
/-- its right operand index: row from the output's column, -/
theorem dotH_rhs_0 (i : S64x1024.Idx) (q : dot_S64x1024_S1024x1024_S64x1024_1_1_0_0_n_n.contr.Idx) :
    (dot_S64x1024_S1024x1024_S64x1024_1_1_0_0_n_n.rhsIdx i q 0).val = (i 1).val := by
  unfold DotDims.rhsIdx
  rw [dif_neg (show ¬(0 : Fin S1024x1024.rank) ∈ dot_S64x1024_S1024x1024_S64x1024_1_1_0_0_n_n.rhsBatch by decide), dif_pos (show (0 : Fin S1024x1024.rank) ∈ dot_S64x1024_S1024x1024_S64x1024_1_1_0_0_n_n.rhsNonContracting by decide)]
  rfl
/-- column from the contraction position. -/
theorem dotH_rhs_1 (i : S64x1024.Idx) (q : dot_S64x1024_S1024x1024_S64x1024_1_1_0_0_n_n.contr.Idx) :
    (dot_S64x1024_S1024x1024_S64x1024_1_1_0_0_n_n.rhsIdx i q 1).val = (q ⟨0, by decide⟩).val :=
  dot_S64x1024_S1024x1024_S64x1024_1_1_0_0_n_n.rhsIdx_val_of_single rfl i q

/-- The recurrent product into the zero accumulator, at `(r, n)`: `∑ₖ h[r,k] · w[n,k]`. -/
theorem matmulH_apply (x : FVec Ideal S64x1024 .bf16) (w : FVec Ideal S1024x1024 .bf16) (r : Fin 64) (n : Fin 1024) :
    matmul dot_S64x1024_S1024x1024_S64x1024_1_1_0_0_n_n none x w (constant (F := Ideal) S64x1024 .f32 0x00000000#32) (ix2 r n)
      = ∑ k : Fin 1024, x (ix2 r k) * w (ix2 n k) := by
  simp only [matmul]
  rw [Ideal.matmul_constant_zero_apply, ← Equiv.sum_comp (contrEquiv1 dot_S64x1024_S1024x1024_S64x1024_1_1_0_0_n_n 1024 rfl rfl).symm]
  refine Finset.sum_congr rfl fun k _ => ?_
  have hk := contrEquiv1_symm_val dot_S64x1024_S1024x1024_S64x1024_1_1_0_0_n_n 1024 rfl rfl k
  have el : dot_S64x1024_S1024x1024_S64x1024_1_1_0_0_n_n.lhsIdx (ix2 r n) ((contrEquiv1 dot_S64x1024_S1024x1024_S64x1024_1_1_0_0_n_n 1024 rfl rfl).symm k) = ix2 r k := funext fun a => Fin.ext (by
    match a with
    | ⟨0, _⟩ => exact dotH_lhs_0 _ _
    | ⟨1, _⟩ => exact (dotH_lhs_1 _ _).trans hk)
  have er : dot_S64x1024_S1024x1024_S64x1024_1_1_0_0_n_n.rhsIdx (ix2 r n) ((contrEquiv1 dot_S64x1024_S1024x1024_S64x1024_1_1_0_0_n_n 1024 rfl rfl).symm k) = ix2 n k := funext fun a => Fin.ext (by
    match a with
    | ⟨0, _⟩ => exact dotH_rhs_0 _ _
    | ⟨1, _⟩ => exact (dotH_rhs_1 _ _).trans hk)
  rw [el, er]

/-! ## The body's value at an index -/

/-- The pre-activation at `(r, n)`: the two sums added, plus the bias row's entry `n` (the one row laid along all 64). -/
theorem preact_apply (x : Vec Ideal S64x512 .f32) (h : Vec Ideal S64x1024 .f32) (wx : Vec Ideal S1024x512 .f32) (wh : Vec Ideal S1024x1024 .f32)
    (b : Vec Ideal S1x1024 .f32) (r : Fin 64) (n : Fin 1024) :
    k0_pay1 (F := Ideal) x h wx wh b (ix2 r n)
      = ((∑ k : Fin 512, x (ix2 r k) * wx (ix2 n k)) + (∑ k : Fin 1024, h (ix2 r k) * wh (ix2 n k))) + b (ix2 (0 : Fin 1) n) := by
  unfold k0_pay1
  simp only [addf_apply, matmulX_apply, matmulH_apply, truncf_apply, shapeCast_self, broadcastTo_1b_ab_apply]

/-- What the cell-candidate branch stores, at `(0, r, n)`: the hyperbolic tangent of the pre-activation at `(r, n)`. -/
theorem tanh_store_apply (x : Vec Ideal S64x512 .f32) (h : Vec Ideal S64x1024 .f32) (wx : Vec Ideal S1024x512 .f32) (wh : Vec Ideal S1024x1024 .f32)
    (b : Vec Ideal S1x1024 .f32) (u : Fin 1) (r : Fin 64) (n : Fin 1024) :
    k0_pay2 (F := Ideal) x h wx wh b (ix3 u r n) = Ideal.tanh (k0_pay1 (F := Ideal) x h wx wh b (ix2 r n)) := by
  unfold k0_pay2
  exact shapeCast_ab_1ab_apply _ _ u r n

/-- What the other branch stores there: the logistic function of it. -/
theorem logistic_store_apply (x : Vec Ideal S64x512 .f32) (h : Vec Ideal S64x1024 .f32) (wx : Vec Ideal S1024x512 .f32) (wh : Vec Ideal S1024x1024 .f32)
    (b : Vec Ideal S1x1024 .f32) (u : Fin 1) (r : Fin 64) (n : Fin 1024) :
    k0_pay3 (F := Ideal) x h wx wh b (ix3 u r n) = Ideal.logistic (k0_pay1 (F := Ideal) x h wx wh b (ix2 r n)) := by
  unfold k0_pay3
  exact shapeCast_ab_1ab_apply _ _ u r n

/-- THE STORED GATE AT AN INDEX. At coordinates `i` whose branch test says "gate `g` is the cell candidate", from blocks
    that are: `x` and `h` the whole arrays `X`, `H`; `wx`, `wh` rows `1024 g + ·` of `WX`, `WH`; `b` columns
    `1024 g + ·` of `B` — the stored value at `(0, r, n)` is the specification's entry `(g, r, n)`. -/
theorem gatePay_apply (i : grid0.Coords) (g : Fin 4) (hg : k0_cond1 i = 1#1 ↔ g.val = 2)
    (x : Vec Ideal S64x512 .f32) (h : Vec Ideal S64x1024 .f32) (wx : Vec Ideal S1024x512 .f32) (wh : Vec Ideal S1024x1024 .f32) (b : Vec Ideal S1x1024 .f32)
    (X : Cert.Spec.A2 64 512) (H : Cert.Spec.A2 64 1024) (WX : Cert.Spec.A2 4096 512) (WH : Cert.Spec.A2 4096 1024) (B : Cert.Spec.A2 1 4096)
    (hx : ∀ (r : Fin 64) (k : Fin 512), x (ix2 r k) = X (ix2 r k))
    (hh : ∀ (r : Fin 64) (k : Fin 1024), h (ix2 r k) = H (ix2 r k))
    (hwx : ∀ (n : Fin 1024) (k : Fin 512), wx (ix2 n k) = WX (ix2 (Cert.Spec.row g n) k))
    (hwh : ∀ (n : Fin 1024) (k : Fin 1024), wh (ix2 n k) = WH (ix2 (Cert.Spec.row g n) k))
    (hb : ∀ n : Fin 1024, b (ix2 (0 : Fin 1) n) = B (ix2 (0 : Fin 1) (Cert.Spec.row g n)))
    (y : S1x64x1024.Idx) :
    gatePay i x h wx wh b y = Cert.Spec.gate0At X H WX WH B g (y 1) (y 2) := by
  obtain ⟨u, r, n, rfl⟩ : ∃ (u : Fin 1) (r : Fin 64) (n : Fin 1024), y = ix3 u r n := ⟨y 0, y 1, y 2, eq_ix3 y⟩
  show gatePay i x h wx wh b (ix3 u r n) = Cert.Spec.gate0At X H WX WH B g r n
  unfold gatePay Cert.Spec.gate0At Cert.Spec.act
  simp only [View.ld_unit_zero (S := S64x512) offs2_zero, View.ld_unit_zero (S := S64x1024) offs2_zero, View.ld_unit_zero (S := S1024x512) offs2_zero,
    View.ld_unit_zero (S := S1024x1024) offs2_zero, View.ld_unit_zero (S := S1x1024) offs2_zero]
  by_cases hc : k0_cond1 i = 1#1
  · rw [if_pos hc, if_pos (hg.mp hc), tanh_store_apply, preact_apply]
    simp only [hx, hh, hwx, hwh, hb]
  · rw [if_neg hc, if_neg (fun e => hc (hg.mpr e)), logistic_store_apply, preact_apply]
    simp only [hx, hh, hwx, hwh, hb]

/-! ## The index maps over the grid -/

/-- At point `t`: the input and the hidden state stay at block (0, 0); the weight slabs are block row `t`; the bias is
    block column `t`; the output is plane `t`; and the branch test holds exactly at `t = 2`. Decided over the four points. -/
theorem index_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val
    ∧ win0_5.index t (0 : Fin 3) = t.val ∧ win0_5.index t (1 : Fin 3) = 0 ∧ win0_5.index t (2 : Fin 3) = 0
    ∧ (k0_cond1 (grid0.coords t) = 1#1 ↔ t.val = 2) :=
  (by decide +kernel : ∀ t : Fin grid0.N, _)

/-- The gate a grid point computes: its number. -/
abbrev gateOf (t : Fin cfg0.N) : Fin 4 := t.cast N_0

variable (V : (c : Dev nD) → (b : Ref sig .tc) → Buf (Elt Ideal) ((c : Thread nD τ).loc b))

/-! ## Each block as a part of its array

A block's element at `y` sits in the array, on each axis, at block index × block size + 1 × `y`'s coordinate. -/

/-- The input's block is the input. -/
theorem xBlock_apply (c : Dev nD) (t : Fin cfg0.N) (r : Fin 64) (k : Fin 512) :
    iblk V c 0 t (ix2 r k) = V c main_v7 (ix2 r k) := by
  obtain ⟨e0, e1, -⟩ := index_facts t
  unfold iblk
  rw [View.read_apply]
  show V c main_v7 (((cfg0.win 0).blk t).view.emb (ix2 r k)) = V c main_v7 (ix2 r k)
  refine congrArg _ (funext fun a => Fin.ext ?_)
  match a with
  | ⟨0, _⟩ => show win0_0.index t (0 : Fin 2) * 64 + 1 * r.val = r.val; omega
  | ⟨1, _⟩ => show win0_0.index t (1 : Fin 2) * 512 + 1 * k.val = k.val; omega

/-- The hidden state's block is the hidden state. -/
theorem hBlock_apply (c : Dev nD) (t : Fin cfg0.N) (r : Fin 64) (k : Fin 1024) :
    iblk V c 1 t (ix2 r k) = V c main_v13 (ix2 r k) := by
  obtain ⟨-, -, e0, e1, -⟩ := index_facts t
  unfold iblk
  rw [View.read_apply]
  show V c main_v13 (((cfg0.win 1).blk t).view.emb (ix2 r k)) = V c main_v13 (ix2 r k)
  refine congrArg _ (funext fun a => Fin.ext ?_)
  match a with
  | ⟨0, _⟩ => show win0_1.index t (0 : Fin 2) * 64 + 1 * r.val = r.val; omega
  | ⟨1, _⟩ => show win0_1.index t (1 : Fin 2) * 1024 + 1 * k.val = k.val; omega

/-- The input weights' block at point `t` is rows `1024 t + ·` of the matrix. -/
theorem wxBlock_apply (c : Dev nD) (t : Fin cfg0.N) (n : Fin 1024) (k : Fin 512) :
    iblk V c 2 t (ix2 n k) = V c main_arg4 (ix2 (Cert.Spec.row (gateOf t) n) k) := by
  obtain ⟨-, -, -, -, e0, e1, -⟩ := index_facts t
  unfold iblk
  rw [View.read_apply]
  show V c main_arg4 (((cfg0.win 2).blk t).view.emb (ix2 n k)) = V c main_arg4 (ix2 (Cert.Spec.row (gateOf t) n) k)
  refine congrArg _ (funext fun a => Fin.ext ?_)
  match a with
  | ⟨0, _⟩ => show win0_2.index t (0 : Fin 2) * 1024 + 1 * n.val = 1024 * t.val + n.val; omega
  | ⟨1, _⟩ => show win0_2.index t (1 : Fin 2) * 512 + 1 * k.val = k.val; omega

/-- The recurrent weights' block at point `t` is rows `1024 t + ·` of the matrix. -/
theorem whBlock_apply (c : Dev nD) (t : Fin cfg0.N) (n : Fin 1024) (k : Fin 1024) :
    iblk V c 3 t (ix2 n k) = V c main_arg5 (ix2 (Cert.Spec.row (gateOf t) n) k) := by
  obtain ⟨-, -, -, -, -, -, e0, e1, -⟩ := index_facts t
  unfold iblk
  rw [View.read_apply]
  show V c main_arg5 (((cfg0.win 3).blk t).view.emb (ix2 n k)) = V c main_arg5 (ix2 (Cert.Spec.row (gateOf t) n) k)
  refine congrArg _ (funext fun a => Fin.ext ?_)
  match a with
  | ⟨0, _⟩ => show win0_3.index t (0 : Fin 2) * 1024 + 1 * n.val = 1024 * t.val + n.val; omega
  | ⟨1, _⟩ => show win0_3.index t (1 : Fin 2) * 1024 + 1 * k.val = k.val; omega

/-- The bias's block at point `t` is columns `1024 t + ·` of the row. -/
theorem bBlock_apply (c : Dev nD) (t : Fin cfg0.N) (n : Fin 1024) :
    iblk V c 4 t (ix2 (0 : Fin 1) n) = V c main_v9 (ix2 (0 : Fin 1) (Cert.Spec.row (gateOf t) n)) := by
  obtain ⟨-, -, -, -, -, -, -, -, e0, e1, -⟩ := index_facts t
  unfold iblk
  rw [View.read_apply]
  show V c main_v9 (((cfg0.win 4).blk t).view.emb (ix2 (0 : Fin 1) n)) = V c main_v9 (ix2 (0 : Fin 1) (Cert.Spec.row (gateOf t) n))
  refine congrArg _ (funext fun a => Fin.ext ?_)
  match a with
  | ⟨0, _⟩ => show win0_4.index t (0 : Fin 2) * 1 + 1 * 0 = 0; omega
  | ⟨1, _⟩ => show win0_4.index t (1 : Fin 2) * 1024 + 1 * n.val = 1024 * t.val + n.val; omega

/-! ## What a point writes back -/

/-- Point `t` writes back plane `t` of the specification's stacked gates of the five arrays. -/
theorem flushed_eq (c : Dev nD) (t : Fin cfg0.N) :
    (dat V c).flushed 5 t = ((cfg0.win 5).blk t).view.read (Elt Ideal)
      (Cert.Spec.gates0 (V c main_v7) (V c main_v13) (V c main_arg4) (V c main_arg5) (V c main_v9)) := by
  show (cfg0.win 5).cut (grid0.coords t) ((dat V c).after 5 t) = _
  rw [after_5]
  unfold gateOut
  rw [View.canon_unit_zero offs3_zero]
  obtain ⟨-, -, -, -, -, -, -, -, -, -, e0, e1, e2, ec⟩ := index_facts t
  funext y
  show gatePay (grid0.coords t) (iblk V c 0 t) (iblk V c 1 t) (iblk V c 2 t) (iblk V c 3 t) (iblk V c 4 t) y
    = Cert.Spec.gates0 (V c main_v7) (V c main_v13) (V c main_arg4) (V c main_arg5) (V c main_v9) (((cfg0.win 5).blk t).view.emb y)
  refine (gatePay_apply (grid0.coords t) (gateOf t) ec (iblk V c 0 t) (iblk V c 1 t) (iblk V c 2 t) (iblk V c 3 t) (iblk V c 4 t)
    (V c main_v7) (V c main_v13) (V c main_arg4) (V c main_arg5) (V c main_v9)
    (xBlock_apply V c t) (hBlock_apply V c t) (wxBlock_apply V c t) (whBlock_apply V c t) (bBlock_apply V c t) y).trans ?_
  unfold Cert.Spec.gates0
  have h0 : gateOf t = ((cfg0.win 5).blk t).view.emb y 0 := Fin.ext (by
    show t.val = win0_5.index t (0 : Fin 3) * 1 + 1 * (y 0).val
    have hy : (y 0).val < 1 := (y 0).isLt
    omega)
  have h1 : y 1 = ((cfg0.win 5).blk t).view.emb y 1 := Fin.ext (by
    show (y 1).val = win0_5.index t (1 : Fin 3) * 64 + 1 * (y 1).val
    omega)
  have h2 : y 2 = ((cfg0.win 5).blk t).view.emb y 2 := Fin.ext (by
    show (y 2).val = win0_5.index t (2 : Fin 3) * 1024 + 1 * (y 2).val
    omega)
  rw [← h0, ← h1, ← h2]

/-! ## From the planes to the array -/

/-- An index of the output array is in point `t`'s block iff each coordinate is in the block's range on its axis. -/
theorem mem_outBlock (t : Fin cfg0.N) (i : S4x64x1024.Idx) :
    i ∈ ((cfg0.win 5).blk t).view.set ↔ ∀ a : Fin 3, win0_5.index t a * S1x64x1024.size a ≤ (i a).val ∧ (i a).val < win0_5.index t a * S1x64x1024.size a + S1x64x1024.size a := by
  show i ∈ ((View.whole main_v14).slice (win0_5.rect t)).set ↔ _
  rw [View.set_slice_whole, Rect.mem_set_unit]
  exact Iff.rfl

/-- Every index `(g, r, n)` of the output array is in the block of point `g`, which writes it back. -/
theorem out_covered (i : S4x64x1024.Idx) : ∃ t : Fin cfg0.N, (cfg0.win 5).flush t = true ∧ i ∈ ((cfg0.win 5).blk t).view.set := by
  have hi0 : (i 0).val < 4 := (i 0).isLt
  have hi1 : (i 1).val < 64 := (i 1).isLt
  have hi2 : (i 2).val < 1024 := (i 2).isLt
  obtain ⟨t, ht⟩ : ∃ t : Fin cfg0.N, t.val = (i 0).val := ⟨⟨(i 0).val, by rw [show cfg0.N = 4 from N_0]; exact hi0⟩, rfl⟩
  obtain ⟨-, -, -, -, -, -, -, -, -, -, e0, e1, e2, -⟩ := index_facts t
  refine ⟨t, flush0_5 t, ?_⟩
  rw [mem_outBlock]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 64 ≤ (i 1).val ∧ (i 1).val < win0_5.index t (1 : Fin 3) * 64 + 64; omega
  | ⟨2, _⟩ => show win0_5.index t (2 : Fin 3) * 1024 ≤ (i 2).val ∧ (i 2).val < win0_5.index t (2 : Fin 3) * 1024 + 1024; omega

/-- THE OUTPUT ARRAY after the four points: the specification's stacked gates of the arrays the region found. -/
theorem final (c : Dev nD) :
    (dat (F := Ideal) V c).arrAt 5 cfg0.N
      = Cert.Spec.gates0 (V c main_v7) (V c main_v13) (V c main_arg4) (V c main_arg5) (V c main_v9) :=
  (dat V c).arrAt_eq_of_cover 5 (Cert.Spec.gates0 (V c main_v7) (V c main_v13) (V c main_arg4) (V c main_arg5) (V c main_v9))
    (fun t _ => flushed_eq V c t) out_covered

end Cert.KernelIdeal.Gate0

end
-- ==== Proof.KI_ValGate1.lean ====
import proofs.«405273_j36395552866595_3_alg».proof.Proof.KI_Gate1
import proofs.«405273_j36395552866595_3_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

/-! Region 1: the second LSTM layer's stacked gates as one function of the arrays the region finds.

    Grid point `g` holds the layer's input `x` and the previous hidden state `h` whole, rows `1024 g … 1024 g + 1023` of
    each weight matrix and columns `1024 g … 1024 g + 1023` of the summed bias, and writes plane `g` of the output. Over
    the extended reals the two products into a zero accumulator are plain sums over the contracted axis, the narrowing
    of their operands is the identity, and the activation acts entry by entry; so entry `(g, r, n)` of the output is
    `act_g ((∑ₖ x[r,k] · W_ih[1024 g + n, k] + ∑ₖ h[r,k] · W_hh[1024 g + n, k]) + b[0, 1024 g + n])`, the specification's
    `gate1At`. First the body's stored value is read at an index of its block, then each block is read as the part of
    its array the index maps name, and last the four planes written back are seen to fill the output array. -/
namespace Cert.KernelIdeal.Gate1

open Idealize.ShloMosaic Idealize.ShloMosaic.TcCoe Idealize.SL.Sem Idealize.ShloMosaic.ValueIdx
open Idealize.ShloMosaic.Pipeline (Dat)
open Cert.KernelIdeal Cert.KernelIdeal.Gen

/-- Zero offsets on two axes, and on three, as constant functions. -/
theorem offs2_zero : (![0, 0] : Fin 2 → Nat) = fun _ => 0 := funext fun a => by fin_cases a <;> rfl
theorem offs3_zero : (![0, 0, 0] : Fin 3 → Nat) = fun _ => 0 := funext fun a => by fin_cases a <;> rfl

/-! ## The two contractions

Both products contract axis 1 of the left operand with axis 1 of the right one: `x · Wᵀ`. At output index `(r, n)` and
contraction position `k` the left operand is read at `(r, k)` and the right one at `(n, k)`. -/

/-- The input product's left operand index: row from the output's row, -/
theorem dotX_lhs_0 (i : S64x1024.Idx) (q : dot_S64x1024_S1024x1024_S64x1024_1_1_0_0_n_n.contr.Idx) :
    (dot_S64x1024_S1024x1024_S64x1024_1_1_0_0_n_n.lhsIdx i q 0).val = (i 0).val := by
  unfold DotDims.lhsIdx
  rw [dif_neg (show ¬(0 : Fin S64x1024.rank) ∈ dot_S64x1024_S1024x1024_S64x1024_1_1_0_0_n_n.lhsBatch by decide), dif_pos (show (0 : Fin S64x1024.rank) ∈ dot_S64x1024_S1024x1024_S64x1024_1_1_0_0_n_n.lhsNonContracting by decide)]
  rfl
/-- column from the contraction position; -/
theorem dotX_lhs_1 (i : S64x1024.Idx) (q : dot_S64x1024_S1024x1024_S64x1024_1_1_0_0_n_n.contr.Idx) :
    (dot_S64x1024_S1024x1024_S64x1024_1_1_0_0_n_n.lhsIdx i q 1).val = (q ⟨0, by decide⟩).val :=
  dot_S64x1024_S1024x1024_S64x1024_1_1_0_0_n_n.lhsIdx_val_of_single rfl i q
/-- its right operand index: row from the output's column, -/
theorem dotX_rhs_0 (i : S64x1024.Idx) (q : dot_S64x1024_S1024x1024_S64x1024_1_1_0_0_n_n.contr.Idx) :
    (dot_S64x1024_S1024x1024_S64x1024_1_1_0_0_n_n.rhsIdx i q 0).val = (i 1).val := by
  unfold DotDims.rhsIdx
  rw [dif_neg (show ¬(0 : Fin S1024x1024.rank) ∈ dot_S64x1024_S1024x1024_S64x1024_1_1_0_0_n_n.rhsBatch by decide), dif_pos (show (0 : Fin S1024x1024.rank) ∈ dot_S64x1024_S1024x1024_S64x1024_1_1_0_0_n_n.rhsNonContracting by decide)]
  rfl
/-- column from the contraction position. -/
theorem dotX_rhs_1 (i : S64x1024.Idx) (q : dot_S64x1024_S1024x1024_S64x1024_1_1_0_0_n_n.contr.Idx) :
    (dot_S64x1024_S1024x1024_S64x1024_1_1_0_0_n_n.rhsIdx i q 1).val = (q ⟨0, by decide⟩).val :=
  dot_S64x1024_S1024x1024_S64x1024_1_1_0_0_n_n.rhsIdx_val_of_single rfl i q

/-- The input product into the zero accumulator, at `(r, n)`: `∑ₖ x[r,k] · w[n,k]`. -/
theorem matmulX_apply (x : FVec Ideal S64x1024 .bf16) (w : FVec Ideal S1024x1024 .bf16) (r : Fin 64) (n : Fin 1024) :
    matmul dot_S64x1024_S1024x1024_S64x1024_1_1_0_0_n_n none x w (constant (F := Ideal) S64x1024 .f32 0x00000000#32) (ix2 r n)
      = ∑ k : Fin 1024, x (ix2 r k) * w (ix2 n k) := by
  simp only [matmul]
  rw [Ideal.matmul_constant_zero_apply, ← Equiv.sum_comp (contrEquiv1 dot_S64x1024_S1024x1024_S64x1024_1_1_0_0_n_n 1024 rfl rfl).symm]
  refine Finset.sum_congr rfl fun k _ => ?_
  have hk := contrEquiv1_symm_val dot_S64x1024_S1024x1024_S64x1024_1_1_0_0_n_n 1024 rfl rfl k
  have el : dot_S64x1024_S1024x1024_S64x1024_1_1_0_0_n_n.lhsIdx (ix2 r n) ((contrEquiv1 dot_S64x1024_S1024x1024_S64x1024_1_1_0_0_n_n 1024 rfl rfl).symm k) = ix2 r k := funext fun a => Fin.ext (by
    match a with
    | ⟨0, _⟩ => exact dotX_lhs_0 _ _
    | ⟨1, _⟩ => exact (dotX_lhs_1 _ _).trans hk)
  have er : dot_S64x1024_S1024x1024_S64x1024_1_1_0_0_n_n.rhsIdx (ix2 r n) ((contrEquiv1 dot_S64x1024_S1024x1024_S64x1024_1_1_0_0_n_n 1024 rfl rfl).symm k) = ix2 n k := funext fun a => Fin.ext (by
    match a with
    | ⟨0, _⟩ => exact dotX_rhs_0 _ _
    | ⟨1, _⟩ => exact (dotX_rhs_1 _ _).trans hk)
  rw [el, er]

/-- The recurrent product's left operand index: row from the output's row, -/
theorem dotH_lhs_0 (i : S64x1024.Idx) (q : dot_S64x1024_S1024x1024_S64x1024_1_1_0_0_n_n.contr.Idx) :
    (dot_S64x1024_S1024x1024_S64x1024_1_1_0_0_n_n.lhsIdx i q 0).val = (i 0).val := by
  unfold DotDims.lhsIdx
  rw [dif_neg (show ¬(0 : Fin S64x1024.rank) ∈ dot_S64x1024_S1024x1024_S64x1024_1_1_0_0_n_n.lhsBatch by decide), dif_pos (show (0 : Fin S64x1024.rank) ∈ dot_S64x1024_S1024x1024_S64x1024_1_1_0_0_n_n.lhsNonContracting by decide)]
  rfl
/-- column from the contraction position; -/
theorem dotH_lhs_1 (i : S64x1024.Idx) (q : dot_S64x1024_S1024x1024_S64x1024_1_1_0_0_n_n.contr.Idx) :
    (dot_S64x1024_S1024x1024_S64x1024_1_1_0_0_n_n.lhsIdx i q 1).val = (q ⟨0, by decide⟩).val :=
  dot_S64x1024_S1024x1024_S64x1024_1_1_0_0_n_n.lhsIdx_val_of_single rfl i q
/-- its right operand index: row from the output's column, -/
theorem dotH_rhs_0 (i : S64x1024.Idx) (q : dot_S64x1024_S1024x1024_S64x1024_1_1_0_0_n_n.contr.Idx) :
    (dot_S64x1024_S1024x1024_S64x1024_1_1_0_0_n_n.rhsIdx i q 0).val = (i 1).val := by
  unfold DotDims.rhsIdx
  rw [dif_neg (show ¬(0 : Fin S1024x1024.rank) ∈ dot_S64x1024_S1024x1024_S64x1024_1_1_0_0_n_n.rhsBatch by decide), dif_pos (show (0 : Fin S1024x1024.rank) ∈ dot_S64x1024_S1024x1024_S64x1024_1_1_0_0_n_n.rhsNonContracting by decide)]
  rfl
/-- column from the contraction position. -/
theorem dotH_rhs_1 (i : S64x1024.Idx) (q : dot_S64x1024_S1024x1024_S64x1024_1_1_0_0_n_n.contr.Idx) :
    (dot_S64x1024_S1024x1024_S64x1024_1_1_0_0_n_n.rhsIdx i q 1).val = (q ⟨0, by decide⟩).val :=
  dot_S64x1024_S1024x1024_S64x1024_1_1_0_0_n_n.rhsIdx_val_of_single rfl i q

/-- The recurrent product into the zero accumulator, at `(r, n)`: `∑ₖ h[r,k] · w[n,k]`. -/
theorem matmulH_apply (x : FVec Ideal S64x1024 .bf16) (w : FVec Ideal S1024x1024 .bf16) (r : Fin 64) (n : Fin 1024) :
    matmul dot_S64x1024_S1024x1024_S64x1024_1_1_0_0_n_n none x w (constant (F := Ideal) S64x1024 .f32 0x00000000#32) (ix2 r n)
      = ∑ k : Fin 1024, x (ix2 r k) * w (ix2 n k) := by
  simp only [matmul]
  rw [Ideal.matmul_constant_zero_apply, ← Equiv.sum_comp (contrEquiv1 dot_S64x1024_S1024x1024_S64x1024_1_1_0_0_n_n 1024 rfl rfl).symm]
  refine Finset.sum_congr rfl fun k _ => ?_
  have hk := contrEquiv1_symm_val dot_S64x1024_S1024x1024_S64x1024_1_1_0_0_n_n 1024 rfl rfl k
  have el : dot_S64x1024_S1024x1024_S64x1024_1_1_0_0_n_n.lhsIdx (ix2 r n) ((contrEquiv1 dot_S64x1024_S1024x1024_S64x1024_1_1_0_0_n_n 1024 rfl rfl).symm k) = ix2 r k := funext fun a => Fin.ext (by
    match a with
    | ⟨0, _⟩ => exact dotH_lhs_0 _ _
    | ⟨1, _⟩ => exact (dotH_lhs_1 _ _).trans hk)
  have er : dot_S64x1024_S1024x1024_S64x1024_1_1_0_0_n_n.rhsIdx (ix2 r n) ((contrEquiv1 dot_S64x1024_S1024x1024_S64x1024_1_1_0_0_n_n 1024 rfl rfl).symm k) = ix2 n k := funext fun a => Fin.ext (by
    match a with
    | ⟨0, _⟩ => exact dotH_rhs_0 _ _
    | ⟨1, _⟩ => exact (dotH_rhs_1 _ _).trans hk)
  rw [el, er]

/-! ## The body's value at an index -/

/-- The pre-activation at `(r, n)`: the two sums added, plus the bias row's entry `n` (the one row laid along all 64). -/
theorem preact_apply (x : Vec Ideal S64x1024 .f32) (h : Vec Ideal S64x1024 .f32) (wx : Vec Ideal S1024x1024 .f32) (wh : Vec Ideal S1024x1024 .f32)
    (b : Vec Ideal S1x1024 .f32) (r : Fin 64) (n : Fin 1024) :
    k1_pay1 (F := Ideal) x h wx wh b (ix2 r n)
      = ((∑ k : Fin 1024, x (ix2 r k) * wx (ix2 n k)) + (∑ k : Fin 1024, h (ix2 r k) * wh (ix2 n k))) + b (ix2 (0 : Fin 1) n) := by
  unfold k1_pay1
  simp only [addf_apply, matmulX_apply, matmulH_apply, truncf_apply, shapeCast_self, broadcastTo_1b_ab_apply]

/-- What the cell-candidate branch stores, at `(0, r, n)`: the hyperbolic tangent of the pre-activation at `(r, n)`. -/
theorem tanh_store_apply (x : Vec Ideal S64x1024 .f32) (h : Vec Ideal S64x1024 .f32) (wx : Vec Ideal S1024x1024 .f32) (wh : Vec Ideal S1024x1024 .f32)
    (b : Vec Ideal S1x1024 .f32) (u : Fin 1) (r : Fin 64) (n : Fin 1024) :
    k1_pay2 (F := Ideal) x h wx wh b (ix3 u r n) = Ideal.tanh (k1_pay1 (F := Ideal) x h wx wh b (ix2 r n)) := by
  unfold k1_pay2
  exact shapeCast_ab_1ab_apply _ _ u r n

/-- What the other branch stores there: the logistic function of it. -/
theorem logistic_store_apply (x : Vec Ideal S64x1024 .f32) (h : Vec Ideal S64x1024 .f32) (wx : Vec Ideal S1024x1024 .f32) (wh : Vec Ideal S1024x1024 .f32)
    (b : Vec Ideal S1x1024 .f32) (u : Fin 1) (r : Fin 64) (n : Fin 1024) :
    k1_pay3 (F := Ideal) x h wx wh b (ix3 u r n) = Ideal.logistic (k1_pay1 (F := Ideal) x h wx wh b (ix2 r n)) := by
  unfold k1_pay3
  exact shapeCast_ab_1ab_apply _ _ u r n

/-- THE STORED GATE AT AN INDEX. At coordinates `i` whose branch test says "gate `g` is the cell candidate", from blocks
    that are: `x` and `h` the whole arrays `X`, `H`; `wx`, `wh` rows `1024 g + ·` of `WX`, `WH`; `b` columns
    `1024 g + ·` of `B` — the stored value at `(0, r, n)` is the specification's entry `(g, r, n)`. -/
theorem gatePay_apply (i : grid1.Coords) (g : Fin 4) (hg : k1_cond1 i = 1#1 ↔ g.val = 2)
    (x : Vec Ideal S64x1024 .f32) (h : Vec Ideal S64x1024 .f32) (wx : Vec Ideal S1024x1024 .f32) (wh : Vec Ideal S1024x1024 .f32) (b : Vec Ideal S1x1024 .f32)
    (X : Cert.Spec.A2 64 1024) (H : Cert.Spec.A2 64 1024) (WX : Cert.Spec.A2 4096 1024) (WH : Cert.Spec.A2 4096 1024) (B : Cert.Spec.A2 1 4096)
    (hx : ∀ (r : Fin 64) (k : Fin 1024), x (ix2 r k) = X (ix2 r k))
    (hh : ∀ (r : Fin 64) (k : Fin 1024), h (ix2 r k) = H (ix2 r k))
    (hwx : ∀ (n : Fin 1024) (k : Fin 1024), wx (ix2 n k) = WX (ix2 (Cert.Spec.row g n) k))
    (hwh : ∀ (n : Fin 1024) (k : Fin 1024), wh (ix2 n k) = WH (ix2 (Cert.Spec.row g n) k))
    (hb : ∀ n : Fin 1024, b (ix2 (0 : Fin 1) n) = B (ix2 (0 : Fin 1) (Cert.Spec.row g n)))
    (y : S1x64x1024.Idx) :
    gatePay i x h wx wh b y = Cert.Spec.gate1At X H WX WH B g (y 1) (y 2) := by
  obtain ⟨u, r, n, rfl⟩ : ∃ (u : Fin 1) (r : Fin 64) (n : Fin 1024), y = ix3 u r n := ⟨y 0, y 1, y 2, eq_ix3 y⟩
  show gatePay i x h wx wh b (ix3 u r n) = Cert.Spec.gate1At X H WX WH B g r n
  unfold gatePay Cert.Spec.gate1At Cert.Spec.act
  simp only [View.ld_unit_zero (S := S64x1024) offs2_zero, View.ld_unit_zero (S := S64x1024) offs2_zero, View.ld_unit_zero (S := S1024x1024) offs2_zero,
    View.ld_unit_zero (S := S1024x1024) offs2_zero, View.ld_unit_zero (S := S1x1024) offs2_zero]
  by_cases hc : k1_cond1 i = 1#1
  · rw [if_pos hc, if_pos (hg.mp hc), tanh_store_apply, preact_apply]
    simp only [hx, hh, hwx, hwh, hb]
  · rw [if_neg hc, if_neg (fun e => hc (hg.mpr e)), logistic_store_apply, preact_apply]
    simp only [hx, hh, hwx, hwh, hb]

/-! ## The index maps over the grid -/

/-- At point `t`: the input and the hidden state stay at block (0, 0); the weight slabs are block row `t`; the bias is
    block column `t`; the output is plane `t`; and the branch test holds exactly at `t = 2`. Decided over the four points. -/
theorem index_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = t.val
    ∧ win1_5.index t (0 : Fin 3) = t.val ∧ win1_5.index t (1 : Fin 3) = 0 ∧ win1_5.index t (2 : Fin 3) = 0
    ∧ (k1_cond1 (grid1.coords t) = 1#1 ↔ t.val = 2) :=
  (by decide +kernel : ∀ t : Fin grid1.N, _)

/-- The gate a grid point computes: its number. -/
abbrev gateOf (t : Fin cfg1.N) : Fin 4 := t.cast N_1

variable (V : (c : Dev nD) → (b : Ref sig .tc) → Buf (Elt Ideal) ((c : Thread nD τ).loc b))

/-! ## Each block as a part of its array

A block's element at `y` sits in the array, on each axis, at block index × block size + 1 × `y`'s coordinate. -/

/-- The input's block is the input. -/
theorem xBlock_apply (c : Dev nD) (t : Fin cfg1.N) (r : Fin 64) (k : Fin 1024) :
    iblk V c 0 t (ix2 r k) = V c main_v29 (ix2 r k) := by
  obtain ⟨e0, e1, -⟩ := index_facts t
  unfold iblk
  rw [View.read_apply]
  show V c main_v29 (((cfg1.win 0).blk t).view.emb (ix2 r k)) = V c main_v29 (ix2 r k)
  refine congrArg _ (funext fun a => Fin.ext ?_)
  match a with
  | ⟨0, _⟩ => show win1_0.index t (0 : Fin 2) * 64 + 1 * r.val = r.val; omega
  | ⟨1, _⟩ => show win1_0.index t (1 : Fin 2) * 1024 + 1 * k.val = k.val; omega

/-- The hidden state's block is the hidden state. -/
theorem hBlock_apply (c : Dev nD) (t : Fin cfg1.N) (r : Fin 64) (k : Fin 1024) :
    iblk V c 1 t (ix2 r k) = V c main_v31 (ix2 r k) := by
  obtain ⟨-, -, e0, e1, -⟩ := index_facts t
  unfold iblk
  rw [View.read_apply]
  show V c main_v31 (((cfg1.win 1).blk t).view.emb (ix2 r k)) = V c main_v31 (ix2 r k)
  refine congrArg _ (funext fun a => Fin.ext ?_)
  match a with
  | ⟨0, _⟩ => show win1_1.index t (0 : Fin 2) * 64 + 1 * r.val = r.val; omega
  | ⟨1, _⟩ => show win1_1.index t (1 : Fin 2) * 1024 + 1 * k.val = k.val; omega

/-- The input weights' block at point `t` is rows `1024 t + ·` of the matrix. -/
theorem wxBlock_apply (c : Dev nD) (t : Fin cfg1.N) (n : Fin 1024) (k : Fin 1024) :
    iblk V c 2 t (ix2 n k) = V c main_arg8 (ix2 (Cert.Spec.row (gateOf t) n) k) := by
  obtain ⟨-, -, -, -, e0, e1, -⟩ := index_facts t
  unfold iblk
  rw [View.read_apply]
  show V c main_arg8 (((cfg1.win 2).blk t).view.emb (ix2 n k)) = V c main_arg8 (ix2 (Cert.Spec.row (gateOf t) n) k)
  refine congrArg _ (funext fun a => Fin.ext ?_)
  match a with
  | ⟨0, _⟩ => show win1_2.index t (0 : Fin 2) * 1024 + 1 * n.val = 1024 * t.val + n.val; omega
  | ⟨1, _⟩ => show win1_2.index t (1 : Fin 2) * 1024 + 1 * k.val = k.val; omega

/-- The recurrent weights' block at point `t` is rows `1024 t + ·` of the matrix. -/
theorem whBlock_apply (c : Dev nD) (t : Fin cfg1.N) (n : Fin 1024) (k : Fin 1024) :
    iblk V c 3 t (ix2 n k) = V c main_arg9 (ix2 (Cert.Spec.row (gateOf t) n) k) := by
  obtain ⟨-, -, -, -, -, -, e0, e1, -⟩ := index_facts t
  unfold iblk
  rw [View.read_apply]
  show V c main_arg9 (((cfg1.win 3).blk t).view.emb (ix2 n k)) = V c main_arg9 (ix2 (Cert.Spec.row (gateOf t) n) k)
  refine congrArg _ (funext fun a => Fin.ext ?_)
  match a with
  | ⟨0, _⟩ => show win1_3.index t (0 : Fin 2) * 1024 + 1 * n.val = 1024 * t.val + n.val; omega
  | ⟨1, _⟩ => show win1_3.index t (1 : Fin 2) * 1024 + 1 * k.val = k.val; omega

/-- The bias's block at point `t` is columns `1024 t + ·` of the row. -/
theorem bBlock_apply (c : Dev nD) (t : Fin cfg1.N) (n : Fin 1024) :
    iblk V c 4 t (ix2 (0 : Fin 1) n) = V c main_v11 (ix2 (0 : Fin 1) (Cert.Spec.row (gateOf t) n)) := by
  obtain ⟨-, -, -, -, -, -, -, -, e0, e1, -⟩ := index_facts t
  unfold iblk
  rw [View.read_apply]
  show V c main_v11 (((cfg1.win 4).blk t).view.emb (ix2 (0 : Fin 1) n)) = V c main_v11 (ix2 (0 : Fin 1) (Cert.Spec.row (gateOf t) n))
  refine congrArg _ (funext fun a => Fin.ext ?_)
  match a with
  | ⟨0, _⟩ => show win1_4.index t (0 : Fin 2) * 1 + 1 * 0 = 0; omega
  | ⟨1, _⟩ => show win1_4.index t (1 : Fin 2) * 1024 + 1 * n.val = 1024 * t.val + n.val; omega

/-! ## What a point writes back -/

/-- Point `t` writes back plane `t` of the specification's stacked gates of the five arrays. -/
theorem flushed_eq (c : Dev nD) (t : Fin cfg1.N) :
    (dat V c).flushed 5 t = ((cfg1.win 5).blk t).view.read (Elt Ideal)
      (Cert.Spec.gates1 (V c main_v29) (V c main_v31) (V c main_arg8) (V c main_arg9) (V c main_v11)) := by
  show (cfg1.win 5).cut (grid1.coords t) ((dat V c).after 5 t) = _
  rw [after_5]
  unfold gateOut
  rw [View.canon_unit_zero offs3_zero]
  obtain ⟨-, -, -, -, -, -, -, -, -, -, e0, e1, e2, ec⟩ := index_facts t
  funext y
  show gatePay (grid1.coords t) (iblk V c 0 t) (iblk V c 1 t) (iblk V c 2 t) (iblk V c 3 t) (iblk V c 4 t) y
    = Cert.Spec.gates1 (V c main_v29) (V c main_v31) (V c main_arg8) (V c main_arg9) (V c main_v11) (((cfg1.win 5).blk t).view.emb y)
  refine (gatePay_apply (grid1.coords t) (gateOf t) ec (iblk V c 0 t) (iblk V c 1 t) (iblk V c 2 t) (iblk V c 3 t) (iblk V c 4 t)
    (V c main_v29) (V c main_v31) (V c main_arg8) (V c main_arg9) (V c main_v11)
    (xBlock_apply V c t) (hBlock_apply V c t) (wxBlock_apply V c t) (whBlock_apply V c t) (bBlock_apply V c t) y).trans ?_
  unfold Cert.Spec.gates1
  have h0 : gateOf t = ((cfg1.win 5).blk t).view.emb y 0 := Fin.ext (by
    show t.val = win1_5.index t (0 : Fin 3) * 1 + 1 * (y 0).val
    have hy : (y 0).val < 1 := (y 0).isLt
    omega)
  have h1 : y 1 = ((cfg1.win 5).blk t).view.emb y 1 := Fin.ext (by
    show (y 1).val = win1_5.index t (1 : Fin 3) * 64 + 1 * (y 1).val
    omega)
  have h2 : y 2 = ((cfg1.win 5).blk t).view.emb y 2 := Fin.ext (by
    show (y 2).val = win1_5.index t (2 : Fin 3) * 1024 + 1 * (y 2).val
    omega)
  rw [← h0, ← h1, ← h2]

/-! ## From the planes to the array -/

/-- An index of the output array is in point `t`'s block iff each coordinate is in the block's range on its axis. -/
theorem mem_outBlock (t : Fin cfg1.N) (i : S4x64x1024.Idx) :
    i ∈ ((cfg1.win 5).blk t).view.set ↔ ∀ a : Fin 3, win1_5.index t a * S1x64x1024.size a ≤ (i a).val ∧ (i a).val < win1_5.index t a * S1x64x1024.size a + S1x64x1024.size a := by
  show i ∈ ((View.whole main_v32).slice (win1_5.rect t)).set ↔ _
  rw [View.set_slice_whole, Rect.mem_set_unit]
  exact Iff.rfl

/-- Every index `(g, r, n)` of the output array is in the block of point `g`, which writes it back. -/
theorem out_covered (i : S4x64x1024.Idx) : ∃ t : Fin cfg1.N, (cfg1.win 5).flush t = true ∧ i ∈ ((cfg1.win 5).blk t).view.set := by
  have hi0 : (i 0).val < 4 := (i 0).isLt
  have hi1 : (i 1).val < 64 := (i 1).isLt
  have hi2 : (i 2).val < 1024 := (i 2).isLt
  obtain ⟨t, ht⟩ : ∃ t : Fin cfg1.N, t.val = (i 0).val := ⟨⟨(i 0).val, by rw [show cfg1.N = 4 from N_1]; exact hi0⟩, rfl⟩
  obtain ⟨-, -, -, -, -, -, -, -, -, -, e0, e1, e2, -⟩ := index_facts t
  refine ⟨t, flush1_5 t, ?_⟩
  rw [mem_outBlock]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 64 ≤ (i 1).val ∧ (i 1).val < win1_5.index t (1 : Fin 3) * 64 + 64; omega
  | ⟨2, _⟩ => show win1_5.index t (2 : Fin 3) * 1024 ≤ (i 2).val ∧ (i 2).val < win1_5.index t (2 : Fin 3) * 1024 + 1024; omega

/-- THE OUTPUT ARRAY after the four points: the specification's stacked gates of the arrays the region found. -/
theorem final (c : Dev nD) :
    (dat (F := Ideal) V c).arrAt 5 cfg1.N
      = Cert.Spec.gates1 (V c main_v29) (V c main_v31) (V c main_arg8) (V c main_arg9) (V c main_v11) :=
  (dat V c).arrAt_eq_of_cover 5 (Cert.Spec.gates1 (V c main_v29) (V c main_v31) (V c main_arg8) (V c main_arg9) (V c main_v11))
    (fun t _ => flushed_eq V c t) out_covered

end Cert.KernelIdeal.Gate1

end
-- ==== Proof.KI_ValFc.lean ====
import proofs.«405273_j36395552866595_3_alg».proof.Proof.KI_Fc
import proofs.«405273_j36395552866595_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

/-! # The output projection's array: the logits

Point `j` of the ten writes columns `3200 j … 3200 j + 3199` of the logits from the whole hidden state, rows
`3200 j … 3200 j + 3199` of the projection matrix and the same stretch of the bias row. First one entry of what a point
computes, as a sum over the 1024 hidden units; then the block a point writes back, as a block of the one array
`h · Wᵀ + b`; then the ten blocks side by side fill the array. -/

open Idealize.ShloMosaic Idealize.ShloMosaic.TcCoe Idealize.SL.Sem
open Idealize.ShloMosaic.ValueIdx
open Cert.KernelIdeal Cert.KernelIdeal.Gen

namespace Cert.KernelIdeal.Fc

/-! ## The operands' indices under the contraction

The product contracts axis 1 of both operands: at output entry `(p, q)` and hidden unit `k` the left operand is read at
`(p, k)`, the right at `(q, k)`. -/

theorem lhs_fc_0 (i : S64x3200.Idx) (q : dot_S64x1024_S3200x1024_S64x3200_1_1_0_0_n_n.contr.Idx) :
    (dot_S64x1024_S3200x1024_S64x3200_1_1_0_0_n_n.lhsIdx i q 0).val = (i 0).val := by
  unfold DotDims.lhsIdx
  rw [dif_neg (show ¬(0 : Fin S64x1024.rank) ∈ dot_S64x1024_S3200x1024_S64x3200_1_1_0_0_n_n.lhsBatch by decide), dif_pos (show (0 : Fin S64x1024.rank) ∈ dot_S64x1024_S3200x1024_S64x3200_1_1_0_0_n_n.lhsNonContracting by decide)]
  rfl
theorem lhs_fc_1 (i : S64x3200.Idx) (q : dot_S64x1024_S3200x1024_S64x3200_1_1_0_0_n_n.contr.Idx) :
    (dot_S64x1024_S3200x1024_S64x3200_1_1_0_0_n_n.lhsIdx i q 1).val = (q ⟨0, by decide⟩).val :=
  dot_S64x1024_S3200x1024_S64x3200_1_1_0_0_n_n.lhsIdx_val_of_single rfl i q
theorem rhs_fc_0 (i : S64x3200.Idx) (q : dot_S64x1024_S3200x1024_S64x3200_1_1_0_0_n_n.contr.Idx) :
    (dot_S64x1024_S3200x1024_S64x3200_1_1_0_0_n_n.rhsIdx i q 0).val = (i 1).val := by
  unfold DotDims.rhsIdx
  rw [dif_neg (show ¬(0 : Fin S3200x1024.rank) ∈ dot_S64x1024_S3200x1024_S64x3200_1_1_0_0_n_n.rhsBatch by decide), dif_pos (show (0 : Fin S3200x1024.rank) ∈ dot_S64x1024_S3200x1024_S64x3200_1_1_0_0_n_n.rhsNonContracting by decide)]
  rfl
theorem rhs_fc_1 (i : S64x3200.Idx) (q : dot_S64x1024_S3200x1024_S64x3200_1_1_0_0_n_n.contr.Idx) :
    (dot_S64x1024_S3200x1024_S64x3200_1_1_0_0_n_n.rhsIdx i q 1).val = (q ⟨0, by decide⟩).val :=
  dot_S64x1024_S3200x1024_S64x3200_1_1_0_0_n_n.rhsIdx_val_of_single rfl i q

/-- The product into a zero accumulator, one entry: the sum over the hidden units of the operands' products. -/
theorem matmul_fc_apply (x : FVec Ideal S64x1024 .bf16) (y : FVec Ideal S3200x1024 .bf16) (p : Fin 64) (q : Fin 3200) :
    FloatOps.matmul dot_S64x1024_S3200x1024_S64x3200_1_1_0_0_n_n none x y (constant (F := Ideal) S64x3200 .f32 0x00000000#32) (ix2 p q)
      = ∑ k : Fin 1024, x (ix2 p k) * y (ix2 q k) := by
  rw [Ideal.matmul_constant_zero_apply, ← Equiv.sum_comp (ValueIdx.contrEquiv1 dot_S64x1024_S3200x1024_S64x3200_1_1_0_0_n_n 1024 rfl rfl).symm]
  refine Finset.sum_congr rfl fun k _ => ?_
  have hk := ValueIdx.contrEquiv1_symm_val dot_S64x1024_S3200x1024_S64x3200_1_1_0_0_n_n 1024 rfl rfl k
  have el : dot_S64x1024_S3200x1024_S64x3200_1_1_0_0_n_n.lhsIdx (ix2 p q) ((ValueIdx.contrEquiv1 dot_S64x1024_S3200x1024_S64x3200_1_1_0_0_n_n 1024 rfl rfl).symm k) = ix2 p k := funext fun a => Fin.ext (by
    match a with
    | ⟨0, _⟩ => exact lhs_fc_0 _ _
    | ⟨1, _⟩ => exact (lhs_fc_1 _ _).trans hk)
  have er : dot_S64x1024_S3200x1024_S64x3200_1_1_0_0_n_n.rhsIdx (ix2 p q) ((ValueIdx.contrEquiv1 dot_S64x1024_S3200x1024_S64x3200_1_1_0_0_n_n 1024 rfl rfl).symm k) = ix2 q k := funext fun a => Fin.ext (by
    match a with
    | ⟨0, _⟩ => exact rhs_fc_0 _ _
    | ⟨1, _⟩ => exact (rhs_fc_1 _ _).trans hk)
  rw [el, er]

/-- One entry of what a point computes from its three blocks: the row of `h` against the row of `w`, plus the bias. -/
theorem tile_apply (h : Vec Ideal S64x1024 .f32) (w : Vec Ideal S3200x1024 .f32) (b : Vec Ideal S1x3200 .f32) (p : Fin 64) (q : Fin 3200) :
    k2_pay1 h w b (ix2 p q) = (∑ k : Fin 1024, h (ix2 p k) * w (ix2 q k)) + b (ix2 (0 : Fin 1) q) := by
  unfold k2_pay1
  rw [shapeCast_self, shapeCast_self]
  refine (addf_apply _ _ (ix2 p q)).trans ?_
  refine congrArg₂ (· + ·) ?_ ?_
  · exact matmul_fc_apply _ _ p q
  · exact broadcastTo_1b_ab_apply b broadcasts_S1x3200_S64x3200 p q

/-! ## One entry of a point's block against the whole arrays -/

/-- If a point's three blocks are the stretches of the whole arrays `H`, `W`, `B` that point `n` is given — all of
    `H`, rows `3200 n + q` of `W`, columns `3200 n + q` of `B` — then entry `y` of what it computes is entry
    `(y 0, 3200 n + y 1)` of `H · Wᵀ + B`. -/
theorem tile_entry (H : Vec Ideal S64x1024 .f32) (W : Vec Ideal S32000x1024 .f32) (B : Vec Ideal S1x32000 .f32)
    (h : Vec Ideal S64x1024 .f32) (w : Vec Ideal S3200x1024 .f32) (b : Vec Ideal S1x3200 .f32) (n : Nat)
    (hh : ∀ (p : Fin 64) (k : Fin 1024), h (ix2 p k) = H (ix2 p k))
    (hw : ∀ (q : Fin 3200) (k : Fin 1024) (Q : Fin 32000), Q.val = 3200 * n + q.val → w (ix2 q k) = W (ix2 Q k))
    (hb : ∀ (q : Fin 3200) (Q : Fin 32000), Q.val = 3200 * n + q.val → b (ix2 (0 : Fin 1) q) = B (ix2 (0 : Fin 1) Q))
    (y : S64x3200.Idx) (i : S64x32000.Idx) (hi0 : (i 0).val = (y 0).val) (hi1 : (i 1).val = 3200 * n + (y 1).val) :
    k2_pay1 h w b y = Cert.Spec.logits H W B i := by
  obtain ⟨p, q, rfl⟩ : ∃ (p : Fin 64) (q : Fin 3200), y = ix2 p q := ⟨y 0, y 1, eq_ix2 y⟩
  obtain ⟨P, Q, rfl⟩ : ∃ (P : Fin 64) (Q : Fin 32000), i = ix2 P Q := ⟨i 0, i 1, eq_ix2 i⟩
  have hP : P = p := Fin.ext hi0
  have hQ : Q.val = 3200 * n + q.val := hi1
  subst hP
  refine (tile_apply h w b P q).trans ?_
  show _ = (∑ k : Fin 1024, H (ix2 P k) * W (ix2 Q k)) + B (ix2 (0 : Fin 1) Q)
  refine congrArg₂ (· + ·) (Finset.sum_congr rfl fun k _ => ?_) (hb q Q hQ)
  rw [hh P k, hw q k Q hQ]

/-! ## The blocks a point is given -/

variable (V : (c : Dev nD) → (b : Ref sig .tc) → Buf (Elt Ideal) ((c : Thread nD τ).loc b))

theorem zero_offsets : (![0, 0] : Fin 2 → Nat) = fun _ => 0 := funext fun a => by fin_cases a <;> rfl

/-- The block indices, decided over the ten points: the hidden state's block is always the whole array; point `t` takes
    block row `t` of the matrix and block column `t` of the bias row and of the logits. -/
theorem block_indices : ∀ t : Fin cfg2.N,
    win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val
    ∧ win2_3.index t (0 : Fin 2) = 0 ∧ win2_3.index t (1 : Fin 2) = t.val :=
  (by decide +kernel : ∀ t : Fin grid2.N, _)

/-- The hidden state's block at any point is the hidden state. -/
theorem hidden_block_apply (c : Dev nD) (t : Fin cfg2.N) (x : S64x1024.Idx) :
    (iblk V c 0 t : Vec Ideal S64x1024 .f32) x = (V c main_v47 : S64x1024.Idx → Elt Ideal .f32) x := by
  obtain ⟨e0, e1, -⟩ := block_indices t
  unfold iblk
  rw [View.read_apply]
  show V c main_v47 _ = V c main_v47 _
  congr 1
  funext a
  apply Fin.ext
  match a with
  | ⟨0, _⟩ => show win2_0.index t (0 : Fin 2) * 64 + 1 * (x 0).val = (x 0).val; rw [e0]; omega
  | ⟨1, _⟩ => show win2_0.index t (1 : Fin 2) * 1024 + 1 * (x 1).val = (x 1).val; rw [e1]; omega

/-- The matrix's block at point `t` is its rows `3200 t … 3200 t + 3199`. -/
theorem matrix_block_apply (c : Dev nD) (t : Fin cfg2.N) (x : S3200x1024.Idx) (k : S32000x1024.Idx)
    (hk0 : (k 0).val = 3200 * t.val + (x 0).val) (hk1 : (k 1).val = (x 1).val) :
    (iblk V c 1 t : Vec Ideal S3200x1024 .f32) x = (V c main_arg12 : S32000x1024.Idx → Elt Ideal .f32) k := by
  obtain ⟨-, -, e2, e3, -⟩ := block_indices t
  unfold iblk
  rw [View.read_apply]
  show V c main_arg12 _ = V c main_arg12 _
  congr 1
  funext a
  apply Fin.ext
  match a with
  | ⟨0, _⟩ => show win2_1.index t (0 : Fin 2) * 3200 + 1 * (x 0).val = (k 0).val; rw [e2, hk0]; omega
  | ⟨1, _⟩ => show win2_1.index t (1 : Fin 2) * 1024 + 1 * (x 1).val = (k 1).val; rw [e3, hk1]; omega

/-- The bias row's block at point `t` is its columns `3200 t … 3200 t + 3199`. -/
theorem bias_block_apply (c : Dev nD) (t : Fin cfg2.N) (x : S1x3200.Idx) (k : S1x32000.Idx)
    (hk0 : (k 0).val = (x 0).val) (hk1 : (k 1).val = 3200 * t.val + (x 1).val) :
    (iblk V c 2 t : Vec Ideal S1x3200 .f32) x = (V c main_v54 : S1x32000.Idx → Elt Ideal .f32) k := by
  obtain ⟨-, -, -, -, e4, e5, -⟩ := block_indices t
  unfold iblk
  rw [View.read_apply]
  show V c main_v54 _ = V c main_v54 _
  congr 1
  funext a
  apply Fin.ext
  match a with
  | ⟨0, _⟩ => show win2_2.index t (0 : Fin 2) * 1 + 1 * (x 0).val = (k 0).val; rw [e4, hk0]; omega
  | ⟨1, _⟩ => show win2_2.index t (1 : Fin 2) * 3200 + 1 * (x 1).val = (k 1).val; rw [e5, hk1]; omega

/-! ## What a point writes back -/

/-- What point `t` writes back is block `t` of `h · Wᵀ + b` of the arrays as the region finds them. -/
theorem written_back_eq (c : Dev nD) (t : Fin cfg2.N) :
    (dat (F := Ideal) V c).flushed 3 t
      = ((cfg2.win 3).blk t).view.read (Elt Ideal) (Cert.Spec.logits (V c main_v47) (V c main_arg12) (V c main_v54)) := by
  show (cfg2.win 3).cut (grid2.coords t) ((dat (F := Ideal) V c).after 3 t) = _
  rw [after_3]
  unfold fcOut
  rw [View.canon_unit_zero zero_offsets]
  simp only [View.ld_unit_zero (S := S64x1024) zero_offsets, View.ld_unit_zero (S := S3200x1024) zero_offsets, View.ld_unit_zero (S := S1x3200) zero_offsets]
  obtain ⟨-, -, -, -, -, -, e6, e7⟩ := block_indices t
  funext y
  refine tile_entry (V c main_v47) (V c main_arg12) (V c main_v54) (iblk V c 0 t) (iblk V c 1 t) (iblk V c 2 t) t.val
    (fun p k => hidden_block_apply V c t (ix2 p k))
    (fun q k Q hQ => matrix_block_apply V c t (ix2 q k) (ix2 Q k) hQ rfl)
    (fun q Q hQ => bias_block_apply V c t (ix2 (0 : Fin 1) q) (ix2 (0 : Fin 1) Q) rfl hQ)
    y (((cfg2.win 3).blk t).view.emb y) ?_ ?_
  · show win2_3.index t (0 : Fin 2) * 64 + 1 * (y 0).val = (y 0).val
    rw [e6]; omega
  · show win2_3.index t (1 : Fin 2) * 3200 + 1 * (y 1).val = 3200 * t.val + (y 1).val
    rw [e7]; omega

/-! ## The ten blocks fill the array -/

/-- An entry of the logits is in point `t`'s block iff each coordinate is in the block's range on its axis. -/
theorem mem_logits_block (t : Fin cfg2.N) (i : S64x32000.Idx) :
    i ∈ ((cfg2.win 3).blk t).view.set ↔ ∀ a : Fin 2, win2_3.index t a * S64x3200.size a ≤ (i a).val ∧ (i a).val < win2_3.index t a * S64x3200.size a + S64x3200.size a := by
  show i ∈ ((View.whole main_v55).slice (win2_3.rect t)).set ↔ _
  rw [View.set_slice_whole, Rect.mem_set_unit]
  exact Iff.rfl

/-- Column `v` of the logits is written by point `v / 3200`. -/
theorem columns_covered (i : S64x32000.Idx) : ∃ t : Fin cfg2.N, (cfg2.win 3).flush t = true ∧ i ∈ ((cfg2.win 3).blk t).view.set := by
  have hi0 : (i 0).val < 64 := (i 0).isLt
  have hi1 : (i 1).val < 32000 := (i 1).isLt
  have hN : cfg2.N = 10 := N_2
  obtain ⟨t, ht⟩ : ∃ t : Fin cfg2.N, t.val = (i 1).val / 3200 := ⟨⟨(i 1).val / 3200, by rw [hN]; omega⟩, rfl⟩
  obtain ⟨-, -, -, -, -, -, e6, e7⟩ := block_indices t
  refine ⟨t, flush2_3 t, ?_⟩
  rw [mem_logits_block]
  intro a
  match a with
  | ⟨0, _⟩ => show win2_3.index t (0 : Fin 2) * 64 ≤ (i 0).val ∧ (i 0).val < win2_3.index t (0 : Fin 2) * 64 + 64; rw [e6]; omega
  | ⟨1, _⟩ => show win2_3.index t (1 : Fin 2) * 3200 ≤ (i 1).val ∧ (i 1).val < win2_3.index t (1 : Fin 2) * 3200 + 3200; rw [e7, ht]; omega

/-- The logits' array after the region: `h · Wᵀ + b` of the hidden state, the projection matrix and the bias row as
    the region finds them. -/
theorem final (c : Dev nD) :
    (dat (F := Ideal) V c).arrAt 3 cfg2.N = Cert.Spec.logits (V c main_v47) (V c main_arg12) (V c main_v54) :=
  (dat (F := Ideal) V c).arrAt_eq_of_cover 3 (Cert.Spec.logits (V c main_v47) (V c main_arg12) (V c main_v54))
    (fun t _ => written_back_eq V c t) columns_covered

end Cert.KernelIdeal.Fc

end
-- ==== Proof.RefValL0.lean ====
import proofs.«405273_j36395552866595_3_alg».proof.Proof.Gen.ReferenceIdeal.Read
import proofs.«405273_j36395552866595_3_alg».proof.Proof.Spec
import Idealize.ShloMosaic.Lib.IdealHost

noncomputable section

/-! # The reference's first layer, stage by stage

Each stage of the reference's first LSTM layer, read an index at a time, is the specification's function of the same
arguments: the two layer-0 slices of the states, the four pre-activation column blocks of
x · W_ihᵀ + h · W_hhᵀ + b_ih + b_hh, the four activated gates, the new cell state and the new hidden state. The
embedding rows enter as a hypothesis: the gathered array is some X. -/
namespace Cert.ReferenceIdeal.RefVal

open Cert.ReferenceIdeal Cert.ReferenceIdeal.Read Idealize.ShloMosaic Idealize.ShloMosaic.ValueIdx
open Cert.Spec (A1 A2 A3 Ids)

/-! ## Activations -/

/-- At a gate other than the cell candidate the activation is the logistic function, spelt 1 / (1 + e^(-z)). -/
theorem act_logistic (g : Fin 4) (hg : g.val ≠ 2) (z : EReal) :
    Cert.Spec.act g z = Ideal.div 1 (1 + Ideal.exp (-z)) := by
  unfold Cert.Spec.act; rw [if_neg hg]; rfl

/-- At the cell candidate the activation is the hyperbolic tangent. -/
theorem act_tanh (z : EReal) : Cert.Spec.act 2 z = Ideal.tanh z := by
  unfold Cert.Spec.act; exact if_pos rfl

/-! ## Layer 0 of the two states -/

/-- Position 1024 r + n of the flattened 1 × 64 × 1024 slice is row r, column n of layer 0. -/
theorem idx_layer0 (r : Fin 64) (n : Fin 1024) : idx_main_v7 (idx_main_v8 (ix2 r n)) = ix3 0 r n :=
  funext fun a => match a with
    | ⟨0, _⟩ => rfl
    | ⟨1, _⟩ => Fin.ext (by
        have hr := r.isLt; have hn := n.isLt
        show (r.val * 1024 + n.val) / 1024 % 64 = r.val; omega)
    | ⟨2, _⟩ => Fin.ext (by
        have hr := r.isLt; have hn := n.isLt
        show (r.val * 1024 + n.val) % 1024 = n.val; omega)

/-- The same for the cell state's slice. -/
theorem idx_layer0' (r : Fin 64) (n : Fin 1024) : idx_main_v9 (idx_main_v10 (ix2 r n)) = ix3 0 r n :=
  funext fun a => match a with
    | ⟨0, _⟩ => rfl
    | ⟨1, _⟩ => Fin.ext (by
        have hr := r.isLt; have hn := n.isLt
        show (r.val * 1024 + n.val) / 1024 % 64 = r.val; omega)
    | ⟨2, _⟩ => Fin.ext (by
        have hr := r.isLt; have hn := n.isLt
        show (r.val * 1024 + n.val) % 1024 = n.val; omega)

/-- The hidden state's first slice, reshaped, is its layer 0. -/
theorem v8_eq (x1 : A3 2 64 1024) : val_main_v8 (F := Ideal) x1 = Cert.Spec.layer 0 x1 := by
  funext j
  obtain ⟨r, n, rfl⟩ : ∃ (r : Fin 64) (n : Fin 1024), j = ix2 r n := ⟨j 0, j 1, eq_ix2 j⟩
  rw [val_main_v8_apply, val_main_v7_apply, idx_layer0]
  rfl

/-- The cell state's first slice, reshaped, is its layer 0. -/
theorem v10_eq (x2 : A3 2 64 1024) : val_main_v10 (F := Ideal) x2 = Cert.Spec.layer 0 x2 := by
  funext j
  obtain ⟨r, n, rfl⟩ : ∃ (r : Fin 64) (n : Fin 1024), j = ix2 r n := ⟨j 0, j 1, eq_ix2 j⟩
  rw [val_main_v10_apply, val_main_v9_apply, idx_layer0']
  rfl

/-! ## The pre-activations: one entry of x · W_ihᵀ + h · W_hhᵀ + b_ih + b_hh -/

theorem lidx12 (r : Fin 64) (c : Fin 4096) (k : Fin 512) : lidx_main_v12 (ix2 r c) k = ix2 r k :=
  funext fun a => match a with | ⟨0, _⟩ => rfl | ⟨1, _⟩ => rfl
theorem ridx12 (r : Fin 64) (c : Fin 4096) (k : Fin 512) : idx_main_v11 (ridx_main_v12 (ix2 r c) k) = ix2 c k :=
  funext fun a => match a with | ⟨0, _⟩ => rfl | ⟨1, _⟩ => rfl
theorem lidx14 (r : Fin 64) (c : Fin 4096) (k : Fin 1024) : lidx_main_v14 (ix2 r c) k = ix2 r k :=
  funext fun a => match a with | ⟨0, _⟩ => rfl | ⟨1, _⟩ => rfl
theorem ridx14 (r : Fin 64) (c : Fin 4096) (k : Fin 1024) : idx_main_v13 (ridx_main_v14 (ix2 r c) k) = ix2 c k :=
  funext fun a => match a with | ⟨0, _⟩ => rfl | ⟨1, _⟩ => rfl
theorem idx_bi0 (r : Fin 64) (c : Fin 4096) : idx_main_v16 (idx_main_v17 (ix2 r c)) = ix1 c :=
  funext fun a => match a with | ⟨0, _⟩ => rfl
theorem idx_bh0 (r : Fin 64) (c : Fin 4096) : idx_main_v19 (idx_main_v20 (ix2 r c)) = ix1 c :=
  funext fun a => match a with | ⟨0, _⟩ => rfl

/-- The input product: entry (r, c) of x · W_ihᵀ is the sum over k of x[r, k] · W_ih[c, k]. -/
theorem v12_at (x0 : Ids) (x3 : A2 32000 512) (x4 : A2 4096 512) (X : A2 64 512)
    (he : val_main_v6 (F := Ideal) x0 x3 = X) (r : Fin 64) (c : Fin 4096) :
    val_main_v12 (F := Ideal) x0 x3 x4 (ix2 r c) = ∑ k : Fin 512, X (ix2 r k) * x4 (ix2 c k) := by
  rw [val_main_v12_apply, he]
  exact Finset.sum_congr rfl fun k _ => by rw [val_main_v11_apply, lidx12, ridx12]

/-- The recurrent product: entry (r, c) of h · W_hhᵀ is the sum over k of h[r, k] · W_hh[c, k]. -/
theorem v14_at (x1 : A3 2 64 1024) (x5 : A2 4096 1024) (r : Fin 64) (c : Fin 4096) :
    val_main_v14 (F := Ideal) x1 x5 (ix2 r c) = ∑ k : Fin 1024, Cert.Spec.layer 0 x1 (ix2 r k) * x5 (ix2 c k) := by
  rw [val_main_v14_apply, v8_eq]
  exact Finset.sum_congr rfl fun k _ => by rw [val_main_v13_apply, lidx14, ridx14]

/-- One pre-activation: the two products and the two biases, the biases summed first (addition of extended reals is
    associative). -/
theorem v21_at (x0 : Ids) (x1 : A3 2 64 1024) (x3 : A2 32000 512) (x4 : A2 4096 512) (x5 : A2 4096 1024)
    (x6 x7 : A1 4096) (X : A2 64 512) (he : val_main_v6 (F := Ideal) x0 x3 = X) (r : Fin 64) (c : Fin 4096) :
    val_main_v21 (F := Ideal) x0 x1 x3 x4 x5 x6 x7 (ix2 r c)
      = ((∑ k : Fin 512, X (ix2 r k) * x4 (ix2 c k)) + (∑ k : Fin 1024, Cert.Spec.layer 0 x1 (ix2 r k) * x5 (ix2 c k)))
        + Cert.Spec.bias x6 x7 (ix2 0 c) := by
  rw [val_main_v21_apply, val_main_v18_apply, val_main_v15_apply, v12_at x0 x3 x4 X he, v14_at,
    val_main_v20_apply, val_main_v19_apply, val_main_v17_apply, val_main_v16_apply, idx_bi0, idx_bh0]
  exact add_assoc _ _ _

/-! ## The four column blocks -/

theorem idx_blk0 (r : Fin 64) (n : Fin 1024) : idx_main_v22 (ix2 r n) = ix2 r (Cert.Spec.row 0 n) :=
  funext fun a => match a with
    | ⟨0, _⟩ => rfl
    | ⟨1, _⟩ => Fin.ext (by show n.val = 1024 * 0 + n.val; omega)
theorem idx_blk1 (r : Fin 64) (n : Fin 1024) : idx_main_v23 (ix2 r n) = ix2 r (Cert.Spec.row 1 n) :=
  funext fun a => match a with
    | ⟨0, _⟩ => rfl
    | ⟨1, _⟩ => Fin.ext (by show 1024 + n.val = 1024 * 1 + n.val; omega)
theorem idx_blk2 (r : Fin 64) (n : Fin 1024) : idx_main_v24 (ix2 r n) = ix2 r (Cert.Spec.row 2 n) :=
  funext fun a => match a with
    | ⟨0, _⟩ => rfl
    | ⟨1, _⟩ => Fin.ext (by show 2048 + n.val = 1024 * 2 + n.val; omega)
theorem idx_blk3 (r : Fin 64) (n : Fin 1024) : idx_main_v25 (ix2 r n) = ix2 r (Cert.Spec.row 3 n) :=
  funext fun a => match a with
    | ⟨0, _⟩ => rfl
    | ⟨1, _⟩ => Fin.ext (by show 3072 + n.val = 1024 * 3 + n.val; omega)

/-! ## The four activated gates -/

section Gates0
variable (x0 : Ids) (x1 x2 : A3 2 64 1024) (x3 : A2 32000 512) (x4 : A2 4096 512) (x5 : A2 4096 1024) (x6 x7 : A1 4096)
  (X : A2 64 512) (he : val_main_v6 (F := Ideal) x0 x3 = X)
include he

/-- The input gate: the logistic function of the first column block. -/
theorem gate0_i (r : Fin 64) (n : Fin 1024) :
    val_main_v31 (F := Ideal) x0 x1 x3 x4 x5 x6 x7 (ix2 r n)
      = Cert.Spec.gate0At X (Cert.Spec.layer 0 x1) x4 x5 (Cert.Spec.bias x6 x7) 0 r n := by
  rw [val_main_v31_apply, val_main_v30_apply, val_main_cst_1_apply, val_main_v29_apply, val_main_v28_apply,
    val_main_cst_apply, val_main_v27_apply, val_main_v26_apply, val_main_v22_apply, idx_blk0,
    v21_at x0 x1 x3 x4 x5 x6 x7 X he]
  simp only [Ideal.hostDivf_def, Ideal.addf_def, Ideal.hostUnary_exp_def, Ideal.hostNegf_def, Ideal.negf_def,
    Ideal.ofBits_def, Ideal.ofBits_one_f32]
  exact (act_logistic 0 (by decide) _).symm

/-- The forget gate: the logistic function of the second column block. -/
theorem gate0_f (r : Fin 64) (n : Fin 1024) :
    val_main_v37 (F := Ideal) x0 x1 x3 x4 x5 x6 x7 (ix2 r n)
      = Cert.Spec.gate0At X (Cert.Spec.layer 0 x1) x4 x5 (Cert.Spec.bias x6 x7) 1 r n := by
  rw [val_main_v37_apply, val_main_v36_apply, val_main_cst_3_apply, val_main_v35_apply, val_main_v34_apply,
    val_main_cst_2_apply, val_main_v33_apply, val_main_v32_apply, val_main_v23_apply, idx_blk1,
    v21_at x0 x1 x3 x4 x5 x6 x7 X he]
  simp only [Ideal.hostDivf_def, Ideal.addf_def, Ideal.hostUnary_exp_def, Ideal.hostNegf_def, Ideal.negf_def,
    Ideal.ofBits_def, Ideal.ofBits_one_f32]
  exact (act_logistic 1 (by decide) _).symm

/-- The cell candidate: the hyperbolic tangent of the third column block. -/
theorem gate0_g (r : Fin 64) (n : Fin 1024) :
    val_main_v38 (F := Ideal) x0 x1 x3 x4 x5 x6 x7 (ix2 r n)
      = Cert.Spec.gate0At X (Cert.Spec.layer 0 x1) x4 x5 (Cert.Spec.bias x6 x7) 2 r n := by
  rw [val_main_v38_apply, val_main_v24_apply, idx_blk2, v21_at x0 x1 x3 x4 x5 x6 x7 X he]
  simp only [Ideal.hostUnary_tanh_def]
  exact (act_tanh _).symm

/-- The output gate: the logistic function of the fourth column block. -/
theorem gate0_o (r : Fin 64) (n : Fin 1024) :
    val_main_v44 (F := Ideal) x0 x1 x3 x4 x5 x6 x7 (ix2 r n)
      = Cert.Spec.gate0At X (Cert.Spec.layer 0 x1) x4 x5 (Cert.Spec.bias x6 x7) 3 r n := by
  rw [val_main_v44_apply, val_main_v43_apply, val_main_cst_5_apply, val_main_v42_apply, val_main_v41_apply,
    val_main_cst_4_apply, val_main_v40_apply, val_main_v39_apply, val_main_v25_apply, idx_blk3,
    v21_at x0 x1 x3 x4 x5 x6 x7 X he]
  simp only [Ideal.hostDivf_def, Ideal.addf_def, Ideal.hostUnary_exp_def, Ideal.hostNegf_def, Ideal.negf_def,
    Ideal.ofBits_def, Ideal.ofBits_one_f32]
  exact (act_logistic 3 (by decide) _).symm

/-! ## The new cell state and the new hidden state -/

/-- The first layer's new cell state: f · c + i · g. -/
theorem v47_eq :
    val_main_v47 (F := Ideal) x0 x1 x2 x3 x4 x5 x6 x7
      = Cert.Spec.cellC (Cert.Spec.gates0 X (Cert.Spec.layer 0 x1) x4 x5 (Cert.Spec.bias x6 x7)) (Cert.Spec.layer 0 x2) := by
  funext j
  obtain ⟨r, n, rfl⟩ : ∃ (r : Fin 64) (n : Fin 1024), j = ix2 r n := ⟨j 0, j 1, eq_ix2 j⟩
  rw [val_main_v47_apply, val_main_v45_apply, val_main_v46_apply, gate0_f x0 x1 x3 x4 x5 x6 x7 X he,
    gate0_i x0 x1 x3 x4 x5 x6 x7 X he, gate0_g x0 x1 x3 x4 x5 x6 x7 X he, v10_eq]
  rfl

/-- The first layer's new hidden state: o · tanh of the new cell state. -/
theorem v49_eq :
    val_main_v49 (F := Ideal) x0 x1 x2 x3 x4 x5 x6 x7
      = Cert.Spec.cellH (Cert.Spec.gates0 X (Cert.Spec.layer 0 x1) x4 x5 (Cert.Spec.bias x6 x7)) (Cert.Spec.layer 0 x2) := by
  funext j
  obtain ⟨r, n, rfl⟩ : ∃ (r : Fin 64) (n : Fin 1024), j = ix2 r n := ⟨j 0, j 1, eq_ix2 j⟩
  rw [val_main_v49_apply, val_main_v48_apply, gate0_o x0 x1 x3 x4 x5 x6 x7 X he, v47_eq x0 x1 x2 x3 x4 x5 x6 x7 X he]
  rfl

end Gates0

end Cert.ReferenceIdeal.RefVal

end
-- ==== Proof.RefValL1.lean ====
import proofs.«405273_j36395552866595_3_alg».proof.Proof.Gen.ReferenceIdeal.Read
import proofs.«405273_j36395552866595_3_alg».proof.Proof.Spec
import Idealize.ShloMosaic.Lib.IdealHost

noncomputable section

/-! # The reference's second layer, stage by stage

The second LSTM layer reads the first layer's new hidden state where the first read the embedding rows, and layer 1 of
the two states. Each stage, read an index at a time, is the specification's function of the same arguments; the
first layer's new hidden state enters as a hypothesis: it is some array H0. -/
namespace Cert.ReferenceIdeal.RefVal

open Cert.ReferenceIdeal Cert.ReferenceIdeal.Read Idealize.ShloMosaic Idealize.ShloMosaic.ValueIdx
open Cert.Spec (A1 A2 A3 Ids)

/-! ## Activations -/

/-- At a gate other than the cell candidate the activation is the logistic function, spelt 1 / (1 + e^(-z)). -/
theorem act1_logistic (g : Fin 4) (hg : g.val ≠ 2) (z : EReal) :
    Cert.Spec.act g z = Ideal.div 1 (1 + Ideal.exp (-z)) := by
  unfold Cert.Spec.act; rw [if_neg hg]; rfl

/-- At the cell candidate the activation is the hyperbolic tangent. -/
theorem act1_tanh (z : EReal) : Cert.Spec.act 2 z = Ideal.tanh z := by
  unfold Cert.Spec.act; exact if_pos rfl

/-! ## Layer 1 of the two states -/

/-- Position 1024 r + n of the flattened second 1 × 64 × 1024 slice is row r, column n of layer 1. -/
theorem idx_layer1 (r : Fin 64) (n : Fin 1024) : idx_main_v50 (idx_main_v51 (ix2 r n)) = ix3 1 r n :=
  funext fun a => match a with
    | ⟨0, _⟩ => rfl
    | ⟨1, _⟩ => Fin.ext (by
        have hr := r.isLt; have hn := n.isLt
        show (r.val * 1024 + n.val) / 1024 % 64 = r.val; omega)
    | ⟨2, _⟩ => Fin.ext (by
        have hr := r.isLt; have hn := n.isLt
        show (r.val * 1024 + n.val) % 1024 = n.val; omega)

/-- The same for the cell state's slice. -/
theorem idx_layer1' (r : Fin 64) (n : Fin 1024) : idx_main_v52 (idx_main_v53 (ix2 r n)) = ix3 1 r n :=
  funext fun a => match a with
    | ⟨0, _⟩ => rfl
    | ⟨1, _⟩ => Fin.ext (by
        have hr := r.isLt; have hn := n.isLt
        show (r.val * 1024 + n.val) / 1024 % 64 = r.val; omega)
    | ⟨2, _⟩ => Fin.ext (by
        have hr := r.isLt; have hn := n.isLt
        show (r.val * 1024 + n.val) % 1024 = n.val; omega)

/-- The hidden state's second slice, reshaped, is its layer 1. -/
theorem v51_eq (x1 : A3 2 64 1024) : val_main_v51 (F := Ideal) x1 = Cert.Spec.layer 1 x1 := by
  funext j
  obtain ⟨r, n, rfl⟩ : ∃ (r : Fin 64) (n : Fin 1024), j = ix2 r n := ⟨j 0, j 1, eq_ix2 j⟩
  rw [val_main_v51_apply, val_main_v50_apply, idx_layer1]
  rfl

/-- The cell state's second slice, reshaped, is its layer 1. -/
theorem v53_eq (x2 : A3 2 64 1024) : val_main_v53 (F := Ideal) x2 = Cert.Spec.layer 1 x2 := by
  funext j
  obtain ⟨r, n, rfl⟩ : ∃ (r : Fin 64) (n : Fin 1024), j = ix2 r n := ⟨j 0, j 1, eq_ix2 j⟩
  rw [val_main_v53_apply, val_main_v52_apply, idx_layer1']
  rfl

/-! ## The pre-activations: one entry of h0 · W_ihᵀ + h · W_hhᵀ + b_ih + b_hh -/

theorem lidx55 (r : Fin 64) (c : Fin 4096) (k : Fin 1024) : lidx_main_v55 (ix2 r c) k = ix2 r k :=
  funext fun a => match a with | ⟨0, _⟩ => rfl | ⟨1, _⟩ => rfl
theorem ridx55 (r : Fin 64) (c : Fin 4096) (k : Fin 1024) : idx_main_v54 (ridx_main_v55 (ix2 r c) k) = ix2 c k :=
  funext fun a => match a with | ⟨0, _⟩ => rfl | ⟨1, _⟩ => rfl
theorem lidx57 (r : Fin 64) (c : Fin 4096) (k : Fin 1024) : lidx_main_v57 (ix2 r c) k = ix2 r k :=
  funext fun a => match a with | ⟨0, _⟩ => rfl | ⟨1, _⟩ => rfl
theorem ridx57 (r : Fin 64) (c : Fin 4096) (k : Fin 1024) : idx_main_v56 (ridx_main_v57 (ix2 r c) k) = ix2 c k :=
  funext fun a => match a with | ⟨0, _⟩ => rfl | ⟨1, _⟩ => rfl
theorem idx_bi1 (r : Fin 64) (c : Fin 4096) : idx_main_v59 (idx_main_v60 (ix2 r c)) = ix1 c :=
  funext fun a => match a with | ⟨0, _⟩ => rfl
theorem idx_bh1 (r : Fin 64) (c : Fin 4096) : idx_main_v62 (idx_main_v63 (ix2 r c)) = ix1 c :=
  funext fun a => match a with | ⟨0, _⟩ => rfl

/-- The recurrent product: entry (r, c) of h · W_hhᵀ is the sum over k of h[r, k] · W_hh[c, k]. -/
theorem v57_at (x1 : A3 2 64 1024) (x9 : A2 4096 1024) (r : Fin 64) (c : Fin 4096) :
    val_main_v57 (F := Ideal) x1 x9 (ix2 r c) = ∑ k : Fin 1024, Cert.Spec.layer 1 x1 (ix2 r k) * x9 (ix2 c k) := by
  rw [val_main_v57_apply, v51_eq]
  exact Finset.sum_congr rfl fun k _ => by rw [val_main_v56_apply, lidx57, ridx57]

theorem idx_blk1_0 (r : Fin 64) (n : Fin 1024) : idx_main_v65 (ix2 r n) = ix2 r (Cert.Spec.row 0 n) :=
  funext fun a => match a with
    | ⟨0, _⟩ => rfl
    | ⟨1, _⟩ => Fin.ext (by show n.val = 1024 * 0 + n.val; omega)
theorem idx_blk1_1 (r : Fin 64) (n : Fin 1024) : idx_main_v66 (ix2 r n) = ix2 r (Cert.Spec.row 1 n) :=
  funext fun a => match a with
    | ⟨0, _⟩ => rfl
    | ⟨1, _⟩ => Fin.ext (by show 1024 + n.val = 1024 * 1 + n.val; omega)
theorem idx_blk1_2 (r : Fin 64) (n : Fin 1024) : idx_main_v67 (ix2 r n) = ix2 r (Cert.Spec.row 2 n) :=
  funext fun a => match a with
    | ⟨0, _⟩ => rfl
    | ⟨1, _⟩ => Fin.ext (by show 2048 + n.val = 1024 * 2 + n.val; omega)
theorem idx_blk1_3 (r : Fin 64) (n : Fin 1024) : idx_main_v68 (ix2 r n) = ix2 r (Cert.Spec.row 3 n) :=
  funext fun a => match a with
    | ⟨0, _⟩ => rfl
    | ⟨1, _⟩ => Fin.ext (by show 3072 + n.val = 1024 * 3 + n.val; omega)

section Layer1
variable (x0 : Ids) (x1 x2 : A3 2 64 1024) (x3 : A2 32000 512) (x4 : A2 4096 512) (x5 : A2 4096 1024) (x6 x7 : A1 4096)
  (x8 x9 : A2 4096 1024) (x10 x11 : A1 4096)
  (H0 : A2 64 1024) (hh : val_main_v49 (F := Ideal) x0 x1 x2 x3 x4 x5 x6 x7 = H0)
include hh

/-- The input product: entry (r, c) of h0 · W_ihᵀ is the sum over k of h0[r, k] · W_ih[c, k]. -/
theorem v55_at (r : Fin 64) (c : Fin 4096) :
    val_main_v55 (F := Ideal) x0 x1 x2 x3 x4 x5 x6 x7 x8 (ix2 r c) = ∑ k : Fin 1024, H0 (ix2 r k) * x8 (ix2 c k) := by
  rw [val_main_v55_apply, hh]
  exact Finset.sum_congr rfl fun k _ => by rw [val_main_v54_apply, lidx55, ridx55]

/-- One pre-activation: the two products and the two biases, the biases summed first (addition of extended reals is
    associative). -/
theorem v64_at (r : Fin 64) (c : Fin 4096) :
    val_main_v64 (F := Ideal) x0 x1 x2 x3 x4 x5 x6 x7 x8 x9 x10 x11 (ix2 r c)
      = ((∑ k : Fin 1024, H0 (ix2 r k) * x8 (ix2 c k)) + (∑ k : Fin 1024, Cert.Spec.layer 1 x1 (ix2 r k) * x9 (ix2 c k)))
        + Cert.Spec.bias x10 x11 (ix2 0 c) := by
  rw [val_main_v64_apply, val_main_v61_apply, val_main_v58_apply, v55_at x0 x1 x2 x3 x4 x5 x6 x7 x8 H0 hh, v57_at,
    val_main_v63_apply, val_main_v62_apply, val_main_v60_apply, val_main_v59_apply, idx_bi1, idx_bh1]
  exact add_assoc _ _ _

/-! ## The four activated gates -/

/-- The input gate: the logistic function of the first column block. -/
theorem gate1_i (r : Fin 64) (n : Fin 1024) :
    val_main_v74 (F := Ideal) x0 x1 x2 x3 x4 x5 x6 x7 x8 x9 x10 x11 (ix2 r n)
      = Cert.Spec.gate1At H0 (Cert.Spec.layer 1 x1) x8 x9 (Cert.Spec.bias x10 x11) 0 r n := by
  rw [val_main_v74_apply, val_main_v73_apply, val_main_cst_7_apply, val_main_v72_apply, val_main_v71_apply,
    val_main_cst_6_apply, val_main_v70_apply, val_main_v69_apply, val_main_v65_apply, idx_blk1_0,
    v64_at x0 x1 x2 x3 x4 x5 x6 x7 x8 x9 x10 x11 H0 hh]
  simp only [Ideal.hostDivf_def, Ideal.addf_def, Ideal.hostUnary_exp_def, Ideal.hostNegf_def, Ideal.negf_def,
    Ideal.ofBits_def, Ideal.ofBits_one_f32]
  exact (act1_logistic 0 (by decide) _).symm

/-- The forget gate: the logistic function of the second column block. -/
theorem gate1_f (r : Fin 64) (n : Fin 1024) :
    val_main_v80 (F := Ideal) x0 x1 x2 x3 x4 x5 x6 x7 x8 x9 x10 x11 (ix2 r n)
      = Cert.Spec.gate1At H0 (Cert.Spec.layer 1 x1) x8 x9 (Cert.Spec.bias x10 x11) 1 r n := by
  rw [val_main_v80_apply, val_main_v79_apply, val_main_cst_9_apply, val_main_v78_apply, val_main_v77_apply,
    val_main_cst_8_apply, val_main_v76_apply, val_main_v75_apply, val_main_v66_apply, idx_blk1_1,
    v64_at x0 x1 x2 x3 x4 x5 x6 x7 x8 x9 x10 x11 H0 hh]
  simp only [Ideal.hostDivf_def, Ideal.addf_def, Ideal.hostUnary_exp_def, Ideal.hostNegf_def, Ideal.negf_def,
    Ideal.ofBits_def, Ideal.ofBits_one_f32]
  exact (act1_logistic 1 (by decide) _).symm

/-- The cell candidate: the hyperbolic tangent of the third column block. -/
theorem gate1_g (r : Fin 64) (n : Fin 1024) :
    val_main_v81 (F := Ideal) x0 x1 x2 x3 x4 x5 x6 x7 x8 x9 x10 x11 (ix2 r n)
      = Cert.Spec.gate1At H0 (Cert.Spec.layer 1 x1) x8 x9 (Cert.Spec.bias x10 x11) 2 r n := by
  rw [val_main_v81_apply, val_main_v67_apply, idx_blk1_2, v64_at x0 x1 x2 x3 x4 x5 x6 x7 x8 x9 x10 x11 H0 hh]
  simp only [Ideal.hostUnary_tanh_def]
  exact (act1_tanh _).symm

/-- The output gate: the logistic function of the fourth column block. -/
theorem gate1_o (r : Fin 64) (n : Fin 1024) :
    val_main_v87 (F := Ideal) x0 x1 x2 x3 x4 x5 x6 x7 x8 x9 x10 x11 (ix2 r n)
      = Cert.Spec.gate1At H0 (Cert.Spec.layer 1 x1) x8 x9 (Cert.Spec.bias x10 x11) 3 r n := by
  rw [val_main_v87_apply, val_main_v86_apply, val_main_cst_11_apply, val_main_v85_apply, val_main_v84_apply,
    val_main_cst_10_apply, val_main_v83_apply, val_main_v82_apply, val_main_v68_apply, idx_blk1_3,
    v64_at x0 x1 x2 x3 x4 x5 x6 x7 x8 x9 x10 x11 H0 hh]
  simp only [Ideal.hostDivf_def, Ideal.addf_def, Ideal.hostUnary_exp_def, Ideal.hostNegf_def, Ideal.negf_def,
    Ideal.ofBits_def, Ideal.ofBits_one_f32]
  exact (act1_logistic 3 (by decide) _).symm

/-! ## The new cell state and the new hidden state -/

/-- The second layer's new cell state: f · c + i · g. -/
theorem v90_eq :
    val_main_v90 (F := Ideal) x0 x1 x2 x3 x4 x5 x6 x7 x8 x9 x10 x11
      = Cert.Spec.cellC (Cert.Spec.gates1 H0 (Cert.Spec.layer 1 x1) x8 x9 (Cert.Spec.bias x10 x11)) (Cert.Spec.layer 1 x2) := by
  funext j
  obtain ⟨r, n, rfl⟩ : ∃ (r : Fin 64) (n : Fin 1024), j = ix2 r n := ⟨j 0, j 1, eq_ix2 j⟩
  rw [val_main_v90_apply, val_main_v88_apply, val_main_v89_apply, gate1_f x0 x1 x2 x3 x4 x5 x6 x7 x8 x9 x10 x11 H0 hh,
    gate1_i x0 x1 x2 x3 x4 x5 x6 x7 x8 x9 x10 x11 H0 hh, gate1_g x0 x1 x2 x3 x4 x5 x6 x7 x8 x9 x10 x11 H0 hh, v53_eq]
  rfl

/-- The second layer's new hidden state: o · tanh of the new cell state. -/
theorem v92_eq :
    val_main_v92 (F := Ideal) x0 x1 x2 x3 x4 x5 x6 x7 x8 x9 x10 x11
      = Cert.Spec.cellH (Cert.Spec.gates1 H0 (Cert.Spec.layer 1 x1) x8 x9 (Cert.Spec.bias x10 x11)) (Cert.Spec.layer 1 x2) := by
  funext j
  obtain ⟨r, n, rfl⟩ : ∃ (r : Fin 64) (n : Fin 1024), j = ix2 r n := ⟨j 0, j 1, eq_ix2 j⟩
  rw [val_main_v92_apply, val_main_v91_apply, gate1_o x0 x1 x2 x3 x4 x5 x6 x7 x8 x9 x10 x11 H0 hh,
    v90_eq x0 x1 x2 x3 x4 x5 x6 x7 x8 x9 x10 x11 H0 hh]
  rfl

end Layer1

end Cert.ReferenceIdeal.RefVal

end
-- ==== Proof.RefValOut.lean ====
import proofs.«405273_j36395552866595_3_alg».proof.Proof.Gen.ReferenceIdeal.Read
import proofs.«405273_j36395552866595_3_alg».proof.Proof.Spec
import Idealize.ShloMosaic.Lib.IdealHost

noncomputable section

/-! # The reference's three results

The two stacked states are the two layers' new states joined along a new leading axis, and the logits are the second
layer's new hidden state times the transposed projection matrix plus the projection bias. The layers' new states
enter as hypotheses: each is some array. -/
namespace Cert.ReferenceIdeal.RefVal

open Cert.ReferenceIdeal Cert.ReferenceIdeal.Read Idealize.ShloMosaic Idealize.ShloMosaic.ValueIdx
open Cert.Spec (A1 A2 A3 Ids)

/-! ## Two layers stacked -/

/-- A matrix given a leading unit axis reads, at (0, r, n), its entry (r, n). -/
theorem idx_unit93 (r : Fin 64) (n : Fin 1024) : idx_main_v93 (ix3 (0 : Fin 1) r n) = ix2 r n :=
  funext fun a => match a with | ⟨0, _⟩ => rfl | ⟨1, _⟩ => rfl
theorem idx_unit94 (r : Fin 64) (n : Fin 1024) : idx_main_v94 (ix3 (0 : Fin 1) r n) = ix2 r n :=
  funext fun a => match a with | ⟨0, _⟩ => rfl | ⟨1, _⟩ => rfl
theorem idx_unit96 (r : Fin 64) (n : Fin 1024) : idx_main_v96 (ix3 (0 : Fin 1) r n) = ix2 r n :=
  funext fun a => match a with | ⟨0, _⟩ => rfl | ⟨1, _⟩ => rfl
theorem idx_unit97 (r : Fin 64) (n : Fin 1024) : idx_main_v97 (ix3 (0 : Fin 1) r n) = ix2 r n :=
  funext fun a => match a with | ⟨0, _⟩ => rfl | ⟨1, _⟩ => rfl

/-- Two 1 × 64 × 1024 pieces joined along the leading axis: at (l, r, n) the first piece's entry when l = 0 and the
    second piece's when l = 1, each read at (0, r, n). -/
theorem join_at (p q : (⟨S1x64x1024, .f32⟩ : BufTy).Contents (Elt Ideal)) (l : Fin 2) (r : Fin 64) (n : Fin 1024) :
    concatenate S2x64x1024 0 [⟨S1x64x1024, p⟩, ⟨S1x64x1024, q⟩] Gen.concatenates_S1x64x1024_S1x64x1024_S2x64x1024_d0
        (ix3 l r n)
      = if l.val = 0 then p (ix3 (0 : Fin 1) r n) else q (ix3 (0 : Fin 1) r n) := by
  by_cases hl : l.val = 0
  · rw [if_pos hl]
    exact concatenate_pair_apply_left (0 : Fin S2x64x1024.rank) p q _ (ix3 l r n) rfl (ix3 (0 : Fin 1) r n)
      (fun b => match b with
        | ⟨0, _⟩ => hl.symm
        | ⟨1, _⟩ => rfl
        | ⟨2, _⟩ => rfl)
  · rw [if_neg hl]
    exact concatenate_pair_apply_right (0 : Fin S2x64x1024.rank) p q _ (ix3 l r n) rfl rfl (ix3 (0 : Fin 1) r n)
      (fun b => match b with
        | ⟨0, _⟩ => fun hne => absurd rfl hne
        | ⟨1, _⟩ => fun _ => rfl
        | ⟨2, _⟩ => fun _ => rfl)
      (by have h2 := l.isLt; show 0 + 1 = l.val; omega)

section Stack
variable (x0 : Ids) (x1 x2 : A3 2 64 1024) (x3 : A2 32000 512) (x4 : A2 4096 512) (x5 : A2 4096 1024) (x6 x7 : A1 4096)
  (x8 x9 : A2 4096 1024) (x10 x11 : A1 4096) (x12 : A2 32000 1024) (x13 : A1 32000)

/-- The new hidden states of the two layers, stacked. -/
theorem v95_eq (H0 H1 : A2 64 1024) (hh0 : val_main_v49 (F := Ideal) x0 x1 x2 x3 x4 x5 x6 x7 = H0)
    (hh1 : val_main_v92 (F := Ideal) x0 x1 x2 x3 x4 x5 x6 x7 x8 x9 x10 x11 = H1) :
    val_main_v95 (F := Ideal) x0 x1 x2 x3 x4 x5 x6 x7 x8 x9 x10 x11 = Cert.Spec.stack H0 H1 := by
  funext j
  obtain ⟨l, r, n, rfl⟩ : ∃ (l : Fin 2) (r : Fin 64) (n : Fin 1024), j = ix3 l r n := ⟨j 0, j 1, j 2, eq_ix3 j⟩
  unfold val_main_v95
  rw [join_at, val_main_v93_apply, val_main_v94_apply, idx_unit93, idx_unit94, hh0, hh1]
  rfl

/-- The new cell states of the two layers, stacked. -/
theorem v98_eq (C0 C1 : A2 64 1024) (hc0 : val_main_v47 (F := Ideal) x0 x1 x2 x3 x4 x5 x6 x7 = C0)
    (hc1 : val_main_v90 (F := Ideal) x0 x1 x2 x3 x4 x5 x6 x7 x8 x9 x10 x11 = C1) :
    val_main_v98 (F := Ideal) x0 x1 x2 x3 x4 x5 x6 x7 x8 x9 x10 x11 = Cert.Spec.stack C0 C1 := by
  funext j
  obtain ⟨l, r, n, rfl⟩ : ∃ (l : Fin 2) (r : Fin 64) (n : Fin 1024), j = ix3 l r n := ⟨j 0, j 1, j 2, eq_ix3 j⟩
  unfold val_main_v98
  rw [join_at, val_main_v96_apply, val_main_v97_apply, idx_unit96, idx_unit97, hc0, hc1]
  rfl

/-! ## The projection onto the vocabulary -/

theorem lidx100 (r : Fin 64) (c : Fin 32000) (k : Fin 1024) : lidx_main_v100 (ix2 r c) k = ix2 r k :=
  funext fun a => match a with | ⟨0, _⟩ => rfl | ⟨1, _⟩ => rfl
theorem ridx100 (r : Fin 64) (c : Fin 32000) (k : Fin 1024) : idx_main_v99 (ridx_main_v100 (ix2 r c) k) = ix2 c k :=
  funext fun a => match a with | ⟨0, _⟩ => rfl | ⟨1, _⟩ => rfl
theorem idx_fb (r : Fin 64) (c : Fin 32000) : idx_main_v101 (idx_main_v102 (ix2 r c)) = ix1 c :=
  funext fun a => match a with | ⟨0, _⟩ => rfl

/-- The logits: entry (r, c) is the sum over k of h1[r, k] · W[c, k], plus the bias at c. -/
theorem v103_eq (H1 : A2 64 1024) (hh1 : val_main_v92 (F := Ideal) x0 x1 x2 x3 x4 x5 x6 x7 x8 x9 x10 x11 = H1) :
    val_main_v103 (F := Ideal) x0 x1 x2 x3 x4 x5 x6 x7 x8 x9 x10 x11 x12 x13
      = Cert.Spec.logits H1 x12 (Cert.Spec.rowB x13) := by
  funext j
  obtain ⟨r, c, rfl⟩ : ∃ (r : Fin 64) (c : Fin 32000), j = ix2 r c := ⟨j 0, j 1, eq_ix2 j⟩
  rw [val_main_v103_apply, val_main_v100_apply, hh1, val_main_v102_apply, val_main_v101_apply, idx_fb]
  have e : (∑ k : Fin 1024, H1 (lidx_main_v100 (ix2 r c) k) * val_main_v99 (F := Ideal) x12 (ridx_main_v100 (ix2 r c) k))
      = ∑ k : Fin 1024, H1 (ix2 r k) * x12 (ix2 c k) :=
    Finset.sum_congr rfl fun k _ => by rw [val_main_v99_apply, lidx100, ridx100]
  rw [e]
  rfl

end Stack

end Cert.ReferenceIdeal.RefVal

end
-- ==== Proof.RefVal.lean ====
import proofs.«405273_j36395552866595_3_alg».proof.Proof.Gen.ReferenceIdeal.Run
import proofs.«405273_j36395552866595_3_alg».proof.Proof.Gen.ReferenceIdeal.Read
import proofs.«405273_j36395552866595_3_alg».proof.Proof.Spec
import proofs.«405273_j36395552866595_3_alg».proof.Proof.RefValL0
import proofs.«405273_j36395552866595_3_alg».proof.Proof.RefValL1
import proofs.«405273_j36395552866595_3_alg».proof.Proof.RefValOut
import proofs.«405273_j36395552866595_3_alg».proof.Proof.GatherRows

noncomputable section

/-! The reference's run: its three results are the specification's three results at the arguments it was launched with,
    provided every token id is non-negative. -/
namespace Cert.ReferenceIdeal.RefVal

open Cert.ReferenceIdeal
open Idealize.ShloMosaic Idealize.ShloMosaic.TcCoe Idealize.SL.Sem

/-! ## The three results as functions of the fourteen arguments

The stages chain: the embedding rows feed the first layer, its new hidden state feeds the second, whose new hidden
state feeds the projection; the composed terms are the specification's three functions by definition. -/
section Results
variable (x0 : Cert.Spec.Ids) (x1 x2 : Cert.Spec.A3 2 64 1024) (x3 : Cert.Spec.A2 32000 512) (x4 : Cert.Spec.A2 4096 512)
  (x5 : Cert.Spec.A2 4096 1024) (x6 x7 : Cert.Spec.A1 4096) (x8 x9 : Cert.Spec.A2 4096 1024) (x10 x11 : Cert.Spec.A1 4096)
  (x12 : Cert.Spec.A2 32000 1024) (x13 : Cert.Spec.A1 32000)
  (he : Read.val_main_v6 (F := Ideal) x0 x3 = Cert.Spec.embed x3 x0)
include he

/-- The logits the reference computes are the specification's. -/
theorem logits_eq :
    Read.val_main_v103 (F := Ideal) x0 x1 x2 x3 x4 x5 x6 x7 x8 x9 x10 x11 x12 x13 = Cert.Spec.outLogits x0 x1 x2 x3 x4 x5 x6 x7 x8 x9 x10 x11 x12 x13 :=
  v103_eq x0 x1 x2 x3 x4 x5 x6 x7 x8 x9 x10 x11 x12 x13 _ (v92_eq x0 x1 x2 x3 x4 x5 x6 x7 x8 x9 x10 x11 _ (v49_eq x0 x1 x2 x3 x4 x5 x6 x7 _ he))

/-- The stacked hidden states the reference computes are the specification's. -/
theorem outH_eq :
    Read.val_main_v95 (F := Ideal) x0 x1 x2 x3 x4 x5 x6 x7 x8 x9 x10 x11 = Cert.Spec.outH x0 x1 x2 x3 x4 x5 x6 x7 x8 x9 x10 x11 :=
  v95_eq x0 x1 x2 x3 x4 x5 x6 x7 x8 x9 x10 x11 _ _ (v49_eq x0 x1 x2 x3 x4 x5 x6 x7 _ he) (v92_eq x0 x1 x2 x3 x4 x5 x6 x7 x8 x9 x10 x11 _ (v49_eq x0 x1 x2 x3 x4 x5 x6 x7 _ he))

/-- The stacked cell states the reference computes are the specification's. -/
theorem outC_eq :
    Read.val_main_v98 (F := Ideal) x0 x1 x2 x3 x4 x5 x6 x7 x8 x9 x10 x11 = Cert.Spec.outC x0 x1 x2 x3 x4 x5 x6 x7 x8 x9 x10 x11 :=
  v98_eq x0 x1 x2 x3 x4 x5 x6 x7 x8 x9 x10 x11 _ _ (v47_eq x0 x1 x2 x3 x4 x5 x6 x7 _ he) (v90_eq x0 x1 x2 x3 x4 x5 x6 x7 x8 x9 x10 x11 _ (v49_eq x0 x1 x2 x3 x4 x5 x6 x7 _ he))

end Results

/-- The step's three results at the arguments core `c` was launched with. -/
abbrev lg (m : (ℓ : Loc nD τ sig) → Buf (Elt Ideal) ℓ) (c : Dev nD) : Cert.Spec.A2 64 32000 := Cert.Spec.outLogits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
abbrev hN (m : (ℓ : Loc nD τ sig) → Buf (Elt Ideal) ℓ) (c : Dev nD) : Cert.Spec.A3 2 64 1024 := Cert.Spec.outH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
abbrev cN (m : (ℓ : Loc nD τ sig) → Buf (Elt Ideal) ℓ) (c : Dev nD) : Cert.Spec.A3 2 64 1024 := Cert.Spec.outC (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

theorem run [Cert.ReferenceIdeal.Facts] (m : (ℓ : Loc nD τ sig) → Buf (Elt Ideal) ℓ) (ρ : Dev nD → PrngReg)
    (hidx : ∀ (c : Dev nD) (i : S64.Idx), 0 ≤ (m ((c.tc : Thread nD τ).loc main_arg0) i).toInt) :
    θ_run (defs (F := Ideal)) (onTc (τ := τ) (main (F := Ideal))) ⟨m, fun _ => 0, ρ⟩ (fun r => ∀ c : Dev nD,
      r.2.mem ((c.tc : Thread nD τ).loc main_v103) = lg m c
      ∧ r.2.mem ((c.tc : Thread nD τ).loc main_v95) = hN m c
      ∧ r.2.mem ((c.tc : Thread nD τ).loc main_v98) = cN m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine (θ_run (defs (F := Ideal)) _ _).mono (fun r h c => ?_) (Cert.ReferenceIdeal.Value.run (F := Ideal) m ρ)
  have he : Read.val_main_v6 (F := Ideal) (m ((c.tc : Thread nD τ).loc main_arg0)) (m ((c.tc : Thread nD τ).loc main_arg3))
      = Cert.Spec.embed (m ((c.tc : Thread nD τ).loc main_arg3)) (m ((c.tc : Thread nD τ).loc main_arg0)) :=
    Cert.ReferenceIdeal.embed_eq _ _ (hidx c)
  exact ⟨(h c).1.trans ((Read.val_main_v103_eq m c).trans (logits_eq _ _ _ _ _ _ _ _ _ _ _ _ _ _ he)),
    (h c).2.1.trans ((Read.val_main_v95_eq m c).trans (outH_eq _ _ _ _ _ _ _ _ _ _ _ _ he)),
    (h c).2.2.1.trans ((Read.val_main_v98_eq m c).trans (outC_eq _ _ _ _ _ _ _ _ _ _ _ _ he)),
    (h c).2.2.2⟩

end Cert.ReferenceIdeal.RefVal

end
-- ==== Proof.PreIdx.lean ====
import proofs.«405273_j36395552866595_3_alg».proof.Pre_finite_inputs
import proofs.«405273_j36395552866595_3_alg».proof.Proof.Gen.Pre_finite_inputs
import Idealize.ShloMosaic.Lib.ReduceAll
import Idealize.ShloMosaic.Lib.ValueIdx

/-! # The precondition's last conjunct: every token id is non-negative

The precondition is a conjunction (a chain of one-bit `and`s) whose last member is the `and`-reduction, over all 64
lanes, of the signed comparison `id ≥ 0`. If the whole conjunction is 1, that member is 1, so every lane of the
comparison is 1, and a lane is 1 exactly when the id there is non-negative as a signed 32-bit integer. Only integer
operations are read, so the statement holds over any float instance. -/

namespace Cert.PreIdx

open Idealize.ShloMosaic Cert.Pre_finite_inputs

/-- The scalar shape has one index. -/
instance subsingleton_scalar_idx : Subsingleton S_.Idx := ⟨fun _ _ => funext fun d => d.elim0⟩

/-- The signed comparison `x ≥ 0` answers 1 exactly when `x` is non-negative as a signed integer. -/
theorem sge_zero_iff (x : BitVec 32) : IntOp.cmpi .sge x 0#32 = 1#1 ↔ 0 ≤ x.toInt := by
  show BitVec.ofBool ((0#32 : BitVec 32).sle x) = 1#1 ↔ 0 ≤ x.toInt
  cases hb : (0#32 : BitVec 32).sle x
  · have hlt : ¬ (0#32 : BitVec 32).toInt ≤ x.toInt := by
      intro hle
      have : (0#32 : BitVec 32).sle x = true := by unfold BitVec.sle; exact decide_eq_true hle
      rw [hb] at this; exact Bool.noConfusion this
    rw [BitVec.toInt_zero] at hlt
    exact ⟨fun h => absurd h (by decide), fun h => absurd h hlt⟩
  · have hle : (0#32 : BitVec 32).toInt ≤ x.toInt := by
      unfold BitVec.sle at hb; exact of_decide_eq_true hb
    rw [BitVec.toInt_zero] at hle
    exact ⟨fun _ => hle, fun _ => rfl⟩

/-- If the precondition holds, every token id is non-negative. -/
theorem nonneg {F : FTy → Type} [FloatOps F] [Cert.Pre_finite_inputs.Facts]
    (a0 : IVec S64 32) (a1 : FVec F S2x64x1024 .f32) (a2 : FVec F S2x64x1024 .f32) (a3 : FVec F S32000x512 .f32)
    (a4 : FVec F S4096x512 .f32) (a5 : FVec F S4096x1024 .f32) (a6 : FVec F S4096 .f32) (a7 : FVec F S4096 .f32)
    (a8 : FVec F S4096x1024 .f32) (a9 : FVec F S4096x1024 .f32) (a10 : FVec F S4096 .f32) (a11 : FVec F S4096 .f32)
    (a12 : FVec F S32000x1024 .f32) (a13 : FVec F S32000 .f32)
    (h : Cert.Pre_finite_inputs.fn (F := F) a0 a1 a2 a3 a4 a5 a6 a7 a8 a9 a10 a11 a12 a13 = fun _ => 1#1) :
    ∀ i, 0 ≤ (a0 i).toInt := by
  intro i
  have h0 := congrFun h ValueIdx.ix0
  dsimp only [fn, fn_part1, fn_part2, fn_part3] at h0
  -- the whole conjunction is one `and` of everything before with the lanes' reduction
  have hlast := (IntOp.andi_eq_one.1 h0).2
  -- every lane of the comparison is 1
  have hlane := Host.reduce_andi_all _ _ _ _ _ hlast i
  exact (sge_zero_iff (a0 i)).1 hlane

end Cert.PreIdx
-- ==== Proof.lean ====
/- One decoding step of a two-layer LSTM language model, as three TPU kernels, against its plain jnp reference.

   THE PROGRAMS. The token ids pick rows of the embedding table (on the host); each LSTM layer's four gates are computed by a
   kernel with one grid point per gate — point g forms x · W_ihᵀ + h · W_hhᵀ + (b_ih + b_hh) over gate g's slab of the
   weights and applies the hyperbolic tangent at the cell candidate (g = 2) and the logistic function at the other three —;
   the host combines them, c' = f · c + i · g and h' = o · tanh c'; a third kernel projects the second layer's new hidden
   state onto the vocabulary, 3200 columns per grid point. The reference computes the same with whole-matrix products,
   adds the two biases one after the other, and spells the logistic function as 1 / (1 + exp (−z)).

   THE PRECONDITION. Every float input is finite and every token id is non-negative. The second conjunct is needed: the
   kernel clips an id to [0, 31999] before the lookup while the reference lets a negative id count from the table's end,
   so at id −1 the two read rows 0 and 31999. From 0 upward the two agree (both read row min(id, 31999)).

   THE FRAMES. Each kernel program runs as its host stretches and its three pipelined regions in order. A region's proof
   data says what its body leaves in every staging buffer at a grid point: the inputs as fetched, the output block at the
   activated gate (or the projected tile) of the input blocks. The gate kernel's body takes exactly one of its two branches
   at every point, which is decided over the four points. The run ends with every buffer at the launch contents carried
   through the host stretches, each region's output array replaced by what its write-backs leave; no item writes an
   argument. The reference's frame is its run with the results dropped.

   THE VALUES. Over the extended reals a change of float format is the identity, a matrix product into a zero accumulator
   is the sum over k of the products, and the logistic function is 1 / (1 + exp (−z)) by definition; addition is associative
   and commutative there, which is all that regrouping the two biases needs (finiteness is never used). Block g of the
   gates array is what point g wrote and the blocks cover it, so the array is the stacked activated gates; likewise the
   logits' column tiles. Both programs' three results are then the same functions of the fourteen arguments
   (the specification, Proof/Spec.lean), and arguments that agree give equal results. -/
import proofs.«405273_j36395552866595_3_alg».proof.Defs
import proofs.«405273_j36395552866595_3_alg».proof.Proof.Gen.Kernel
import proofs.«405273_j36395552866595_3_alg».proof.Proof.Gen.KernelIdeal
import proofs.«405273_j36395552866595_3_alg».proof.Proof.Gen.ReferenceIdeal
import proofs.«405273_j36395552866595_3_alg».proof.Proof.Gen.Pre_finite_inputs
import proofs.«405273_j36395552866595_3_alg».proof.Proof.Gen.ReferenceIdeal.Run
import proofs.«405273_j36395552866595_3_alg».proof.Proof.KB_Run
import proofs.«405273_j36395552866595_3_alg».proof.Proof.KI_Run
import proofs.«405273_j36395552866595_3_alg».proof.Proof.KI_Val
import proofs.«405273_j36395552866595_3_alg».proof.Proof.KI_ValGate0
import proofs.«405273_j36395552866595_3_alg».proof.Proof.KI_ValGate1
import proofs.«405273_j36395552866595_3_alg».proof.Proof.KI_ValFc
import proofs.«405273_j36395552866595_3_alg».proof.Proof.RefVal
import proofs.«405273_j36395552866595_3_alg».proof.Proof.PreIdx
import Idealize.ShloMosaic.Adequacy
import Idealize.ShloMosaic.Init

noncomputable section

namespace Cert.Proof

open Idealize.ShloMosaic Idealize.ShloMosaic.TcCoe Idealize.SL.Sem

/-- The word-level kernel program runs, faults nowhere and leaves its arguments unchanged. -/
theorem frame_kernel : Cert.frame_Kernel := fun m ρ _ => Cert.Kernel.Run.frame m ρ

/-- So does the idealized kernel program. -/
theorem frame_kernelIdeal : Cert.frame_KernelIdeal := fun m ρ _ => Cert.KernelIdeal.Run.frame m ρ

/-- The reference's frame is its run with the three results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- Under the precondition every token id is non-negative. -/
theorem ids_nonneg (m : (ℓ : Loc Cert.KernelIdeal.nD Cert.KernelIdeal.τ Cert.KernelIdeal.sig) → Buf (Elt Ideal) ℓ) (hpre : Cert.Pre_KernelIdeal m)
    (c : Dev Cert.KernelIdeal.nD) (i : Cert.KernelIdeal.S64.Idx) :
    0 ≤ (m ((c.tc : Thread Cert.KernelIdeal.nD Cert.KernelIdeal.τ).loc Cert.KernelIdeal.main_arg0) i).toInt :=
  Cert.PreIdx.nonneg _ _ _ _ _ _ _ _ _ _ _ _ _ _ (hpre c) i

/-- From memories agreeing on the arguments both idealized programs run, and their three results are the specification's
    at those arguments: equal, element by element. -/
theorem algebraic : Cert.algebraic_KernelIdeal_ReferenceIdeal := by
  intro m ρ m' ρ' hpre hagree
  have hidx := ids_nonneg m hpre
  have hidx' : ∀ (c : Dev Cert.ReferenceIdeal.nD) (i : Cert.ReferenceIdeal.S64.Idx),
      0 ≤ (m' ((c.tc : Thread Cert.ReferenceIdeal.nD Cert.ReferenceIdeal.τ).loc Cert.ReferenceIdeal.main_arg0) i).toInt := fun c i => by
    rw [(hagree c).1]; exact hidx c i
  refine ⟨fun c => Cert.KernelIdeal.Val.lg m c, fun c => Cert.KernelIdeal.Val.hN m c, fun c => Cert.KernelIdeal.Val.cN m c,
    Cert.KernelIdeal.Val.run m hidx Cert.KernelIdeal.Gate0.final Cert.KernelIdeal.Gate1.final Cert.KernelIdeal.Fc.final ρ, ?_⟩
  refine (θ_run Cert.ReferenceIdeal.defs _ _).mono (fun _ h c => ?_) (Cert.ReferenceIdeal.RefVal.run m' ρ' hidx')
  obtain ⟨r0, r1, r2, rargs⟩ := h c
  obtain ⟨e0, e1, e2, e3, e4, e5, e6, e7, e8, e9, e10, e11, e12, e13⟩ := hagree c
  refine ⟨r0.trans ?_, r1.trans ?_, r2.trans ?_, rargs⟩
  · show Cert.Spec.outLogits _ _ _ _ _ _ _ _ _ _ _ _ _ _ = Cert.Spec.outLogits _ _ _ _ _ _ _ _ _ _ _ _ _ _
    rw [e0, e1, e2, e3, e4, e5, e6, e7, e8, e9, e10, e11, e12, e13]
  · show Cert.Spec.outH _ _ _ _ _ _ _ _ _ _ _ _ = Cert.Spec.outH _ _ _ _ _ _ _ _ _ _ _ _
    rw [e0, e1, e2, e3, e4, e5, e6, e7, e8, e9, e10, e11]
  · show Cert.Spec.outC _ _ _ _ _ _ _ _ _ _ _ _ = Cert.Spec.outC _ _ _ _ _ _ _ _ _ _ _ _
    rw [e0, e1, e2, e3, e4, e5, e6, e7, e8, e9, e10, e11]

/-- The certificate: the three frames, the idealization (the pass rewrote nothing), and the equivalence over the extended reals. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
